-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x512 : Shape := ⟨2, ![20000, 512]⟩
abbrev S2x320000 : Shape := ⟨2, ![2, 320000]⟩
abbrev S20000 : Shape := ⟨1, ![20000]⟩
abbrev S512x256 : Shape := ⟨2, ![512, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S20000x512 : S_.BroadcastsInDim S20000x512 (![] : Fin 0 → Fin S20000x512.rank)
  reducesTo_S20000x512_S_d0_1 : S20000x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S1 .f32) (main_v13 : IVec S_ 1) (main_v16 : IVec S256x1 1) : IVec S_ 1 :=
  let main_c_5 : IVec S_ 1 := constantI S_ 1 1#1
  let main_v17 : IVec S_ 1 := (fun x v => Host.reduce IntOp.andi x v reducesTo_S256x1_S_d0_1 h_S_) main_v16 main_c_5
  let main_v18 : IVec S_ 1 := andi main_v13 main_v17
  let main_v19 : FVec F S1 .f32 := Host.absf main_arg6
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S20000x512 .f32) (main_arg1 : IVec S2x320000 32) (main_arg2 : IVec S20000 32) (main_arg3 : FVec F S512x256 .f32) (main_arg4 : FVec F S256 .f32) (main_arg5 : FVec F S256x1 .f32) (main_arg6 : FVec F S1 .f32) : IVec S_ 1 :=
  let main_v0 : FVec F S20000x512 .f32 := Host.absf main_arg0
  let main_cst : FVec F S_ .f32 := constant S_ .f32 0x7F800000#32
  let main_v1 : FVec F S20000x512 .f32 := broadcastInDim S20000x512 ![] bcast_S_S20000x512 main_cst
  let main_v2 : IVec S20000x512 1 := cmpf .olt main_v0 main_v1
  let main_c : IVec S_ 1 := constantI S_ 1 1#1
  let main_v3 : IVec S_ 1 := (fun x v => Host.reduce IntOp.andi x v reducesTo_S20000x512_S_d0_1 h_S_) main_v2 main_c
  let main_v4 : FVec F S512x256 .f32 := Host.absf main_arg3
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x1 .f32 := Host.absf main_arg5
  let main_cst_4 : FVec F S_ .f32 := constant S_ .f32 0x7F800000#32
  let main_v15 : FVec F S256x1 .f32 := broadcastInDim S256x1 ![] bcast_S_S256x1 main_cst_4
  let main_v16 : IVec S256x1 1 := cmpf .olt main_v14 main_v15
  fn_part1 (F := F) main_arg6 main_v13 main_v16
-- ==== Kernel.lean ====
abbrev S20000x512 : Shape := ⟨2, ![20000, 512]⟩
abbrev S2x320000 : Shape := ⟨2, ![2, 320000]⟩
abbrev S20000 : Shape := ⟨1, ![20000]⟩
abbrev S512x256 : Shape := ⟨2, ![512, 256]⟩
abbrev S256 : Shape := ⟨1, ![256]⟩
abbrev S256x1 : Shape := ⟨2, ![256, 1]⟩
abbrev S1 : Shape := ⟨1, ![1]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S20000x256 : Shape := ⟨2, ![20000, 256]⟩
abbrev S5000x512 : Shape := ⟨2, ![5000, 512]⟩
abbrev S5000x256 : Shape := ⟨2, ![5000, 256]⟩
abbrev S320000x256 : Shape := ⟨2, ![320000, 256]⟩
abbrev S20000x1 : Shape := ⟨2, ![20000, 1]⟩
abbrev S1x256 : Shape := ⟨2, ![1, 256]⟩
abbrev S1x1 : Shape := ⟨2, ![1, 1]⟩
abbrev S5000x1 : Shape := ⟨2, ![5000, 1]⟩
abbrev S256x256 : Shape := ⟨2, ![256, 256]⟩

abbrev nBuf : Space → Nat
  | .hbm => 72
  | .vmem => 19
  | .smem => 0
  | _ => 0

abbrev bufTy : (tb : Table) → Fin (tcTables nBuf tb) → BufTy
  | .hbm, ⟨0, _⟩ => ⟨S20000x512, .f32⟩
  | .hbm, ⟨1, _⟩ => ⟨S2x320000, .i32⟩
  | .hbm, ⟨2, _⟩ => ⟨S20000, .i32⟩
  | .hbm, ⟨3, _⟩ => ⟨S512x256, .f32⟩
  | .hbm, ⟨4, _⟩ => ⟨S256, .f32⟩
  | .hbm, ⟨5, _⟩ => ⟨S256x1, .f32⟩
  | .hbm, ⟨6, _⟩ => ⟨S1, .f32⟩
  | .hbm, ⟨7, _⟩ => ⟨S1x320000, .i32⟩
  | .hbm, ⟨8, _⟩ => ⟨S320000, .i32⟩
  | .hbm, ⟨9, _⟩ => ⟨S1x320000, .i32⟩
  | .hbm, ⟨10, _⟩ => ⟨S320000, .i32⟩
  | .hbm, ⟨11, _⟩ => ⟨S_, .f32⟩
  | .hbm, ⟨12, _⟩ => ⟨S320000, .f32⟩
  | .hbm, ⟨13, _⟩ => ⟨S_, .f32⟩
  | .hbm, ⟨14, _⟩ => ⟨S20000, .f32⟩
  | .hbm, ⟨15, _⟩ => ⟨S320000x1, .i32⟩
  | .hbm, ⟨16, _⟩ => ⟨S20000, .f32⟩
  | .hbm, ⟨17, _⟩ => ⟨S_, .f32⟩
  | .hbm, ⟨18, _⟩ => ⟨S20000, .f32⟩
  | .hbm, ⟨19, _⟩ => ⟨S20000, .f32⟩
  | .hbm, ⟨20, _⟩ => ⟨S20000, .f32⟩
  | .hbm, ⟨21, _⟩ => ⟨S20000, .f32⟩
  | .hbm, ⟨22, _⟩ => ⟨S20000x256, .bf16⟩
  | .hbm, ⟨23, _⟩ => ⟨S_, .i32⟩
  | .hbm, ⟨24, _⟩ => ⟨S320000, .i32⟩
  | .hbm, ⟨25, _⟩ => ⟨S320000, .i1⟩
  | .hbm, ⟨26, _⟩ => ⟨S_, .i32⟩
  | .hbm, ⟨27, _⟩ => ⟨S320000, .i32⟩
  | .hbm, ⟨28, _⟩ => ⟨S320000, .i32⟩
  | .hbm, ⟨29, _⟩ => ⟨S320000, .i32⟩
  | .hbm, ⟨30, _⟩ => ⟨S320000x1, .i32⟩
  | .hbm, ⟨31, _⟩ => ⟨S320000, .f32⟩
  | .hbm, ⟨32, _⟩ => ⟨S_, .i32⟩
  | .hbm, ⟨33, _⟩ => ⟨S320000, .i32⟩
  | .hbm, ⟨34, _⟩ => ⟨S320000, .i1⟩
  | .hbm, ⟨35, _⟩ => ⟨S_, .i32⟩
  | .hbm, ⟨36, _⟩ => ⟨S320000, .i32⟩
  | .hbm, ⟨37, _⟩ => ⟨S320000, .i32⟩
  | .hbm, ⟨38, _⟩ => ⟨S320000, .i32⟩
  | .hbm, ⟨39, _⟩ => ⟨S320000x1, .i32⟩
  | .hbm, ⟨40, _⟩ => ⟨S320000, .f32⟩
  | .hbm, ⟨41, _⟩ => ⟨S320000, .f32⟩
  | .hbm, ⟨42, _⟩ => ⟨S_, .i32⟩
  | .hbm, ⟨43, _⟩ => ⟨S320000, .i32⟩
  | .hbm, ⟨44, _⟩ => ⟨S320000, .i1⟩
  | .hbm, ⟨45, _⟩ => ⟨S_, .i32⟩
  | .hbm, ⟨46, _⟩ => ⟨S320000, .i32⟩
  | .hbm, ⟨47, _⟩ => ⟨S320000, .i32⟩
  | .hbm, ⟨48, _⟩ => ⟨S320000, .i32⟩
  | .hbm, ⟨49, _⟩ => ⟨S320000x1, .i32⟩
  | .hbm, ⟨50, _⟩ => ⟨S320000x256, .bf16⟩
  | .hbm, ⟨51, _⟩ => ⟨S320000x1, .f32⟩
  | .hbm, ⟨52, _⟩ => ⟨S320000x256, .f32⟩
  | .hbm, ⟨53, _⟩ => ⟨S320000x256, .f32⟩
  | .hbm, ⟨54, _⟩ => ⟨S320000x256, .f32⟩
  | .hbm, ⟨55, _⟩ => ⟨S_, .f32⟩
  | .hbm, ⟨56, _⟩ => ⟨S20000x256, .f32⟩
  | .hbm, ⟨57, _⟩ => ⟨S320000x1, .i32⟩
  | .hbm, ⟨58, _⟩ => ⟨S20000x256, .f32⟩
  | .hbm, ⟨59, _⟩ => ⟨S_, .f32⟩
  | .hbm, ⟨60, _⟩ => ⟨S20000, .f32⟩
  | .hbm, ⟨61, _⟩ => ⟨S_, .f32⟩
  | .hbm, ⟨62, _⟩ => ⟨S256, .f32⟩
  | .hbm, ⟨63, _⟩ => ⟨S20000x1, .i32⟩
  | .hbm, ⟨64, _⟩ => ⟨S256, .f32⟩
  | .hbm, ⟨65, _⟩ => ⟨S20000x1, .i32⟩
  | .hbm, ⟨66, _⟩ => ⟨S20000x1, .f32⟩
  | .hbm, ⟨67, _⟩ => ⟨S1x256, .f32⟩
  | .hbm, ⟨68, _⟩ => ⟨S256x1, .f32⟩
  | .hbm, ⟨69, _⟩ => ⟨S1x1, .f32⟩
  | .hbm, ⟨70, _⟩ => ⟨S256x1, .f32⟩
  | .hbm, ⟨71, _⟩ => ⟨S256, .f32⟩
  | .local _ .vmem, ⟨0, _⟩ => ⟨S5000x512, .f32⟩
  | .local _ .vmem, ⟨1, _⟩ => ⟨S5000x512, .f32⟩
  | .local _ .vmem, ⟨2, _⟩ => ⟨S512x256, .f32⟩
  | .local _ .vmem, ⟨3, _⟩ => ⟨S5000x256, .bf16⟩
  | .local _ .vmem, ⟨4, _⟩ => ⟨S5000x256, .bf16⟩
  | .local _ .vmem, ⟨5, _⟩ => ⟨S5000x256, .f32⟩
  | .local _ .vmem, ⟨6, _⟩ => ⟨S5000x256, .f32⟩
  | .local _ .vmem, ⟨7, _⟩ => ⟨S5000x256, .bf16⟩
  | .local _ .vmem, ⟨8, _⟩ => ⟨S5000x256, .bf16⟩
  | .local _ .vmem, ⟨9, _⟩ => ⟨S5000x1, .f32⟩
  | .local _ .vmem, ⟨10, _⟩ => ⟨S5000x1, .f32⟩
  | .local _ .vmem, ⟨11, _⟩ => ⟨S1x256, .f32⟩
  | .local _ .vmem, ⟨12, _⟩ => ⟨S5000x1, .i32⟩
  | .local _ .vmem, ⟨13, _⟩ => ⟨S5000x1, .i32⟩
  | .local _ .vmem, ⟨14, _⟩ => ⟨S256x1, .f32⟩
  | .local _ .vmem, ⟨15, _⟩ => ⟨S256x1, .f32⟩
  | .local _ .vmem, ⟨16, _⟩ => ⟨S1x1, .f32⟩
  | .local _ .vmem, ⟨17, _⟩ => ⟨S256x1, .f32⟩
  | .local _ .vmem, ⟨18, _⟩ => ⟨S256x256, .f32⟩
  | _, _ => ⟨S20000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c : Ref sig .tc := ⟨.hbm, 23, rfl⟩
abbrev main_v13 : Ref sig .tc := ⟨.hbm, 24, rfl⟩
abbrev main_v14 : Ref sig .tc := ⟨.hbm, 25, rfl⟩
abbrev main_c_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_3 : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_5 : Ref sig .tc := ⟨.hbm, 42, rfl⟩
abbrev main_v28 : Ref sig .tc := ⟨.hbm, 43, rfl⟩
abbrev main_v29 : Ref sig .tc := ⟨.hbm, 44, rfl⟩
abbrev main_c_6 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_7 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_8 : Ref sig .tc := ⟨.hbm, 59, rfl⟩
abbrev main_v42 : Ref sig .tc := ⟨.hbm, 60, rfl⟩
abbrev main_cst_9 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem6_0 : DmaSem sig := 15
abbrev cc1_sem7_0 : DmaSem sig := 16
abbrev cc1_sem8_0 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![4], ![false]⟩

def k1_cond1 (i : grid1.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k1_cond2 (i : grid1.Coords) : BitVec 1 :=
  let arg0 : BitVec 32 := BitVec.ofNat 32 (i 0).val
  let c3_i32 : BitVec 32 := 3#32
  let v34 : BitVec 1 := Scalar.cmpi .eq arg0 c3_i32
  let v35 : BitVec 32 := Scalar.extui v34
  let c0_i32_15 : BitVec 32 := 0#32
  let v36 : BitVec 1 := Scalar.cmpi .ne v35 c0_i32_15
  v36

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x1 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S256x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S256x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S_S20000 : S_.BroadcastsInDim S20000 (![] : Fin 0 → Fin S20000.rank)
  bcast_S320000_S320000x1_0 : S320000.BroadcastsInDim S320000x1 (![0] : Fin 1 → Fin S320000x1.rank)
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S5000x256_S5000x256_0_0 : ∀ a, (![0, 0] : Fin 2 → Nat) a + S5000x256.size a ≤ S5000x256.size a
  h_S5000x256 : 0 < S5000x256.numel
  packedbf16_S5000x256_S5000x256_0_0 : (Rect.unit (s := S5000x256) ![0, 0] S5000x256.size inb_S5000x256_S5000x256_0_0).PackedRows (EltTy.packing .bf16)
  bcast_S320000x1_S320000x256_0_1 : S320000x1.BroadcastsInDim S320000x256 (![0, 1] : Fin 2 → Fin S320000x256.rank)
  bcast_S_S20000x256 : S_.BroadcastsInDim S20000x256 (![] : Fin 0 → Fin S20000x256.rank)
  bcast_S_S256 : S_.BroadcastsInDim S256 (![] : Fin 0 → Fin S256.rank)
  bcast_S20000_S20000x1_0 : S20000.BroadcastsInDim S20000x1 (![0] : Fin 1 → Fin S20000x1.rank)
  shapeCasts_S20000_S20000x1 : S20000.ShapeCasts S20000x1
  shapeCasts_S256_S1x256 : S256.ShapeCasts S1x256
  shapeCasts_S256_S256x1 : S256.ShapeCasts S256x1
  shapeCasts_S1_S1x1 : S1.ShapeCasts S1x1
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x1_S256x1_0_0 : ∀ a, (![0, 0] : Fin 2 → Nat) a + S256x1.size a ≤ S256x1.size a
  h_S256x1 : 0 < S256x1.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  shapeCasts_S5000x256_S5000x256 : S5000x256.ShapeCasts S5000x256
  broadcasts_S5000x1_S5000x256 : S5000x1.Broadcasts S5000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  iota_S5000x256_d1_w32 : S5000x256.Iotas .tc 32 [1]
  natLt_1_32 : 1 < 32
  shapeCasts_S256x1_S256x1 : S256x1.ShapeCasts S256x1
  broadcasts_S256x1_S256x256 : S256x1.Broadcasts S256x256
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S256x1 : S1x1.Broadcasts S256x1
  shapeCasts_S256x1_S256 : S256x1.ShapeCasts S256
  scatter_S20000_S320000x1_S320000_n_0_0_1_wf : ScatterDims.WF S20000 S320000x1 S320000 [] [0] [0] 1
  dot_S5000x512_S512x256_S5000x256_1_0_0_1_n_n_wf : DotDims.WF S5000x512 S512x256 S5000x256 [1] [0] [0] [1] [] []
  gather_S20000_S320000x1_S320000_n_0_n_n_0_1_1_wf : GatherDims.WF S20000 S320000x1 S320000 [] [0] [] [0] [] 1 ![1]
  gather_S20000x256_S320000x1_S320000x256_1_0_n_n_0_1_1256_wf : GatherDims.WF S20000x256 S320000x1 S320000x256 [1] [0] [] [0] [] 1 ![1, 256]
  scatter_S20000x256_S320000x1_S320000x256_1_0_0_1_wf : ScatterDims.WF S20000x256 S320000x1 S320000x256 [1] [0] [0] 1
  scatter_S256_S20000x1_S20000_n_0_0_1_wf : ScatterDims.WF S256 S20000x1 S20000 [] [0] [0] 1
  dot_S5000x256_S5000x256_S256x256_0_0_1_1_n_n_wf : DotDims.WF S5000x256 S5000x256 S256x256 [0] [0] [1] [1] [] []
  dot_S256x256_S256x1_S256x1_1_0_0_1_n_n_wf : DotDims.WF S256x256 S256x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S20000x512.size a
  hwx0_0 : ∀ i : grid0.Coords, EltTy.bits .f32 = 32 ∨ (Rect.block (s := S20000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S20000x256.size a
  hwx0_2 : ∀ i : grid0.Coords, EltTy.bits .bf16 = 32 ∨ (Rect.block (s := S20000x256) S5000x256.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S20000x256.size a
  hwx1_0 : ∀ i : grid1.Coords, EltTy.bits .f32 = 32 ∨ (Rect.block (s := S20000x256) S5000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x256.size a ≤ S20000x256.size a
  hwx1_1 : ∀ i : grid1.Coords, EltTy.bits .bf16 = 32 ∨ (Rect.block (s := S20000x256) S5000x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S20000x1.size a
  hwx1_2 : ∀ i : grid1.Coords, EltTy.bits .f32 = 32 ∨ (Rect.block (s := S20000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x1.size a ≤ S20000x1.size a
  hwx1_4 : ∀ i : grid1.Coords, EltTy.bits .i32 = 32 ∨ (Rect.block (s := S20000x1) S5000x1.size (cc1_transform_4 i) (hinb1_4 i)).WholeWords (EltTy.packing .i32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x1.size a ≤ S256x1.size a
  hwx1_5 : ∀ i : grid1.Coords, EltTy.bits .f32 = 32 ∨ (Rect.block (s := S256x1) S256x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S256x1.size a ≤ S256x1.size a
  hwx1_6 : ∀ i : grid1.Coords, EltTy.bits .f32 = 32 ∨ (Rect.block (s := S256x1) S256x1.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x1.size a ≤ S1x1.size a
  hwx1_7 : ∀ i : grid1.Coords, EltTy.bits .f32 = 32 ∨ (Rect.block (s := S1x1) S1x1.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S256x1.size a ≤ S256x1.size a
  hwx1_8 : ∀ i : grid1.Coords, EltTy.bits .f32 = 32 ∨ (Rect.block (s := S256x1) S256x1.size (cc1_transform_8 i) (hinb1_8 i)).WholeWords (EltTy.packing .f32)

variable [Facts₀]

def scatter_S20000_S320000x1_S320000_n_0_0_1 : ScatterDims S20000 S320000x1 S320000 where
  updateWindowDims := []
  insertedWindowDims := [0]
  scatterDimsToOperandDims := [0]
  indexVectorDim := 1
  wf := scatter_S20000_S320000x1_S320000_n_0_0_1_wf
def dot_S5000x512_S512x256_S5000x256_1_0_0_1_n_n : DotDims S5000x512 S512x256 S5000x256 where
  lhsContracting := [1]
  rhsContracting := [0]
  lhsNonContracting := [0]
  rhsNonContracting := [1]
  lhsBatch := []
  rhsBatch := []
  wf := dot_S5000x512_S512x256_S5000x256_1_0_0_1_n_n_wf
def gather_S20000_S320000x1_S320000_n_0_n_n_0_1_1 : GatherDims S20000 S320000x1 S320000 where
  offsetDims := []
  collapsedSliceDims := [0]
  operandBatchingDims := []
  startIndicesBatchingDims := []
  startIndexMap := [0]
  indexVectorDim := 1
  sliceSizes := ![1]
  wf := gather_S20000_S320000x1_S320000_n_0_n_n_0_1_1_wf
def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf
def scatter_S256_S20000x1_S20000_n_0_0_1 : ScatterDims S256 S20000x1 S20000 where
  updateWindowDims := []
  insertedWindowDims := [0]
  scatterDimsToOperandDims := [0]
  indexVectorDim := 1
  wf := scatter_S256_S20000x1_S20000_n_0_0_1_wf
def dot_S5000x256_S5000x256_S256x256_0_0_1_1_n_n : DotDims S5000x256 S5000x256 S256x256 where
  lhsContracting := [0]
  rhsContracting := [0]
  lhsNonContracting := [1]
  rhsNonContracting := [1]
  lhsBatch := []
  rhsBatch := []
  wf := dot_S5000x256_S5000x256_S256x256_0_0_1_1_n_n_wf
def dot_S256x256_S256x1_S256x1_1_0_0_1_n_n : DotDims S256x256 S256x1 S256x1 where
  lhsContracting := [1]
  rhsContracting := [0]
  lhsNonContracting := [0]
  rhsNonContracting := [1]
  lhsBatch := []
  rhsBatch := []
  wf := dot_S256x256_S256x1_S256x1_1_0_0_1_n_n_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v48) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46) S5000x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v49) S256x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg5) S256x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v50) S1x1.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v51) S256x1.size cc1_transform_8 reads1_8 true true 1 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev idle1 : Fin 9 → grid1.Coords → Bool := fun | 0 => fun _ => false | 1 => fun _ => false | 2 => fun _ => false | 3 => fun _ => false | 4 => fun _ => false | 5 => fun _ => false | 6 => fun _ => false | 7 => fun _ => false | 8 => fun i => !(k1_cond1 i == 1#1) && !(k1_cond2 i == 1#1) | ⟨_ + 9, h⟩ => absurd h (Nat.not_lt.2 (Nat.le_add_left _ _))

class Facts : Prop extends Facts₀ where

variable [Facts]
-- ==== ReferenceIdeal.lean ====
abbrev S20000x512 : Shape := ⟨2, ![20000, 512]⟩
abbrev S2x320000 : Shape := ⟨2, ![2, 320000]⟩
abbrev S20000 : Shape := ⟨1, ![20000]⟩
abbrev S512x256 : Shape := ⟨2, ![512, 256]⟩
abbrev S256 : Shape := ⟨1, ![256]⟩
abbrev S256x1 : Shape := ⟨2, ![256, 1]⟩
abbrev S1 : Shape := ⟨1, ![1]⟩
abbrev S1x320000 : Shape := ⟨2, ![1, 320000]⟩
abbrev S320000 : Shape := ⟨1, ![320000]⟩
abbrev S340000 : Shape := ⟨1, ![340000]⟩
abbrev S_ : Shape := ⟨0, ![]⟩
abbrev S340000x1 : Shape := ⟨2, ![340000, 1]⟩
abbrev S20000x256 : Shape := ⟨2, ![20000, 256]⟩
abbrev S340000x256 : Shape := ⟨2, ![340000, 256]⟩
abbrev S1x256 : Shape := ⟨2, ![1, 256]⟩
abbrev S256x256 : Shape := ⟨2, ![256, 256]⟩
abbrev S20000x1 : Shape := ⟨2, ![20000, 1]⟩
abbrev S1x1 : Shape := ⟨2, ![1, 1]⟩

abbrev nBuf : Space → Nat
  | .hbm => 99
  | .vmem => 0
  | .smem => 0
  | _ => 0

abbrev bufTy : (tb : Table) → Fin (tcTables nBuf tb) → BufTy
  | .hbm, ⟨0, _⟩ => ⟨S20000x512, .f32⟩
  | .hbm, ⟨1, _⟩ => ⟨S2x320000, .i32⟩
  | .hbm, ⟨2, _⟩ => ⟨S20000, .i32⟩
  | .hbm, ⟨3, _⟩ => ⟨S512x256, .f32⟩
  | .hbm, ⟨4, _⟩ => ⟨S256, .f32⟩
  | .hbm, ⟨5, _⟩ => ⟨S256x1, .f32⟩
  | .hbm, ⟨6, _⟩ => ⟨S1, .f32⟩
  | .hbm, ⟨7, _⟩ => ⟨S20000, .i32⟩
  | .hbm, ⟨8, _⟩ => ⟨S1x320000, .i32⟩
  | .hbm, ⟨9, _⟩ => ⟨S320000, .i32⟩
  | .hbm, ⟨10, _⟩ => ⟨S340000, .i32⟩
  | .hbm, ⟨11, _⟩ => ⟨S1x320000, .i32⟩
  | .hbm, ⟨12, _⟩ => ⟨S320000, .i32⟩
  | .hbm, ⟨13, _⟩ => ⟨S340000, .i32⟩
  | .hbm, ⟨14, _⟩ => ⟨S_, .f32⟩
  | .hbm, ⟨15, _⟩ => ⟨S340000, .f32⟩
  | .hbm, ⟨16, _⟩ => ⟨S_, .f32⟩
  | .hbm, ⟨17, _⟩ => ⟨S20000, .f32⟩
  | .hbm, ⟨18, _⟩ => ⟨S340000x1, .i32⟩
  | .hbm, ⟨19, _⟩ => ⟨S20000, .f32⟩
  | .hbm, ⟨20, _⟩ => ⟨S_, .f32⟩
  | .hbm, ⟨21, _⟩ => ⟨S20000, .f32⟩
  | .hbm, ⟨22, _⟩ => ⟨S20000, .i1⟩
  | .hbm, ⟨23, _⟩ => ⟨S20000, .f32⟩
  | .hbm, ⟨24, _⟩ => ⟨S_, .f32⟩
  | .hbm, ⟨25, _⟩ => ⟨S_, .f32⟩
  | .hbm, ⟨26, _⟩ => ⟨S20000, .f32⟩
  | .hbm, ⟨27, _⟩ => ⟨S20000, .f32⟩
  | .hbm, ⟨28, _⟩ => ⟨S_, .i32⟩
  | .hbm, ⟨29, _⟩ => ⟨S340000, .i32⟩
  | .hbm, ⟨30, _⟩ => ⟨S340000, .i1⟩
  | .hbm, ⟨31, _⟩ => ⟨S_, .i32⟩
  | .hbm, ⟨32, _⟩ => ⟨S340000, .i32⟩
  | .hbm, ⟨33, _⟩ => ⟨S340000, .i32⟩
  | .hbm, ⟨34, _⟩ => ⟨S340000, .i32⟩
  | .hbm, ⟨35, _⟩ => ⟨S340000x1, .i32⟩
  | .hbm, ⟨36, _⟩ => ⟨S340000, .f32⟩
  | .hbm, ⟨37, _⟩ => ⟨S_, .i32⟩
  | .hbm, ⟨38, _⟩ => ⟨S340000, .i32⟩
  | .hbm, ⟨39, _⟩ => ⟨S340000, .i1⟩
  | .hbm, ⟨40, _⟩ => ⟨S_, .i32⟩
  | .hbm, ⟨41, _⟩ => ⟨S340000, .i32⟩
  | .hbm, ⟨42, _⟩ => ⟨S340000, .i32⟩
  | .hbm, ⟨43, _⟩ => ⟨S340000, .i32⟩
  | .hbm, ⟨44, _⟩ => ⟨S340000x1, .i32⟩
  | .hbm, ⟨45, _⟩ => ⟨S340000, .f32⟩
  | .hbm, ⟨46, _⟩ => ⟨S340000, .f32⟩
  | .hbm, ⟨47, _⟩ => ⟨S20000x256, .f32⟩
  | .hbm, ⟨48, _⟩ => ⟨S_, .i32⟩
  | .hbm, ⟨49, _⟩ => ⟨S340000, .i32⟩
  | .hbm, ⟨50, _⟩ => ⟨S340000, .i1⟩
  | .hbm, ⟨51, _⟩ => ⟨S_, .i32⟩
  | .hbm, ⟨52, _⟩ => ⟨S340000, .i32⟩
  | .hbm, ⟨53, _⟩ => ⟨S340000, .i32⟩
  | .hbm, ⟨54, _⟩ => ⟨S340000, .i32⟩
  | .hbm, ⟨55, _⟩ => ⟨S340000x1, .i32⟩
  | .hbm, ⟨56, _⟩ => ⟨S340000x256, .f32⟩
  | .hbm, ⟨57, _⟩ => ⟨S340000x1, .f32⟩
  | .hbm, ⟨58, _⟩ => ⟨S340000x256, .f32⟩
  | .hbm, ⟨59, _⟩ => ⟨S340000x256, .f32⟩
  | .hbm, ⟨60, _⟩ => ⟨S_, .f32⟩
  | .hbm, ⟨61, _⟩ => ⟨S20000x256, .f32⟩
  | .hbm, ⟨62, _⟩ => ⟨S340000x1, .i32⟩
  | .hbm, ⟨63, _⟩ => ⟨S20000x256, .f32⟩
  | .hbm, ⟨64, _⟩ => ⟨S1x256, .f32⟩
  | .hbm, ⟨65, _⟩ => ⟨S20000x256, .f32⟩
  | .hbm, ⟨66, _⟩ => ⟨S20000x256, .f32⟩
  | .hbm, ⟨67, _⟩ => ⟨S_, .f32⟩
  | .hbm, ⟨68, _⟩ => ⟨S20000x256, .f32⟩
  | .hbm, ⟨69, _⟩ => ⟨S20000x256, .f32⟩
  | .hbm, ⟨70, _⟩ => ⟨S_, .f32⟩
  | .hbm, ⟨71, _⟩ => ⟨S256x256, .f32⟩
  | .hbm, ⟨72, _⟩ => ⟨S20000x1, .i32⟩
  | .hbm, ⟨73, _⟩ => ⟨S256x256, .f32⟩
  | .hbm, ⟨74, _⟩ => ⟨S_, .f32⟩
  | .hbm, ⟨75, _⟩ => ⟨S20000, .f32⟩
  | .hbm, ⟨76, _⟩ => ⟨S_, .f32⟩
  | .hbm, ⟨77, _⟩ => ⟨S256, .f32⟩
  | .hbm, ⟨78, _⟩ => ⟨S20000x1, .i32⟩
  | .hbm, ⟨79, _⟩ => ⟨S256, .f32⟩
  | .hbm, ⟨80, _⟩ => ⟨S_, .f32⟩
  | .hbm, ⟨81, _⟩ => ⟨S256, .f32⟩
  | .hbm, ⟨82, _⟩ => ⟨S256, .f32⟩
  | .hbm, ⟨83, _⟩ => ⟨S256x1, .f32⟩
  | .hbm, ⟨84, _⟩ => ⟨S256x256, .f32⟩
  | .hbm, ⟨85, _⟩ => ⟨S256x256, .f32⟩
  | .hbm, ⟨86, _⟩ => ⟨S256x1, .f32⟩
  | .hbm, ⟨87, _⟩ => ⟨S1x1, .f32⟩
  | .hbm, ⟨88, _⟩ => ⟨S256x1, .f32⟩
  | .hbm, ⟨89, _⟩ => ⟨S256x1, .f32⟩
  | .hbm, ⟨90, _⟩ => ⟨S256x1, .f32⟩
  | .hbm, ⟨91, _⟩ => ⟨S256x1, .f32⟩
  | .hbm, ⟨92, _⟩ => ⟨S_, .f32⟩
  | .hbm, ⟨93, _⟩ => ⟨S256x1, .f32⟩
  | .hbm, ⟨94, _⟩ => ⟨S256x1, .f32⟩
  | .hbm, ⟨95, _⟩ => ⟨S_, .f32⟩
  | .hbm, ⟨96, _⟩ => ⟨S256x1, .f32⟩
  | .hbm, ⟨97, _⟩ => ⟨S256x1, .f32⟩
  | .hbm, ⟨98, _⟩ => ⟨S256, .f32⟩
  | _, _ => ⟨S20000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_call1_cst : Ref sig .tc := ⟨.hbm, 67, rfl⟩
abbrev main_call1_v0 : Ref sig .tc := ⟨.hbm, 68, rfl⟩
abbrev main_v47 : Ref sig .tc := ⟨.hbm, 69, rfl⟩
abbrev main_cst_9 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_10 : Ref sig .tc := ⟨.hbm, 74, rfl⟩
abbrev main_v51 : Ref sig .tc := ⟨.hbm, 75, rfl⟩
abbrev main_cst_11 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_12 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_13 : Ref sig .tc := ⟨.hbm, 92, rfl⟩
abbrev main_v66 : Ref sig .tc := ⟨.hbm, 93, rfl⟩
abbrev main_v67 : Ref sig .tc := ⟨.hbm, 94, rfl⟩
abbrev main_cst_14 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  concatenates_S320000_S20000_S340000_d0 : Shape.Concatenates [S320000, S20000] S340000 0
  slices_S2x320000_S1x320000_1_0 : S2x320000.Slices ![1, 0] S1x320000
  bcast_S_S340000 : S_.BroadcastsInDim S340000 (![] : Fin 0 → Fin S340000.rank)
  bcast_S_S20000 : S_.BroadcastsInDim S20000 (![] : Fin 0 → Fin S20000.rank)
  bcast_S340000_S340000x1_0 : S340000.BroadcastsInDim S340000x1 (![0] : Fin 1 → Fin S340000x1.rank)
  bcast_S340000x1_S340000x256_0_1 : S340000x1.BroadcastsInDim S340000x256 (![0, 1] : Fin 2 → Fin S340000x256.rank)
  bcast_S_S20000x256 : S_.BroadcastsInDim S20000x256 (![] : Fin 0 → Fin S20000x256.rank)
  bcast_S256_S1x256_1 : S256.BroadcastsInDim S1x256 (![1] : Fin 1 → Fin S1x256.rank)
  bcast_S1x256_S20000x256_0_1 : S1x256.BroadcastsInDim S20000x256 (![0, 1] : Fin 2 → Fin S20000x256.rank)
  bcast_S_S256x256 : S_.BroadcastsInDim S256x256 (![] : Fin 0 → Fin S256x256.rank)
  bcast_S20000_S20000x1_0 : S20000.BroadcastsInDim S20000x1 (![0] : Fin 1 → Fin S20000x1.rank)
  bcast_S_S256 : S_.BroadcastsInDim S256 (![] : Fin 0 → Fin S256.rank)
  bcast_S256_S256x1_0 : S256.BroadcastsInDim S256x1 (![0] : Fin 1 → Fin S256x1.rank)
  bcast_S256x1_S256x256_0_1 : S256x1.BroadcastsInDim S256x256 (![0, 1] : Fin 2 → Fin S256x256.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  bcast_S_S256x1 : S_.BroadcastsInDim S256x1 (![] : Fin 0 → Fin S256x1.rank)
  shapeCasts_S256x1_S256 : S256x1.ShapeCasts S256
  scatter_S20000_S340000x1_S340000_n_0_0_1_wf : ScatterDims.WF S20000 S340000x1 S340000 [] [0] [0] 1
  gather_S20000_S340000x1_S340000_n_0_n_n_0_1_1_wf : GatherDims.WF S20000 S340000x1 S340000 [] [0] [] [0] [] 1 ![1]
  dot_S20000x512_S512x256_S20000x256_1_0_0_1_n_n_wf : DotDims.WF S20000x512 S512x256 S20000x256 [1] [0] [0] [1] [] []
  gather_S20000x256_S340000x1_S340000x256_1_0_n_n_0_1_1256_wf : GatherDims.WF S20000x256 S340000x1 S340000x256 [1] [0] [] [0] [] 1 ![1, 256]
  scatter_S20000x256_S340000x1_S340000x256_1_0_0_1_wf : ScatterDims.WF S20000x256 S340000x1 S340000x256 [1] [0] [0] 1
  scatter_S256x256_S20000x1_S20000x256_1_0_0_1_wf : ScatterDims.WF S256x256 S20000x1 S20000x256 [1] [0] [0] 1
  scatter_S256_S20000x1_S20000_n_0_0_1_wf : ScatterDims.WF S256 S20000x1 S20000 [] [0] [0] 1
  dot_S256x256_S256x1_S256x1_1_0_0_1_n_n_wf : DotDims.WF S256x256 S256x1 S256x1 [1] [0] [0] [1] [] []

variable [Facts₀]

def scatter_S20000_S340000x1_S340000_n_0_0_1 : ScatterDims S20000 S340000x1 S340000 where
  updateWindowDims := []
  insertedWindowDims := [0]
  scatterDimsToOperandDims := [0]
  indexVectorDim := 1
  wf := scatter_S20000_S340000x1_S340000_n_0_0_1_wf
def gather_S20000_S340000x1_S340000_n_0_n_n_0_1_1 : GatherDims S20000 S340000x1 S340000 where
  offsetDims := []
  collapsedSliceDims := [0]
  operandBatchingDims := []
  startIndicesBatchingDims := []
  startIndexMap := [0]
  indexVectorDim := 1
  sliceSizes := ![1]
  wf := gather_S20000_S340000x1_S340000_n_0_n_n_0_1_1_wf
def dot_S20000x512_S512x256_S20000x256_1_0_0_1_n_n : DotDims S20000x512 S512x256 S20000x256 where
  lhsContracting := [1]
  rhsContracting := [0]
  lhsNonContracting := [0]
  rhsNonContracting := [1]
  lhsBatch := []
  rhsBatch := []
  wf := dot_S20000x512_S512x256_S20000x256_1_0_0_1_n_n_wf
def gather_S20000x256_S340000x1_S340000x256_1_0_n_n_0_1_1256 : GatherDims S20000x256 S340000x1 S340000x256 where
  offsetDims := [1]
  collapsedSliceDims := [0]
  operandBatchingDims := []
  startIndicesBatchingDims := []
  startIndexMap := [0]
  indexVectorDim := 1
  sliceSizes := ![1, 256]
  wf := gather_S20000x256_S340000x1_S340000x256_1_0_n_n_0_1_1256_wf
def scatter_S20000x256_S340000x1_S340000x256_1_0_0_1 : ScatterDims S20000x256 S340000x1 S340000x256 where
  updateWindowDims := [1]
  insertedWindowDims := [0]
  scatterDimsToOperandDims := [0]
  indexVectorDim := 1
  wf := scatter_S20000x256_S340000x1_S340000x256_1_0_0_1_wf
def scatter_S256x256_S20000x1_S20000x256_1_0_0_1 : ScatterDims S256x256 S20000x1 S20000x256 where
  updateWindowDims := [1]
  insertedWindowDims := [0]
  scatterDimsToOperandDims := [0]
  indexVectorDim := 1
  wf := scatter_S256x256_S20000x1_S20000x256_1_0_0_1_wf
def scatter_S256_S20000x1_S20000_n_0_0_1 : ScatterDims S256 S20000x1 S20000 where
  updateWindowDims := []
  insertedWindowDims := [0]
  scatterDimsToOperandDims := [0]
  indexVectorDim := 1
  wf := scatter_S256_S20000x1_S20000_n_0_0_1_wf
def dot_S256x256_S256x1_S256x1_1_0_0_1_n_n : DotDims S256x256 S256x1 S256x1 where
  lhsContracting := [1]
  rhsContracting := [0]
  lhsNonContracting := [0]
  rhsNonContracting := [1]
  lhsBatch := []
  rhsBatch := []
  wf := dot_S256x256_S256x1_S256x1_1_0_0_1_n_n_wf

class Facts : Prop extends Facts₀ where

variable [Facts]
-- ==== Proof.BProj.lean ====
/-
  The projection `x · W` as a pipelined region: 4 grid points, each staging 5000 rows of `x` and all of `W` and
  writing back 5000 rows of the product.  This module is the region's half of the frame: what each window's staging
  buffer holds at a point, the body's triple (two loads, one store of the product of the two blocks), the proof data
  and the body obligation, all at a parameter `V`, the buffer contents when the region is entered.
-/
import proofs.«414209_j12506944766171_3_alg».proof.Proof.Gen.Kernel.Launch
import proofs.«414209_j12506944766171_3_alg».proof.Proof.Gen.Kernel.Skeleton
import proofs.«414209_j12506944766171_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows: the elaborator's structural look recurses once per coordinate
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what core `c`'s buffers hold when the projection's region is entered: the parameter everything here is stated at
variable (V : (c : Dev nD) → (b : Ref sig .tc) → Buf (Elt F) ((c : Thread nD τ).loc b))

/-! ## The windows' blocks: 5000 rows of `x`, all of `W`, 5000 rows of the product -/

/-- Window `w`'s block at grid point `t`, read off its array as the region finds it. -/
def projBlk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The staging buffer of the `x` window holds the point's 5000 rows at every point, for any proof data over `V`
    whose body leaves the block in place. -/
theorem projBefore0_of {c : Dev nD} (dat : Dat τ (Elt F) Unit ℕ (UR sig nD τ) ℕ cfg0 c) (hA : dat.A 0 = V c (Pipeline.arrRef spec0 0))
    (hafter : ∀ t, dat.after 0 t = projBlk V c 0 t) (t : Fin cfg0.N) (d) : dat.before 0 t d = projBlk V c 0 t :=
  (dat.before_in_eq_fetched 0 rfl (fun _ => rfl) (fun _ _ _ => rfl) (fun t => by rw [hafter]; unfold Dat.blockOf projBlk; rw [hA]; try rfl) t d).trans
    (by unfold Dat.fetched Dat.blockOf projBlk; rw [hA]; try rfl)

/-- The staging buffer of the `W` window holds all of `W` at every point: it is fetched once, and its block never moves. -/
theorem projBefore1_of {c : Dev nD} (dat : Dat τ (Elt F) Unit ℕ (UR sig nD τ) ℕ cfg0 c) (hA : dat.A 1 = V c (Pipeline.arrRef spec0 1))
    (hafter : ∀ t, dat.after 1 t = projBlk V c 1 t) (t : Fin cfg0.N) (d) : dat.before 1 t d = projBlk V c 1 t :=
  (dat.before_in_eq_fetched 1 rfl (fun _ => rfl) (fun _ _ _ => rfl) (fun t => by rw [hafter]; unfold Dat.blockOf projBlk; rw [hA]; try rfl) t d).trans
    (by unfold Dat.fetched Dat.blockOf projBlk; rw [hA]; try rfl)

/-! ## The body's accesses: each buffer whole -/

abbrev projRx : Rect S5000x512 := Rect.unit (s := S5000x512) ![0, 0] S5000x512.size inb_S5000x512_S5000x512_0_0
abbrev projRw : Rect S512x256 := Rect.unit (s := S512x256) ![0, 0] S512x256.size inb_S512x256_S512x256_0_0
abbrev projRo : Rect S5000x256 := Rect.unit (s := S5000x256) ![0, 0] S5000x256.size inb_S5000x256_S5000x256_0_0

/-- What the body leaves in the product window's buffer: its one store, the product of the `x` block with `W`. -/
def projOut (x0 : Vec F S5000x512 .f32) (x1 : Vec F S512x256 .f32) : Vec F S5000x256 .bf16 :=
  View.canon [⟨projRo, k0_pay1 (View.ld x0 projRx) (View.ld x1 projRw)⟩]

/-- The one store covers the buffer. -/
theorem projCover (p0 : Vec F S5000x256 .bf16) (y : S5000x256.Idx) :
    ∃ pc ∈ ([⟨projRo, p0⟩] : List (View.Piece (Elt F) S5000x256 .bf16)), y ∈ pc.1.set :=
  View.cover_of_tiled [⟨projRo, p0⟩] S5000x256.size (by rfl) y

/-! ## The body's triple -/

set_option maxHeartbeats 4000000 in
/-- On whole staging buffers, the two inputs' at their contents and the product's at anything, the body runs to the
    continuation with the inputs as they were and the product's buffer at `projOut` of them. -/
theorem projSound (c : Dev nD) (E : Set ℕ) (i : grid0.Coords)
    (arg1 : Memref sig .tc .vmem S5000x512 .f32) (harg1 : arg1.IsWhole) (arg2 : Memref sig .tc .vmem S512x256 .f32) (harg2 : arg2.IsWhole)
    (arg3 : Memref sig .tc .vmem S5000x256 .bf16) (harg3 : arg3.IsWhole)
    (x0 : Vec F S5000x512 .f32) (x1 : Vec F S512x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (projOut x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (projCover _)

/-! ## The region's proof data -/

/-- The projection's proof data on core `c`: the arrays as the region finds them; after the body at point `t` each
    input's buffer at its block and the product's at `projOut` of the two blocks; the invariant the scoped rest and the
    generator register, untouched; nothing owed; full shares. -/
def projDat (c : Dev nD) : Dat τ (Elt F) Unit ℕ (UR sig nD τ) ℕ cfg0 c where
  A w := V c (Pipeline.arrRef spec0 w)
  after w t := match w with
    | ⟨0, _⟩ => projBlk V c 0 t
    | ⟨1, _⟩ => projBlk V c 1 t
    | ⟨2, _⟩ => projOut (projBlk V c 0 t) (projBlk V c 1 t)
  Φ _ := Pipeline.ΦA spec0 c
  q _ := fullShare
  owed _ := 0

theorem projA_eq (c : Dev nD) (w : Fin cfg0.W) : (projDat V c).A w = V c (Pipeline.arrRef spec0 w) := by
  dsimp only [projDat]

theorem projAfter0 (c : Dev nD) (t : Fin cfg0.N) : (projDat V c).after 0 t = projBlk V c 0 t := by dsimp only [projDat]
theorem projAfter1 (c : Dev nD) (t : Fin cfg0.N) : (projDat V c).after 1 t = projBlk V c 1 t := by dsimp only [projDat]
theorem projAfter2 (c : Dev nD) (t : Fin cfg0.N) :
    (projDat V c).after 2 t = projOut (projBlk V c 0 t) (projBlk V c 1 t) := by dsimp only [projDat]

theorem projBefore0 (c : Dev nD) (t : Fin cfg0.N) (d) : (projDat V c).before 0 t d = projBlk V c 0 t :=
  projBefore0_of V (projDat V c) (projA_eq V c 0) (projAfter0 V c) t d
theorem projBefore1 (c : Dev nD) (t : Fin cfg0.N) (d) : (projDat V c).before 1 t d = projBlk V c 1 t :=
  projBefore1_of V (projDat V c) (projA_eq V c 1) (projAfter1 V c) t d

/-! ## The body obligation -/

def projPre (c : Dev nD) (t : Fin cfg0.N) : sProp 𝕄 :=
  iprop((projDat V c).Φ t.castSucc ∗ (projDat V c).owesAt () t.castSucc
    ∗ (∃ d, owns (c : Thread nD τ) (st0_0 t) fullShare ((projDat V c).before 0 t d))
    ∗ (∃ d, owns (c : Thread nD τ) (st0_1 t) fullShare ((projDat V c).before 1 t d))
    ∗ (∃ d, owns (c : Thread nD τ) (st0_2 t) fullShare ((projDat V c).before 2 t d)))

def projPost (c : Dev nD) (t : Fin cfg0.N) : sProp 𝕄 :=
  iprop((projDat V c).Φ t.succ ∗ (projDat V c).owesAt () t.succ
    ∗ owns (c : Thread nD τ) (st0_0 t) fullShare ((projDat V c).after 0 t)
    ∗ owns (c : Thread nD τ) (st0_1 t) fullShare ((projDat V c).after 1 t)
    ∗ owns (c : Thread nD τ) (st0_2 t) fullShare ((projDat V c).after 2 t))

set_option maxHeartbeats 1000000 in
/-- The body at any point: the inputs' buffers hold their blocks, so `projSound` applies; the invariant and what the core
    owes pass through unread. -/
theorem projSoundBody (c : Dev nD) (t : Fin cfg0.N) :
    projPre V c t ⊢ wp frame (wpE (defs₀ (F := F)) Variants.none c none) Set.univ (bodyAt0 t) (fun _ => projPost V c t) := by
  unfold projPre projPost bodyAt0
  simp only [projBefore0, projBefore1]
  rw [show (projDat V c).Φ t.succ = (projDat V c).Φ t.castSucc from rfl,
    show (projDat V c).owesAt () t.succ = (projDat V c).owesAt () t.castSucc from rfl,
    projAfter0, projAfter1, projAfter2]
  iintro ⟨HΦ, Ho, ⟨%d0, H0⟩, ⟨%d1, H1⟩, ⟨%d2, H2⟩⟩
  iapply (projSound c Set.univ _ _ _ _ _ _ _ (projBlk V c 0 t) (projBlk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem projObligation (c : Dev nD) : BodyObligation (projDat (F := F) V c) (defs₀ (F := F)) Variants.none () Set.univ := fun t => by
  rw [bigSep_W0, bigSep_W0]
  exact projSoundBody V c t

end Cert.Kernel.Fr

end
-- ==== Proof.BPoolRuns.lean ====
/-
  The pooling head as a pipelined region: 4 grid points, each staging one tile of 5000 rows (the aggregate, the
  projected features, the inverse degrees, the graph ids) beside the bias, the counts and the head's weights, which are
  fetched once.  The body keeps a 256x256 accumulator in a scratch buffer between points: at the first tile it resets the
  accumulator (and the output block) to zero, at every tile it adds the product of the tile's one-hot graph matrix
  with the tile's activations, and at the last tile it divides by the counts, applies the head and stores the
  output block, which is written back there only.  This module holds what the region's three control cases share and
  the body's triple in each: the two branch conditions in closed form over the grid, where the output window is idle,
  live or written back, the scratch buffer as a memref and the region invariant with it owned, each input window's
  staging buffer at its block, and the three runs (first tile, middle tiles, last tile), all at a parameter `V`, the
  buffer contents when the region is entered.
-/
import proofs.«414209_j12506944766171_3_alg».proof.Proof.Gen.Kernel.Launch
import proofs.«414209_j12506944766171_3_alg».proof.Proof.Gen.Kernel.Skeleton
import proofs.«414209_j12506944766171_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

-- membership in a rectangle of 5000 rows: the elaborator's structural look recurses once per coordinate
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what core `c`'s buffers hold when the pooling region is entered: the parameter everything here is stated at
variable (V : (c : Dev nD) → (b : Ref sig .tc) → Buf (Elt F) ((c : Thread nD τ).loc b))

/-! ## The two branch conditions, in closed form over the grid -/

/-- The body's first conditional (reset the accumulator and the output block): taken at the first tile. -/
abbrev poolFirst (i : grid1.Coords) : Prop := k1_cond1 i = 1#1
/-- It holds at point 0 only — decided over the grid. -/
theorem poolFirst_iff : ∀ t : Fin cfg1.N, poolFirst (grid1.coords t) ↔ t.val % 4 = 0 :=
  (by decide +kernel : ∀ t : Fin grid1.N, poolFirst (grid1.coords t) ↔ t.val % 4 = 0)

/-- The body's second conditional (apply the head and store the output block): taken at the last tile. -/
abbrev poolLast (i : grid1.Coords) : Prop := k1_cond2 i = 1#1
/-- It holds at point 3 only — decided over the grid. -/
theorem poolLast_iff : ∀ t : Fin cfg1.N, poolLast (grid1.coords t) ↔ t.val % 4 = 3 :=
  (by decide +kernel : ∀ t : Fin grid1.N, poolLast (grid1.coords t) ↔ t.val % 4 = 3)

/-! ## Where the output window is idle, live, written back -/

/-- At the first tile the body stores into the output block: the window is live there. -/
theorem poolOutLive_first : ∀ t : Fin cfg1.N, poolFirst (grid1.coords t) → ¬poolLast (grid1.coords t) → cfg1.idle 8 (grid1.coords t) = false := by decide +kernel
/-- At the middle tiles the body stores nothing into the output block: the window is idle there, -/
theorem poolOutIdle_mid : ∀ t : Fin cfg1.N, ¬poolFirst (grid1.coords t) → ¬poolLast (grid1.coords t) → cfg1.idle 8 (grid1.coords t) = true := by decide +kernel
/-- and the pipeline does not write the block back there. -/
theorem poolOutNoFlush_mid : ∀ t : Fin cfg1.N, ¬poolFirst (grid1.coords t) → ¬poolLast (grid1.coords t) → (cfg1.win 8).flush t = false := by decide +kernel
/-- At the last tile the body stores the head's result into the output block: the window is live there. -/
theorem poolOutLive_last : ∀ t : Fin cfg1.N, ¬poolFirst (grid1.coords t) → poolLast (grid1.coords t) → cfg1.idle 8 (grid1.coords t) = false := by decide +kernel

/-! ## The accumulator's buffer and the region invariant -/

/-- The accumulator: a whole scoped buffer of the kernel's own, passed to the body beside the windows. -/
abbrev poolScr : Memref sig .tc .vmem S256x256 .f32 := Memref.whole cc1_scratch0

/-- The projection's five staging buffers, which this region never touches, each at some contents, beside `P`: the
    shape of this region's scoped rest, with `P` what is said of the accumulator. -/
def poolRest (c : Dev nD) (P : sProp 𝕄) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ P)

/-- The region invariant as the launch hands it over: the projection's five staging buffers and the accumulator, each at
    some contents, and the generator register at some state. -/
theorem poolPhiA_eq (c : Dev nD) :
    (Pipeline.ΦA spec1 c : sProp 𝕄)
      = iprop(poolRest c (iprop(∃ d, owns (c : Thread nD τ) poolScr fullShare d)) ∗ (∃ r, prngReg c r)) := by
  unfold Pipeline.ΦA poolRest; rw [scopedRest1_eq]; simp only [poolScr, owns_whole]; try rfl

/-! ## The windows' blocks -/

/-- Window `w`'s block at grid point `t`, read off its array as the region finds it. -/
def poolBlk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The aggregate's staging buffer holds the point's 5000 rows at every point, for any proof data over `V` whose body leaves the block in place. -/
theorem poolBefore0_of {c : Dev nD} (dat : Dat τ (Elt F) Unit ℕ (UR sig nD τ) ℕ cfg1 c) (hA : dat.A 0 = V c (Pipeline.arrRef spec1 0))
    (hafter : ∀ t, dat.after 0 t = poolBlk V c 0 t) (t : Fin cfg1.N) (d) : dat.before 0 t d = poolBlk V c 0 t :=
  (dat.before_in_eq_fetched 0 rfl (fun _ => rfl) (fun _ _ _ => rfl) (fun t => by rw [hafter]; unfold Dat.blockOf poolBlk; rw [hA]; try rfl) t d).trans
    (by unfold Dat.fetched Dat.blockOf poolBlk; rw [hA]; try rfl)

/-- The projected features' staging buffer holds the point's 5000 rows at every point, for any proof data over `V` whose body leaves the block in place. -/
theorem poolBefore1_of {c : Dev nD} (dat : Dat τ (Elt F) Unit ℕ (UR sig nD τ) ℕ cfg1 c) (hA : dat.A 1 = V c (Pipeline.arrRef spec1 1))
    (hafter : ∀ t, dat.after 1 t = poolBlk V c 1 t) (t : Fin cfg1.N) (d) : dat.before 1 t d = poolBlk V c 1 t :=
  (dat.before_in_eq_fetched 1 rfl (fun _ => rfl) (fun _ _ _ => rfl) (fun t => by rw [hafter]; unfold Dat.blockOf poolBlk; rw [hA]; try rfl) t d).trans
    (by unfold Dat.fetched Dat.blockOf poolBlk; rw [hA]; try rfl)

/-- The inverse degrees' staging buffer holds the point's 5000 entries at every point, for any proof data over `V` whose body leaves the block in place. -/
theorem poolBefore2_of {c : Dev nD} (dat : Dat τ (Elt F) Unit ℕ (UR sig nD τ) ℕ cfg1 c) (hA : dat.A 2 = V c (Pipeline.arrRef spec1 2))
    (hafter : ∀ t, dat.after 2 t = poolBlk V c 2 t) (t : Fin cfg1.N) (d) : dat.before 2 t d = poolBlk V c 2 t :=
  (dat.before_in_eq_fetched 2 rfl (fun _ => rfl) (fun _ _ _ => rfl) (fun t => by rw [hafter]; unfold Dat.blockOf poolBlk; rw [hA]; try rfl) t d).trans
    (by unfold Dat.fetched Dat.blockOf poolBlk; rw [hA]; try rfl)

/-- The bias's staging buffer holds the bias at every point: it is fetched once, and its block never moves, for any proof data over `V` whose body leaves the block in place. -/
theorem poolBefore3_of {c : Dev nD} (dat : Dat τ (Elt F) Unit ℕ (UR sig nD τ) ℕ cfg1 c) (hA : dat.A 3 = V c (Pipeline.arrRef spec1 3))
    (hafter : ∀ t, dat.after 3 t = poolBlk V c 3 t) (t : Fin cfg1.N) (d) : dat.before 3 t d = poolBlk V c 3 t :=
  (dat.before_in_eq_fetched 3 rfl (fun _ => rfl) (fun _ _ _ => rfl) (fun t => by rw [hafter]; unfold Dat.blockOf poolBlk; rw [hA]; try rfl) t d).trans
    (by unfold Dat.fetched Dat.blockOf poolBlk; rw [hA]; try rfl)

/-- The graph ids' staging buffer holds the point's 5000 entries at every point, for any proof data over `V` whose body leaves the block in place. -/
theorem poolBefore4_of {c : Dev nD} (dat : Dat τ (Elt F) Unit ℕ (UR sig nD τ) ℕ cfg1 c) (hA : dat.A 4 = V c (Pipeline.arrRef spec1 4))
    (hafter : ∀ t, dat.after 4 t = poolBlk V c 4 t) (t : Fin cfg1.N) (d) : dat.before 4 t d = poolBlk V c 4 t :=
  (dat.before_in_eq_fetched 4 rfl (fun _ => rfl) (fun _ _ _ => rfl) (fun t => by rw [hafter]; unfold Dat.blockOf poolBlk; rw [hA]; try rfl) t d).trans
    (by unfold Dat.fetched Dat.blockOf poolBlk; rw [hA]; try rfl)

/-- The counts' staging buffer holds the counts at every point: fetched once, the block never moves, for any proof data over `V` whose body leaves the block in place. -/
theorem poolBefore5_of {c : Dev nD} (dat : Dat τ (Elt F) Unit ℕ (UR sig nD τ) ℕ cfg1 c) (hA : dat.A 5 = V c (Pipeline.arrRef spec1 5))
    (hafter : ∀ t, dat.after 5 t = poolBlk V c 5 t) (t : Fin cfg1.N) (d) : dat.before 5 t d = poolBlk V c 5 t :=
  (dat.before_in_eq_fetched 5 rfl (fun _ => rfl) (fun _ _ _ => rfl) (fun t => by rw [hafter]; unfold Dat.blockOf poolBlk; rw [hA]; try rfl) t d).trans
    (by unfold Dat.fetched Dat.blockOf poolBlk; rw [hA]; try rfl)

/-- The head's weights' staging buffer holds them at every point: fetched once, the block never moves, for any proof data over `V` whose body leaves the block in place. -/
theorem poolBefore6_of {c : Dev nD} (dat : Dat τ (Elt F) Unit ℕ (UR sig nD τ) ℕ cfg1 c) (hA : dat.A 6 = V c (Pipeline.arrRef spec1 6))
    (hafter : ∀ t, dat.after 6 t = poolBlk V c 6 t) (t : Fin cfg1.N) (d) : dat.before 6 t d = poolBlk V c 6 t :=
  (dat.before_in_eq_fetched 6 rfl (fun _ => rfl) (fun _ _ _ => rfl) (fun t => by rw [hafter]; unfold Dat.blockOf poolBlk; rw [hA]; try rfl) t d).trans
    (by unfold Dat.fetched Dat.blockOf poolBlk; rw [hA]; try rfl)

/-- The head's offset's staging buffer holds it at every point: fetched once, the block never moves, for any proof data over `V` whose body leaves the block in place. -/
theorem poolBefore7_of {c : Dev nD} (dat : Dat τ (Elt F) Unit ℕ (UR sig nD τ) ℕ cfg1 c) (hA : dat.A 7 = V c (Pipeline.arrRef spec1 7))
    (hafter : ∀ t, dat.after 7 t = poolBlk V c 7 t) (t : Fin cfg1.N) (d) : dat.before 7 t d = poolBlk V c 7 t :=
  (dat.before_in_eq_fetched 7 rfl (fun _ => rfl) (fun _ _ _ => rfl) (fun t => by rw [hafter]; unfold Dat.blockOf poolBlk; rw [hA]; try rfl) t d).trans
    (by unfold Dat.fetched Dat.blockOf poolBlk; rw [hA]; try rfl)

/-! ## The body's triple, case by case -/

/-- Every access of the body is through the whole-shape rectangle at zero offsets. -/
theorem poolZ : (![0, 0] : Fin 2 → Nat) = fun _ => 0 := funext fun a => by fin_cases a <;> rfl

set_option maxHeartbeats 4000000 in
/-- THE FIRST TILE (the reset taken, the head not).  On whole staging buffers, the five tile inputs' at their contents, the
    output block's and the accumulator's at anything, the body runs to the continuation with the inputs as they were, the
    output block zeroed, and the accumulator at the tile's one-hot product added to zero. -/
theorem poolSoundA (c : Dev nD) (E : Set ℕ) (i : grid1.Coords)
    (arg1 : Memref sig .tc .vmem S5000x256 .f32) (harg1 : arg1.IsWhole) (arg2 : Memref sig .tc .vmem S5000x256 .bf16) (harg2 : arg2.IsWhole)
    (arg3 : Memref sig .tc .vmem S5000x1 .f32) (harg3 : arg3.IsWhole) (arg4 : Memref sig .tc .vmem S1x256 .f32) (harg4 : arg4.IsWhole)
    (arg5 : Memref sig .tc .vmem S5000x1 .i32) (harg5 : arg5.IsWhole) (arg6 : Memref sig .tc .vmem S256x1 .f32) (harg6 : arg6.IsWhole)
    (arg7 : Memref sig .tc .vmem S256x1 .f32) (harg7 : arg7.IsWhole) (arg8 : Memref sig .tc .vmem S1x1 .f32) (harg8 : arg8.IsWhole)
    (arg9 : Memref sig .tc .vmem S256x1 .f32) (harg9 : arg9.IsWhole) (arg10 : Memref sig .tc .vmem S256x256 .f32) (harg10 : arg10.IsWhole)
    (hc1 : poolFirst i) (hc2 : ¬poolLast i)
    (x0 : Vec F S5000x256 .f32) (x1 : Vec F S5000x256 .bf16) (x2 : Vec F S5000x1 .f32) (x3 : Vec F S1x256 .f32) (x4 : Vec F S5000x1 .i32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg9 fullShare (k1_pay3 (F := F)) ∗ owns (c : Thread nD τ) arg10 fullShare (k1_pay4 x2 x1 x0 x3 x4 (k1_pay2 (F := F)))) -∗ K ⟨⟩))
      ⊢ wp frame (wpE (defs₀ (F := F)) Variants.none c none) E (cc1__pool_head_kernel i arg1 harg1 arg2 harg2 arg3 harg3 arg4 harg4 arg5 harg5 arg6 harg6 arg7 harg7 arg8 harg8 arg9 harg9 arg10 harg10) K := by
  simp only [cc1__pool_head_kernel_eq_skeleton]; unfold cc1__pool_head_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d9, %f9, -, H9⟩, ⟨%ds, %fs, -, HS⟩, Hk⟩
  obtain rfl := harg1.eq_unread hf0; obtain rfl := harg2.eq_unread hf1; obtain rfl := harg3.eq_unread hf2
  obtain rfl := harg4.eq_unread hf3; obtain rfl := harg5.eq_unread hf4
  sl_exec (disch := first | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H9]
  · iexists _; isplitr
    swap; · iexact H9
    ipureintro
    sl_unfold_words
    rw [View.read_writes_eq_canon _ _ _ (fun y => ⟨_, List.mem_cons.mpr (Or.inl rfl), View.mem_set_unit_zero poolZ inb_S256x1_S256x1_0_0 y⟩)]
    rw [View.canon_unit_zero (S := S256x1) poolZ]
  iexists _; isplitr
  swap; · iexact HS
  ipureintro
  sl_unfold_words
  rw [View.read_writes_eq_canon _ _ _ (fun y => ⟨_, List.mem_cons.mpr (Or.inl rfl), View.mem_set_unit_zero poolZ inb_S256x256_S256x256_0_0 y⟩)]
  rw [View.canon_cons_unit_zero (S := S256x256) poolZ, View.readCov_unit_zero (S := S256x256) _ poolZ]
  simp only [View.readAt_eq_ld, harg1.read_unread, harg2.read_unread, harg3.read_unread, harg4.read_unread, harg5.read_unread,
    View.ld_unit_zero (S := S5000x256) poolZ, View.ld_unit_zero (S := S5000x1) poolZ, View.ld_unit_zero (S := S1x256) poolZ,
    View.ld_unit_zero (S := S256x256) poolZ, View.ld_unit_zero (S := S256x1) poolZ, View.ld_unit_zero (S := S1x1) poolZ]

set_option maxHeartbeats 4000000 in
/-- A MIDDLE TILE (neither conditional taken).  On whole staging buffers, the five tile inputs' at their contents and the
    accumulator at what the tile before left, the body runs to the continuation with the inputs as they were and the
    accumulator advanced by the tile's one-hot product; it touches nothing else. -/
theorem poolSoundB (c : Dev nD) (E : Set ℕ) (i : grid1.Coords)
    (arg1 : Memref sig .tc .vmem S5000x256 .f32) (harg1 : arg1.IsWhole) (arg2 : Memref sig .tc .vmem S5000x256 .bf16) (harg2 : arg2.IsWhole)
    (arg3 : Memref sig .tc .vmem S5000x1 .f32) (harg3 : arg3.IsWhole) (arg4 : Memref sig .tc .vmem S1x256 .f32) (harg4 : arg4.IsWhole)
    (arg5 : Memref sig .tc .vmem S5000x1 .i32) (harg5 : arg5.IsWhole) (arg6 : Memref sig .tc .vmem S256x1 .f32) (harg6 : arg6.IsWhole)
    (arg7 : Memref sig .tc .vmem S256x1 .f32) (harg7 : arg7.IsWhole) (arg8 : Memref sig .tc .vmem S1x1 .f32) (harg8 : arg8.IsWhole)
    (arg9 : Memref sig .tc .vmem S256x1 .f32) (harg9 : arg9.IsWhole) (arg10 : Memref sig .tc .vmem S256x256 .f32) (harg10 : arg10.IsWhole)
    (hc1 : ¬poolFirst i) (hc2 : ¬poolLast i)
    (x0 : Vec F S5000x256 .f32) (x1 : Vec F S5000x256 .bf16) (x2 : Vec F S5000x1 .f32) (x3 : Vec F S1x256 .f32) (x4 : Vec F S5000x1 .i32)
    (xs : Vec F S256x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg10 fullShare xs
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg10 fullShare (k1_pay4 x2 x1 x0 x3 x4 xs)) -∗ K ⟨⟩))
      ⊢ wp frame (wpE (defs₀ (F := F)) Variants.none c none) E (cc1__pool_head_kernel i arg1 harg1 arg2 harg2 arg3 harg3 arg4 harg4 arg5 harg5 arg6 harg6 arg7 harg7 arg8 harg8 arg9 harg9 arg10 harg10) K := by
  simp only [cc1__pool_head_kernel_eq_skeleton]; unfold cc1__pool_head_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  obtain rfl := harg1.eq_unread hf0; obtain rfl := harg2.eq_unread hf1; obtain rfl := harg3.eq_unread hf2
  obtain rfl := harg4.eq_unread hf3; obtain rfl := harg5.eq_unread hf4; obtain rfl := harg10.eq_unread hfs
  sl_exec (disch := first | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  iexists _; isplitr
  swap; · iexact HS
  ipureintro
  rw [View.read_writes_eq_canon _ _ _ (fun y => ⟨_, List.mem_cons.mpr (Or.inl rfl), View.mem_set_unit_zero poolZ inb_S256x256_S256x256_0_0 y⟩)]
  rw [View.canon_unit_zero (S := S256x256) poolZ]
  simp only [View.readAt_eq_ld, harg1.read_unread, harg2.read_unread, harg3.read_unread, harg4.read_unread, harg5.read_unread, harg10.read_unread,
    View.ld_unit_zero (S := S5000x256) poolZ, View.ld_unit_zero (S := S5000x1) poolZ, View.ld_unit_zero (S := S1x256) poolZ,
    View.ld_unit_zero (S := S256x256) poolZ, View.ld_unit_zero (S := S256x1) poolZ, View.ld_unit_zero (S := S1x1) poolZ]

set_option maxHeartbeats 4000000 in
/-- THE LAST TILE (the reset not taken, the head taken).  On whole staging buffers, the eight inputs' at their contents, the
    accumulator at what the tile before left and the output block's at anything, the body runs to the continuation with the
    inputs as they were, the accumulator advanced by the tile's one-hot product, and the output block at the head of
    that final accumulator. -/
theorem poolSoundC (c : Dev nD) (E : Set ℕ) (i : grid1.Coords)
    (arg1 : Memref sig .tc .vmem S5000x256 .f32) (harg1 : arg1.IsWhole) (arg2 : Memref sig .tc .vmem S5000x256 .bf16) (harg2 : arg2.IsWhole)
    (arg3 : Memref sig .tc .vmem S5000x1 .f32) (harg3 : arg3.IsWhole) (arg4 : Memref sig .tc .vmem S1x256 .f32) (harg4 : arg4.IsWhole)
    (arg5 : Memref sig .tc .vmem S5000x1 .i32) (harg5 : arg5.IsWhole) (arg6 : Memref sig .tc .vmem S256x1 .f32) (harg6 : arg6.IsWhole)
    (arg7 : Memref sig .tc .vmem S256x1 .f32) (harg7 : arg7.IsWhole) (arg8 : Memref sig .tc .vmem S1x1 .f32) (harg8 : arg8.IsWhole)
    (arg9 : Memref sig .tc .vmem S256x1 .f32) (harg9 : arg9.IsWhole) (arg10 : Memref sig .tc .vmem S256x256 .f32) (harg10 : arg10.IsWhole)
    (hc1 : ¬poolFirst i) (hc2 : poolLast i)
    (x0 : Vec F S5000x256 .f32) (x1 : Vec F S5000x256 .bf16) (x2 : Vec F S5000x1 .f32) (x3 : Vec F S1x256 .f32) (x4 : Vec F S5000x1 .i32)
    (x5 : Vec F S256x1 .f32) (x6 : Vec F S256x1 .f32) (x7 : Vec F S1x1 .f32) (xs : Vec F S256x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d) ∗ owns (c : Thread nD τ) arg10 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (k1_pay1 (k1_pay4 x2 x1 x0 x3 x4 xs) x5 x6 x7) ∗ owns (c : Thread nD τ) arg10 fullShare (k1_pay4 x2 x1 x0 x3 x4 xs)) -∗ K ⟨⟩))
      ⊢ wp frame (wpE (defs₀ (F := F)) Variants.none c none) E (cc1__pool_head_kernel i arg1 harg1 arg2 harg2 arg3 harg3 arg4 harg4 arg5 harg5 arg6 harg6 arg7 harg7 arg8 harg8 arg9 harg9 arg10 harg10) K := by
  simp only [cc1__pool_head_kernel_eq_skeleton]; unfold cc1__pool_head_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d9, %f9, -, H9⟩, ⟨%fs, %hfs, HS⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hf6; obtain rfl := harg8.eq_unread hf7; obtain rfl := harg10.eq_unread hfs
  sl_exec (disch := first | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H9]
  · iexists _; isplitr
    swap; · iexact H9
    ipureintro
    sl_unfold_words
    rw [View.read_writes_eq_canon _ _ _ (fun y => ⟨_, List.mem_cons.mpr (Or.inl rfl), View.mem_set_unit_zero poolZ inb_S256x1_S256x1_0_0 y⟩)]
    rw [View.canon_unit_zero (S := S256x1) poolZ, View.readCov_unit_zero (S := S256x256) _ poolZ]
    simp only [View.readAt_eq_ld, harg1.read_unread, harg2.read_unread, harg3.read_unread, harg4.read_unread, harg5.read_unread,
      harg6.read_unread, harg7.read_unread, harg8.read_unread, harg10.read_unread,
      View.ld_unit_zero (S := S5000x256) poolZ, View.ld_unit_zero (S := S5000x1) poolZ, View.ld_unit_zero (S := S1x256) poolZ,
    View.ld_unit_zero (S := S256x256) poolZ, View.ld_unit_zero (S := S256x1) poolZ, View.ld_unit_zero (S := S1x1) poolZ]
  iexists _; isplitr
  swap; · iexact HS
  ipureintro
  sl_unfold_words
  rw [View.read_writes_eq_canon _ _ _ (fun y => ⟨_, List.mem_cons.mpr (Or.inl rfl), View.mem_set_unit_zero poolZ inb_S256x256_S256x256_0_0 y⟩)]
  rw [View.canon_unit_zero (S := S256x256) poolZ]
  simp only [View.readAt_eq_ld, harg1.read_unread, harg2.read_unread, harg3.read_unread, harg4.read_unread, harg5.read_unread, harg10.read_unread,
    View.ld_unit_zero (S := S5000x256) poolZ, View.ld_unit_zero (S := S5000x1) poolZ, View.ld_unit_zero (S := S1x256) poolZ,
    View.ld_unit_zero (S := S256x256) poolZ, View.ld_unit_zero (S := S256x1) poolZ, View.ld_unit_zero (S := S1x1) poolZ]

end Cert.Kernel.Fr

end
-- ==== Proof.BPool.lean ====
/-
  The pooling head as a pipelined region, second half: what the accumulator holds after each tile (zero plus the first
  tile's one-hot product, then each later tile's product added in grid order), what the body leaves in the output block's
  buffer (zeros at the first tile; at the last the head of the final accumulator: its rows divided by the counts,
  multiplied into the head's weights, offset, and passed through the logistic), the region invariant that carries the
  accumulator from one point to the next, the proof data and the body obligation at every point — a case split on the
  two branch conditions' closed forms, each leaf that case's run —, how the launch's invariant enters and leaves, and
  the value equations in terms of the windows' blocks.  All at a parameter `V`, the buffer contents when the region is
  entered.
-/
import proofs.«414209_j12506944766171_3_alg».proof.Proof.BPoolRuns

-- membership in a rectangle of 5000 rows: the elaborator's structural look recurses once per coordinate
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what core `c`'s buffers hold when the pooling region is entered: the parameter everything here is stated at
variable (V : (c : Dev nD) → (b : Ref sig .tc) → Buf (Elt F) ((c : Thread nD τ).loc b))

/-! ## The accumulator, tile by tile -/

/-- The accumulator after point `n`: the first tile's one-hot product added to zero, then each later tile's product added
    to what the tile before left, in grid order. -/
def poolAcc (c : Dev nD) : (n : ℕ) → n < cfg1.N → Vec F S256x256 .f32
  | 0, h => k1_pay4 (poolBlk V c 2 ⟨0, h⟩) (poolBlk V c 1 ⟨0, h⟩) (poolBlk V c 0 ⟨0, h⟩) (poolBlk V c 3 ⟨0, h⟩) (poolBlk V c 4 ⟨0, h⟩) (k1_pay2 (F := F))
  | n + 1, h => k1_pay4 (poolBlk V c 2 ⟨n + 1, h⟩) (poolBlk V c 1 ⟨n + 1, h⟩) (poolBlk V c 0 ⟨n + 1, h⟩) (poolBlk V c 3 ⟨n + 1, h⟩) (poolBlk V c 4 ⟨n + 1, h⟩) (poolAcc c n (Nat.lt_of_succ_lt h))

theorem poolAcc_zero (c : Dev nD) (h : 0 < cfg1.N) :
    poolAcc V c 0 h = k1_pay4 (poolBlk V c 2 ⟨0, h⟩) (poolBlk V c 1 ⟨0, h⟩) (poolBlk V c 0 ⟨0, h⟩) (poolBlk V c 3 ⟨0, h⟩) (poolBlk V c 4 ⟨0, h⟩) (k1_pay2 (F := F)) := rfl

theorem poolAcc_succ (c : Dev nD) (n : ℕ) (h : n + 1 < cfg1.N) :
    poolAcc V c (n + 1) h = k1_pay4 (poolBlk V c 2 ⟨n + 1, h⟩) (poolBlk V c 1 ⟨n + 1, h⟩) (poolBlk V c 0 ⟨n + 1, h⟩) (poolBlk V c 3 ⟨n + 1, h⟩) (poolBlk V c 4 ⟨n + 1, h⟩) (poolAcc V c n (Nat.lt_of_succ_lt h)) := rfl

/-- The accumulator after the first point, stated at the point. -/
theorem poolAcc_first (c : Dev nD) (t : Fin cfg1.N) (h0 : t.val = 0) :
    poolAcc V c t.val t.isLt = k1_pay4 (poolBlk V c 2 t) (poolBlk V c 1 t) (poolBlk V c 0 t) (poolBlk V c 3 t) (poolBlk V c 4 t) (k1_pay2 (F := F)) := by
  obtain ⟨n, hn⟩ := t
  cases n with
  | zero => rfl
  | succ n => exact absurd h0 (Nat.succ_ne_zero n)

/-- The accumulator after a later point, stated at the point: its tile's product added to what the point before left. -/
theorem poolAcc_later (c : Dev nD) (t : Fin cfg1.N) (h0 : t.val ≠ 0) :
    poolAcc V c t.val t.isLt = k1_pay4 (poolBlk V c 2 t) (poolBlk V c 1 t) (poolBlk V c 0 t) (poolBlk V c 3 t) (poolBlk V c 4 t) (poolAcc V c (t.val - 1) (Nat.lt_of_le_of_lt (Nat.sub_le _ _) t.isLt)) := by
  obtain ⟨n, hn⟩ := t
  cases n with
  | zero => exact absurd rfl h0
  | succ n => rfl

/-- What the body leaves in the output block's buffer at point `t`: at the last tile the head of the final accumulator;
    before it the zeros the first tile stored (at the middle tiles, where the window is idle, a statement nothing consults). -/
def poolHead (c : Dev nD) (t : Fin cfg1.N) : Vec F S256x1 .f32 :=
  if t.val % 4 = 3 then k1_pay1 (poolAcc V c t.val t.isLt) (poolBlk V c 5 t) (poolBlk V c 6 t) (poolBlk V c 7 t) else k1_pay3 (F := F)

/-! ## The invariant that carries the accumulator -/

/-- The region invariant before position `n`: before the first point what the launch hands over (the accumulator at
    anything); afterwards the accumulator owned at what the point before left, the projection's staging buffers carried
    along untouched, and the generator register at some state. -/
def poolInv (c : Dev nD) : (n : ℕ) → n ≤ cfg1.N → sProp 𝕄
  | 0, _ => Pipeline.ΦA spec1 c
  | n + 1, hn => iprop(poolRest c (owns (c : Thread nD τ) poolScr fullShare (poolAcc V c n hn)) ∗ (∃ r, prngReg c r))

theorem poolInv_zero (c : Dev nD) (n : ℕ) (h : n ≤ cfg1.N) (hz : n = 0) : poolInv V c n h = Pipeline.ΦA spec1 c := by
  subst hz; rfl

theorem poolInv_succ (c : Dev nD) (n : ℕ) (hn : n < cfg1.N) :
    poolInv V c (n + 1) hn = iprop(poolRest c (owns (c : Thread nD τ) poolScr fullShare (poolAcc V c n hn)) ∗ (∃ r, prngReg c r)) := rfl

theorem poolInv_pos (c : Dev nD) (n : ℕ) (h : n ≤ cfg1.N) (hz : n ≠ 0) :
    poolInv V c n h = iprop(poolRest c (owns (c : Thread nD τ) poolScr fullShare (poolAcc V c (n - 1) (by omega))) ∗ (∃ r, prngReg c r)) := by
  cases n with
  | zero => exact absurd rfl hz
  | succ n => rfl

/-! ## The region's proof data -/

/-- The pooling region's proof data on core `c`: the arrays as the region finds them; after the body at point `t` each
    input's buffer at its block and the output block's at `poolHead`; the invariant `poolInv`; nothing owed; full shares. -/
def poolDat (c : Dev nD) : Dat τ (Elt F) Unit ℕ (UR sig nD τ) ℕ cfg1 c where
  A w := V c (Pipeline.arrRef spec1 w)
  after w t := match w with
    | ⟨0, _⟩ => poolBlk V c 0 t
    | ⟨1, _⟩ => poolBlk V c 1 t
    | ⟨2, _⟩ => poolBlk V c 2 t
    | ⟨3, _⟩ => poolBlk V c 3 t
    | ⟨4, _⟩ => poolBlk V c 4 t
    | ⟨5, _⟩ => poolBlk V c 5 t
    | ⟨6, _⟩ => poolBlk V c 6 t
    | ⟨7, _⟩ => poolBlk V c 7 t
    | ⟨8, _⟩ => poolHead V c t
  Φ t := poolInv V c t.val (Nat.le_of_lt_succ t.isLt)
  q _ := fullShare
  owed _ := 0

theorem poolA_eq (c : Dev nD) (w : Fin cfg1.W) : (poolDat V c).A w = V c (Pipeline.arrRef spec1 w) := by
  dsimp only [poolDat]

/-- The invariant at a point's start, restated at the point's position. -/
theorem poolInv_castSucc (c : Dev nD) (t : Fin cfg1.N) :
    (poolDat V c).Φ t.castSucc = poolInv V c t.val (Nat.le_of_lt t.isLt) := by
  dsimp only [poolDat]; simp only [Fin.coe_castSucc]

theorem poolAfter0 (c : Dev nD) (t : Fin cfg1.N) : (poolDat V c).after 0 t = poolBlk V c 0 t := by dsimp only [poolDat]
theorem poolAfter1 (c : Dev nD) (t : Fin cfg1.N) : (poolDat V c).after 1 t = poolBlk V c 1 t := by dsimp only [poolDat]
theorem poolAfter2 (c : Dev nD) (t : Fin cfg1.N) : (poolDat V c).after 2 t = poolBlk V c 2 t := by dsimp only [poolDat]
theorem poolAfter3 (c : Dev nD) (t : Fin cfg1.N) : (poolDat V c).after 3 t = poolBlk V c 3 t := by dsimp only [poolDat]
theorem poolAfter4 (c : Dev nD) (t : Fin cfg1.N) : (poolDat V c).after 4 t = poolBlk V c 4 t := by dsimp only [poolDat]
theorem poolAfter5 (c : Dev nD) (t : Fin cfg1.N) : (poolDat V c).after 5 t = poolBlk V c 5 t := by dsimp only [poolDat]
theorem poolAfter6 (c : Dev nD) (t : Fin cfg1.N) : (poolDat V c).after 6 t = poolBlk V c 6 t := by dsimp only [poolDat]
theorem poolAfter7 (c : Dev nD) (t : Fin cfg1.N) : (poolDat V c).after 7 t = poolBlk V c 7 t := by dsimp only [poolDat]
theorem poolAfter8 (c : Dev nD) (t : Fin cfg1.N) : (poolDat V c).after 8 t = poolHead V c t := by dsimp only [poolDat]

theorem poolBefore0 (c : Dev nD) (t : Fin cfg1.N) (d) : (poolDat V c).before 0 t d = poolBlk V c 0 t :=
  poolBefore0_of V (poolDat V c) (poolA_eq V c 0) (poolAfter0 V c) t d
theorem poolBefore1 (c : Dev nD) (t : Fin cfg1.N) (d) : (poolDat V c).before 1 t d = poolBlk V c 1 t :=
  poolBefore1_of V (poolDat V c) (poolA_eq V c 1) (poolAfter1 V c) t d
theorem poolBefore2 (c : Dev nD) (t : Fin cfg1.N) (d) : (poolDat V c).before 2 t d = poolBlk V c 2 t :=
  poolBefore2_of V (poolDat V c) (poolA_eq V c 2) (poolAfter2 V c) t d
theorem poolBefore3 (c : Dev nD) (t : Fin cfg1.N) (d) : (poolDat V c).before 3 t d = poolBlk V c 3 t :=
  poolBefore3_of V (poolDat V c) (poolA_eq V c 3) (poolAfter3 V c) t d
theorem poolBefore4 (c : Dev nD) (t : Fin cfg1.N) (d) : (poolDat V c).before 4 t d = poolBlk V c 4 t :=
  poolBefore4_of V (poolDat V c) (poolA_eq V c 4) (poolAfter4 V c) t d
theorem poolBefore5 (c : Dev nD) (t : Fin cfg1.N) (d) : (poolDat V c).before 5 t d = poolBlk V c 5 t :=
  poolBefore5_of V (poolDat V c) (poolA_eq V c 5) (poolAfter5 V c) t d
theorem poolBefore6 (c : Dev nD) (t : Fin cfg1.N) (d) : (poolDat V c).before 6 t d = poolBlk V c 6 t :=
  poolBefore6_of V (poolDat V c) (poolA_eq V c 6) (poolAfter6 V c) t d
theorem poolBefore7 (c : Dev nD) (t : Fin cfg1.N) (d) : (poolDat V c).before 7 t d = poolBlk V c 7 t :=
  poolBefore7_of V (poolDat V c) (poolA_eq V c 7) (poolAfter7 V c) t d

/-- An input window is never idle: after the body its buffer is owned at its block. -/
theorem poolLeaves0 (c : Dev nD) (t : Fin cfg1.N) :
    (poolDat V c).leavesExact 0 t = owns (c : Thread nD τ) (st1_0 t) fullShare (poolBlk V c 0 t) := by
  unfold Dat.leavesExact; rw [show cfg1.idle 0 (grid1.coords t) = false from rfl, poolAfter0]
theorem poolLeaves1 (c : Dev nD) (t : Fin cfg1.N) :
    (poolDat V c).leavesExact 1 t = owns (c : Thread nD τ) (st1_1 t) fullShare (poolBlk V c 1 t) := by
  unfold Dat.leavesExact; rw [show cfg1.idle 1 (grid1.coords t) = false from rfl, poolAfter1]
theorem poolLeaves2 (c : Dev nD) (t : Fin cfg1.N) :
    (poolDat V c).leavesExact 2 t = owns (c : Thread nD τ) (st1_2 t) fullShare (poolBlk V c 2 t) := by
  unfold Dat.leavesExact; rw [show cfg1.idle 2 (grid1.coords t) = false from rfl, poolAfter2]
theorem poolLeaves3 (c : Dev nD) (t : Fin cfg1.N) :
    (poolDat V c).leavesExact 3 t = owns (c : Thread nD τ) (st1_3 t) fullShare (poolBlk V c 3 t) := by
  unfold Dat.leavesExact; rw [show cfg1.idle 3 (grid1.coords t) = false from rfl, poolAfter3]
theorem poolLeaves4 (c : Dev nD) (t : Fin cfg1.N) :
    (poolDat V c).leavesExact 4 t = owns (c : Thread nD τ) (st1_4 t) fullShare (poolBlk V c 4 t) := by
  unfold Dat.leavesExact; rw [show cfg1.idle 4 (grid1.coords t) = false from rfl, poolAfter4]
theorem poolLeaves5 (c : Dev nD) (t : Fin cfg1.N) :
    (poolDat V c).leavesExact 5 t = owns (c : Thread nD τ) (st1_5 t) fullShare (poolBlk V c 5 t) := by
  unfold Dat.leavesExact; rw [show cfg1.idle 5 (grid1.coords t) = false from rfl, poolAfter5]
theorem poolLeaves6 (c : Dev nD) (t : Fin cfg1.N) :
    (poolDat V c).leavesExact 6 t = owns (c : Thread nD τ) (st1_6 t) fullShare (poolBlk V c 6 t) := by
  unfold Dat.leavesExact; rw [show cfg1.idle 6 (grid1.coords t) = false from rfl, poolAfter6]
theorem poolLeaves7 (c : Dev nD) (t : Fin cfg1.N) :
    (poolDat V c).leavesExact 7 t = owns (c : Thread nD τ) (st1_7 t) fullShare (poolBlk V c 7 t) := by
  unfold Dat.leavesExact; rw [show cfg1.idle 7 (grid1.coords t) = false from rfl, poolAfter7]

/-! ## The body obligation -/

/-- What the body is called with at point `t`, the windows one by one, -/
def poolPre (c : Dev nD) (t : Fin cfg1.N) : sProp 𝕄 :=
  iprop((poolDat V c).Φ t.castSucc ∗ (poolDat V c).owesAt () t.castSucc
    ∗ (∃ d, owns (c : Thread nD τ) (st1_0 t) fullShare ((poolDat V c).before 0 t d))
    ∗ (∃ d, owns (c : Thread nD τ) (st1_1 t) fullShare ((poolDat V c).before 1 t d))
    ∗ (∃ d, owns (c : Thread nD τ) (st1_2 t) fullShare ((poolDat V c).before 2 t d))
    ∗ (∃ d, owns (c : Thread nD τ) (st1_3 t) fullShare ((poolDat V c).before 3 t d))
    ∗ (∃ d, owns (c : Thread nD τ) (st1_4 t) fullShare ((poolDat V c).before 4 t d))
    ∗ (∃ d, owns (c : Thread nD τ) (st1_5 t) fullShare ((poolDat V c).before 5 t d))
    ∗ (∃ d, owns (c : Thread nD τ) (st1_6 t) fullShare ((poolDat V c).before 6 t d))
    ∗ (∃ d, owns (c : Thread nD τ) (st1_7 t) fullShare ((poolDat V c).before 7 t d))
    ∗ (∃ d, owns (c : Thread nD τ) (st1_8 t) fullShare ((poolDat V c).before 8 t d)))

/-- and what it returns. -/
def poolPost (c : Dev nD) (t : Fin cfg1.N) : sProp 𝕄 :=
  iprop((poolDat V c).Φ t.succ ∗ (poolDat V c).owesAt () t.succ
    ∗ (poolDat V c).leavesExact 0 t
    ∗ (poolDat V c).leavesExact 1 t
    ∗ (poolDat V c).leavesExact 2 t
    ∗ (poolDat V c).leavesExact 3 t
    ∗ (poolDat V c).leavesExact 4 t
    ∗ (poolDat V c).leavesExact 5 t
    ∗ (poolDat V c).leavesExact 6 t
    ∗ (poolDat V c).leavesExact 7 t
    ∗ (poolDat V c).leavesExact 8 t)

set_option maxHeartbeats 4000000 in
/-- The body at any point.  The inputs' buffers hold their blocks; the closed forms say which case the point is in.  At
    the first tile the invariant hands the body the accumulator at anything and takes it back at the first tile's
    contents, the output block zeroed; at a middle tile the accumulator comes at what the tile before left and goes back
    advanced, the output block's buffer handed back as found; at the last tile the accumulator likewise, and the output
    block's buffer at the head of the final accumulator.  The projection's staging buffers, the generator register and
    what the core owes pass through unread. -/
theorem poolSoundBody (c : Dev nD) (t : Fin cfg1.N) :
    poolPre V c t ⊢ wp frame (wpE (defs₀ (F := F)) Variants.none c none) Set.univ (bodyAt1 t) (fun _ => poolPost V c t) := by
  unfold poolPre poolPost bodyAt1
  simp only [poolBefore0, poolBefore1, poolBefore2, poolBefore3, poolBefore4, poolBefore5, poolBefore6, poolBefore7]
  rw [show (poolDat V c).owesAt () t.succ = (poolDat V c).owesAt () t.castSucc from rfl]
  rw [show (poolDat V c).Φ t.succ = poolInv V c (t.val + 1) t.isLt from rfl, poolInv_succ]
  rw [poolLeaves0, poolLeaves1, poolLeaves2, poolLeaves3, poolLeaves4, poolLeaves5, poolLeaves6, poolLeaves7]
  have hN : t.val < 4 := lt_of_lt_of_eq t.isLt (show cfg1.N = 4 from N_1)
  by_cases h0 : t.val % 4 = 0
  · -- the first tile
    have h3 : ¬t.val % 4 = 3 := by omega
    have hz : t.val = 0 := by omega
    rw [show (poolDat V c).leavesExact 8 t = owns (c : Thread nD τ) (st1_8 t) fullShare ((poolDat V c).after 8 t) from by
      unfold Dat.leavesExact; rw [poolOutLive_first t ((poolFirst_iff t).mpr h0) (fun h => h3 ((poolLast_iff t).mp h))], poolAfter8]
    unfold poolHead; rw [if_neg h3]
    rw [poolAcc_first V c t hz]
    rw [poolInv_castSucc V c t, poolInv_zero V c _ _ hz, poolPhiA_eq]
    unfold poolRest
    iintro ⟨⟨⟨Ha, Hb, Hc, Hd, He, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (poolSoundA c Set.univ _ _ _ _ _ _ _ _ _ _ _ _ _ _ _ _ _ _ _ _ _ ((poolFirst_iff t).mpr h0) (fun h => h3 ((poolLast_iff t).mp h)) (poolBlk V c 0 t) (poolBlk V c 1 t) (poolBlk V c 2 t) (poolBlk V c 3 t) (poolBlk V c 4 t) _)
    isplitl [H0]; · iexact H0
    isplitl [H1]; · iexact H1
    isplitl [H2]; · iexact H2
    isplitl [H3]; · iexact H3
    isplitl [H4]; · iexact H4
    isplitl [H8]; · iexists _; iexact H8
    isplitl [HS]; · iexact HS
    iintro ⟨H0, H1, H2, H3, H4, H8, HS⟩
    isplitl [Ha Hb Hc Hd He HS Hg]
    · isplitl [Ha Hb Hc Hd He HS]
      · isplitl [Ha]; · iexact Ha
        isplitl [Hb]; · iexact Hb
        isplitl [Hc]; · iexact Hc
        isplitl [Hd]; · iexact Hd
        isplitl [He]; · iexact He
        iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · have hz : t.val ≠ 0 := by omega
    by_cases h3 : t.val % 4 = 3
    · -- the last tile
      rw [show (poolDat V c).leavesExact 8 t = owns (c : Thread nD τ) (st1_8 t) fullShare ((poolDat V c).after 8 t) from by
        unfold Dat.leavesExact; rw [poolOutLive_last t (fun h => h0 ((poolFirst_iff t).mp h)) ((poolLast_iff t).mpr h3)], poolAfter8]
      unfold poolHead; rw [if_pos h3]
      rw [poolAcc_later V c t hz]
      rw [poolInv_castSucc V c t, poolInv_pos V c _ _ hz]
      unfold poolRest
      iintro ⟨⟨⟨Ha, Hb, Hc, Hd, He, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (poolSoundC c Set.univ _ _ _ _ _ _ _ _ _ _ _ _ _ _ _ _ _ _ _ _ _ (fun h => h0 ((poolFirst_iff t).mp h)) ((poolLast_iff t).mpr h3) (poolBlk V c 0 t) (poolBlk V c 1 t) (poolBlk V c 2 t) (poolBlk V c 3 t) (poolBlk V c 4 t) (poolBlk V c 5 t) (poolBlk V c 6 t) (poolBlk V c 7 t) (poolAcc V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS]; · iexact HS
      iintro ⟨H0, H1, H2, H3, H4, H5, H6, H7, H8, HS⟩
      isplitl [Ha Hb Hc Hd He HS Hg]
      · isplitl [Ha Hb Hc Hd He HS]
        · isplitl [Ha]; · iexact Ha
          isplitl [Hb]; · iexact Hb
          isplitl [Hc]; · iexact Hc
          isplitl [Hd]; · iexact Hd
          isplitl [He]; · iexact He
          iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · -- a middle tile
      rw [Dat.leavesExact_idle (poolDat V c) 8 t (poolOutIdle_mid t (fun h => h0 ((poolFirst_iff t).mp h)) (fun h => h3 ((poolLast_iff t).mp h))) (poolOutNoFlush_mid t (fun h => h0 ((poolFirst_iff t).mp h)) (fun h => h3 ((poolLast_iff t).mp h)))]
      rw [poolAcc_later V c t hz]
      rw [poolInv_castSucc V c t, poolInv_pos V c _ _ hz]
      unfold poolRest
      iintro ⟨⟨⟨Ha, Hb, Hc, Hd, He, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8⟩
      iapply (poolSoundB c Set.univ _ _ _ _ _ _ _ _ _ _ _ _ _ _ _ _ _ _ _ _ _ (fun h => h0 ((poolFirst_iff t).mp h)) (fun h => h3 ((poolLast_iff t).mp h)) (poolBlk V c 0 t) (poolBlk V c 1 t) (poolBlk V c 2 t) (poolBlk V c 3 t) (poolBlk V c 4 t) (poolAcc V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [Ha Hb Hc Hd He HS Hg]
      · isplitl [Ha Hb Hc Hd He HS]
        · isplitl [Ha]; · iexact Ha
          isplitl [Hb]; · iexact Hb
          isplitl [Hc]; · iexact Hc
          isplitl [Hd]; · iexact Hd
          isplitl [He]; · iexact He
          iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8

/-- The library's body obligation, at every point. -/
theorem poolObligation (c : Dev nD) : BodyObligation (poolDat (F := F) V c) (defs₀ (F := F)) Variants.none () Set.univ := fun t => by
  rw [bigSep_W1, bigSep_W1]
  exact poolSoundBody V c t

/-! ## The invariant at the region's two ends -/

/-- What the launch hands the region is the invariant before the first point. -/
theorem poolIn (c : Dev nD) : Pipeline.ΦA spec1 c ⊢ (poolDat V c).Φ 0 := by
  rw [show (poolDat V c).Φ 0 = poolInv V c 0 (Nat.zero_le _) from rfl, poolInv_zero V c 0 _ rfl]
  try exact Idealize.SL.BI.Entails.refl _

/-- After any point the invariant gives the launch's back: the accumulator's named contents are forgotten. -/
theorem poolInv_out (c : Dev nD) (t : Fin (cfg1.N + 1)) (ht : t.val ≠ 0) : (poolDat V c).Φ t ⊢ Pipeline.ΦA spec1 c := by
  rw [show (poolDat V c).Φ t = poolInv V c t.val (Nat.le_of_lt_succ t.isLt) from rfl, poolInv_pos V c _ _ ht, poolPhiA_eq]
  unfold poolRest
  iintro ⟨⟨Ha, Hb, Hc, Hd, He, HS⟩, Hg⟩
  isplitl [Ha Hb Hc Hd He HS]
  · isplitl [Ha]; · iexact Ha
    isplitl [Hb]; · iexact Hb
    isplitl [Hc]; · iexact Hc
    isplitl [Hd]; · iexact Hd
    isplitl [He]; · iexact He
    iexists _; iexact HS
  iexact Hg

/-- The same after the last point. -/
theorem poolOut (c : Dev nD) : (poolDat V c).Φ (Fin.last cfg1.N) ⊢ Pipeline.ΦA spec1 c :=
  poolInv_out V c _ (by rw [Fin.val_last]; have : cfg1.N = 4 := N_1; omega)

/-! ## The output block at the last point -/

/-- At the last point the body leaves the head of the final accumulator in the output block's buffer. -/
theorem poolAfter8_last (c : Dev nD) :
    (poolDat V c).after 8 t1_3 = k1_pay1 (poolAcc V c 3 (by rw [show cfg1.N = 4 from N_1]; decide)) (poolBlk V c 5 t1_3) (poolBlk V c 6 t1_3) (poolBlk V c 7 t1_3) := by
  rw [poolAfter8]; unfold poolHead; rw [if_pos (show t1_3.val % 4 = 3 from rfl)]; rfl

end Cert.Kernel.Fr

end
-- ==== Proof.BMain.lean ====
/-
  The kernel program's run, whole: @main is a stretch of host operations, the projection's region, a second stretch,
  the pooling region, and one closing reshape.  What every unscoped buffer holds at each of the six boundaries is a fold
  from the launch memory (`W0 … W5`): a host stretch applies its operations, a region leaves its output array at what
  its write-backs assemble and every other buffer as entered.  Each region is a segment over the thread state "every
  unscoped buffer at the boundary's contents, the generator register at some state, nothing owed"; the launch theorem
  for a list of segments then says that every weakly fair execution terminates with every unscoped buffer at `W5`.
  The argument arrays are written by nothing, so they end as launched.
-/
import proofs.«414209_j12506944766171_3_alg».proof.Proof.Gen.Kernel.Launch
import proofs.«414209_j12506944766171_3_alg».proof.Proof.Gen.Kernel.Skeleton
import proofs.«414209_j12506944766171_3_alg».proof.Proof.Gen.Kernel.Points
import proofs.«414209_j12506944766171_3_alg».proof.Proof.Gen.Kernel.Regions
import proofs.«414209_j12506944766171_3_alg».proof.Proof.BProj
import proofs.«414209_j12506944766171_3_alg».proof.Proof.BPool
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows: the elaborator's structural look recurses once per coordinate
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 (c : Dev nD) : Valuation τ sig (Elt F) := fun b => m (c, b)
/-- After the first host stretch: the projection's entry. -/
abbrev W1 (c : Dev nD) : Valuation τ sig (Elt F) := StableHlo.after hostOps0 (W0 m c)
/-- The same read at the TensorCore's references. -/
abbrev E1 : (c : Dev nD) → (b : Ref sig .tc) → Buf (Elt F) ((c : Thread nD τ).loc b) := fun c b => W1 m c b
/-- At the projection's exit: its arrays at what the pipeline leaves, every other buffer as entered. -/
def W2 (c : Dev nD) : Valuation τ sig (Elt F) :=
  Pipeline.withArrays spec0 c (W1 m c) fun w => (projDat (E1 m) c).arrAt w cfg0.N
theorem W2_arr (c : Dev nD) (w : Fin cfg0.W) :
    W2 m c (Proc.devRef .tc (Pipeline.arrRef spec0 w)) = (projDat (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev X2 : (c : Dev nD) → (b : Ref sig .tc) → Buf (Elt F) ((c : Thread nD τ).loc b) := fun c b => W2 m c b
theorem projExitArr (c : Dev nD) (w : Fin cfg0.W) : (projDat (E1 m) c).arrAt w cfg0.N = X2 m c (Pipeline.arrRef spec0 w) :=
  (W2_arr m c w).symm
theorem projExitRest (c : Dev nD) : ∀ b, b ∉ Finset.univ.image (Pipeline.arrRef spec0) → X2 m c b = E1 m c b :=
  fun b hb => W2_of_ne m c b fun w e => hb (Finset.mem_image.mpr ⟨w, Finset.mem_univ _, e⟩)

/-- After the second host stretch: the pooling region's entry. -/
abbrev W3 (c : Dev nD) : Valuation τ sig (Elt F) := StableHlo.after hostOps1 (W2 m c)
abbrev E3 : (c : Dev nD) → (b : Ref sig .tc) → Buf (Elt F) ((c : Thread nD τ).loc b) := fun c b => W3 m c b
/-- At the pooling region's exit. -/
def W4 (c : Dev nD) : Valuation τ sig (Elt F) :=
  Pipeline.withArrays spec1 c (W3 m c) fun w => (poolDat (E3 m) c).arrAt w cfg1.N
theorem W4_arr (c : Dev nD) (w : Fin cfg1.W) :
    W4 m c (Proc.devRef .tc (Pipeline.arrRef spec1 w)) = (poolDat (E3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev X4 : (c : Dev nD) → (b : Ref sig .tc) → Buf (Elt F) ((c : Thread nD τ).loc b) := fun c b => W4 m c b
theorem poolExitArr (c : Dev nD) (w : Fin cfg1.W) : (poolDat (E3 m) c).arrAt w cfg1.N = X4 m c (Pipeline.arrRef spec1 w) :=
  (W4_arr m c w).symm
theorem poolExitRest (c : Dev nD) : ∀ b, b ∉ Finset.univ.image (Pipeline.arrRef spec1) → X4 m c b = E3 m c b :=
  fun b hb => W4_of_ne m c b fun w e => hb (Finset.mem_image.mpr ⟨w, Finset.mem_univ _, e⟩)

/-- After the closing reshape: what the program ends with. -/
abbrev W5 (c : Dev nD) : Valuation τ sig (Elt F) := StableHlo.after hostOps2 (W4 m c)

/-! ## Nothing writes an argument -/

theorem W1_of (c : Dev nD) (r : Ref sig .tc) (h : r ∉ hostOps0_W) : W1 m c r = W0 m c r :=
  StableHlo.after_of_writes_sub hostOps0 _ hostOps0_writes h
theorem W3_of (c : Dev nD) (r : Ref sig .tc) (h : r ∉ hostOps1_W) : W3 m c r = W2 m c r :=
  StableHlo.after_of_writes_sub hostOps1 _ hostOps1_writes h
theorem W5_of (c : Dev nD) (r : Ref sig .tc) (h : r ∉ hostOps2_W) : W5 m c r = W4 m c r :=
  StableHlo.after_of_writes_sub hostOps2 _ hostOps2_writes h

/-- In the projection's region every window but the one onto the product array is an input window. -/
theorem projInputs : ∀ w : Fin 3, Pipeline.arrRef spec0 w ≠ main_v12 → (cfg0.win w).isOut = false := by decide
/-- In the pooling region every window but the one onto the result array is an input window. -/
theorem poolInputs : ∀ w : Fin 9, Pipeline.arrRef spec1 w ≠ main_v51 → (cfg1.win w).isOut = false := by decide

/-- A buffer that no host stretch writes and that is neither region's OUTPUT array ends as launched: an input array of a
    region is handed back as entered. -/
theorem W5_kept (c : Dev nD) (r : Ref sig .tc) (h0 : r ∉ hostOps0_W) (h1 : r ∉ hostOps1_W) (h2 : r ∉ hostOps2_W)
    (hp : r ≠ main_v12) (hq : r ≠ main_v51) : W5 m c r = m ((c : Thread nD τ).loc r) := by
  have e4 : W4 m c r = W3 m c r := by
    by_cases hw : ∃ w, Pipeline.arrRef spec1 w = r
    · obtain ⟨w, rfl⟩ := hw
      have hin : (cfg1.win w).isOut = false := poolInputs w hq
      exact (W4_arr m c w).trans (((poolDat (E3 m) c).arrAt_in w hin _).trans (poolA_eq (E3 m) c w))
    · exact W4_of_ne m c r fun w e => hw ⟨w, e⟩
  have e2 : W2 m c r = W1 m c r := by
    by_cases hw : ∃ w, Pipeline.arrRef spec0 w = r
    · obtain ⟨w, rfl⟩ := hw
      have hin : (cfg0.win w).isOut = false := projInputs w hp
      exact (W2_arr m c w).trans (((projDat (E1 m) c).arrAt_in w hin _).trans (projA_eq (E1 m) c w))
    · exact W2_of_ne m c r fun w e => hw ⟨w, e⟩
  exact (W5_of m c r h2).trans (e4.trans ((W3_of m c r h1).trans (e2.trans ((W1_of m c r h0).trans rfl))))

theorem W5_main_arg0 (c : Dev nD) : W5 m c main_arg0 = m ((c : Thread nD τ).loc main_arg0) :=
  W5_kept m c main_arg0 (by decide) (by decide) (by decide) (by decide) (by decide)
theorem W5_main_arg1 (c : Dev nD) : W5 m c main_arg1 = m ((c : Thread nD τ).loc main_arg1) :=
  W5_kept m c main_arg1 (by decide) (by decide) (by decide) (by decide) (by decide)
theorem W5_main_arg2 (c : Dev nD) : W5 m c main_arg2 = m ((c : Thread nD τ).loc main_arg2) :=
  W5_kept m c main_arg2 (by decide) (by decide) (by decide) (by decide) (by decide)
theorem W5_main_arg3 (c : Dev nD) : W5 m c main_arg3 = m ((c : Thread nD τ).loc main_arg3) :=
  W5_kept m c main_arg3 (by decide) (by decide) (by decide) (by decide) (by decide)
theorem W5_main_arg4 (c : Dev nD) : W5 m c main_arg4 = m ((c : Thread nD τ).loc main_arg4) :=
  W5_kept m c main_arg4 (by decide) (by decide) (by decide) (by decide) (by decide)
theorem W5_main_arg5 (c : Dev nD) : W5 m c main_arg5 = m ((c : Thread nD τ).loc main_arg5) :=
  W5_kept m c main_arg5 (by decide) (by decide) (by decide) (by decide) (by decide)
theorem W5_main_arg6 (c : Dev nD) : W5 m c main_arg6 = m ((c : Thread nD τ).loc main_arg6) :=
  W5_kept m c main_arg6 (by decide) (by decide) (by decide) (by decide) (by decide)

/-! ## The proof data family and the thread state -/

/-- No pipeline has a prefetched table. -/
abbrev padm : (p : Fin 2) → (pcfgs (F := F) p).Adm := fun p => (cfgs p).toPCfg_adm
/-- Each pipeline's proof data at its region's entry contents: a literal match on the pipeline. -/
def pd : (p : Fin 2) → (c : Dev nD) → Dat τ (Elt F) Unit ℕ (UR sig nD τ) ℕ (Pipeline.pin (pcfgs (F := F)) padm p) c
  | ⟨0, _⟩ => fun c => projDat (E1 m) c
  | ⟨1, _⟩ => fun c => poolDat (E3 m) c
abbrev 𝒱ₙ : Variants := Variants.none
/-- No core owes another anything. -/
abbrev Lₙ : GSem nD τ sig → Finset Unit := fun _ => ∅
abbrev lvₙ : GSem nD τ sig → Unit → ℕ := fun _ _ => 0
/-- What rides beside the buffers through every segment: the generator register at some state, and nothing owed. -/
abbrev Rest (c : Dev nD) : sProp 𝕄 := iprop((∃ r, prngReg c r) ∗ ∃ W, owes (c : Thread nD τ) (0 : CellTallies nD τ sig Unit) W)
/-- A host stretch as a segment from the contents `W`, the rest riding along. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱ₙ Lₙ lvₙ :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at `W5`, the generator register at some state. -/
abbrev Tend (c : Dev nD) : sProp 𝕄 := iprop(StableHlo.held (c : Thread nD τ) (Pipeline.ucRefs τ sig) (W5 m c) ∗ ∃ r, prngReg c r)

/-! ## The regions as segments -/

set_option backward.isDefEq.respectTransparency.types false in
/-- The projection's region: entered from every unscoped buffer at `W1`, left at `W2`.  Its arrays are split out of the
    unscoped buffers and put back at the exit contents; the generator register goes into the invariant and comes out. -/
def regProj : Pipeline.RegionSeg (pcfgs (F := F)) padm (pd m) () defs₀ 𝒱ₙ Lₙ lvₙ 0 where
  win := launch0.win.to₀
  block_pos := launch0.block_pos
  stage_whole := launch0.stage_whole
  K := PEmpty
  osem k := k.elim
  ho := Pipeline.OwnSemFacts.none _
  hbody c := (projObligation (E1 m) c).loose
  hwaits := Pipeline.hwaits_of_owed_zero _ _ _ _ Lₙ lvₙ 0 fun _ _ => rfl
  pre c := iprop(StableHlo.held (c : Thread nD τ) (Pipeline.ucRefs τ sig) (W1 m c) ∗ Rest c)
  post c := iprop(StableHlo.held (c : Thread nD τ) (Pipeline.ucRefs τ sig) (W2 m c) ∗ Rest c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) padm (pd m) launch0.win launch0.arr_whole c
      ((pd m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m 0 c).Φ 0 = Pipeline.ΦA spec0 c from rfl]; unfold Pipeline.ΦA
    iintro ⟨Hp, -, Hr⟩
    isplitl [Hr]; · iexact Hr
    iexact Hp
  hout c := by
    rw [Pipeline.ownSems0_none, show (pd m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) padm (Ix := Unit) (Name := ℕ) (U := UR sig nD τ) (Lvl := ℕ)
      launch0.win launch0.arr_whole c (pd m) ((pd m 0 c).share_full fun _ => rfl)
      (E1 m c) (X2 m c) ((pd m 0 c).arrAt · cfg0.N) (projExitArr m c) (projExitRest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The pooling region: entered from every unscoped buffer at `W3`, left at `W4`.  Its invariant takes the scoped rest and
    the generator register in at the first tile and gives them back after the last, the accumulator's contents forgotten. -/
def regPool : Pipeline.RegionSeg (pcfgs (F := F)) padm (pd m) () defs₀ 𝒱ₙ Lₙ lvₙ 1 where
  win := launch1.win.to₀
  block_pos := launch1.block_pos
  stage_whole := launch1.stage_whole
  K := PEmpty
  osem k := k.elim
  ho := Pipeline.OwnSemFacts.none _
  hbody c := (poolObligation (E3 m) c).loose
  hwaits := Pipeline.hwaits_of_owed_zero _ _ _ _ Lₙ lvₙ 1 fun _ _ => rfl
  pre c := iprop(StableHlo.held (c : Thread nD τ) (Pipeline.ucRefs τ sig) (W3 m c) ∗ Rest c)
  post c := iprop(StableHlo.held (c : Thread nD τ) (Pipeline.ucRefs τ sig) (W4 m c) ∗ Rest c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) padm (pd m) launch1.win launch1.arr_whole c
      ((pd m 1 c).share_full fun _ => rfl) (E3 m c) fun w => poolA_eq (E3 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have hΦ : Pipeline.ΦA spec1 c ⊢ (pd m 1 c).Φ 0 := poolIn (E3 m) c
    iintro ⟨Hp, -, Hr⟩
    iapply hΦ
    unfold Pipeline.ΦA
    isplitl [Hr]; · iexact Hr
    iexact Hp
  hout c := by
    rw [Pipeline.ownSems0_none]
    have hΦ : (pd m 1 c).Φ (Fin.last _) ⊢ Pipeline.ΦA spec1 c := poolOut (E3 m) c
    iintro H
    ihave H' := hΦ $$ H
    unfold Pipeline.ΦA
    icases H' with ⟨Hr, Hp⟩
    isplitl [Hp]; · iexact Hp
    isplitr; · iempintro
    iexact Hr
  hexit c := by
    have hjoin := Pipeline.unscopedBufs_of_arrays (p := 1) (pcfgs (F := F)) padm (Ix := Unit) (Name := ℕ) (U := UR sig nD τ) (Lvl := ℕ)
      launch1.win launch1.arr_whole c (pd m) ((pd m 1 c).share_full fun _ => rfl)
      (E3 m c) (X4 m c) ((pd m 1 c).arrAt · cfg1.N) (poolExitArr m c) (poolExitRest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's five segments in order. -/
abbrev mainSegs : List (Pipeline.Seg (pcfgs (F := F)) padm (pd m) () defs₀ 𝒱ₙ Lₙ lvₙ) :=
  [ .host (hostSeg hostOps0 hostOps0_sub hostOps0_fresh (W0 m)),
    .region (regProj m),
    .host (hostSeg hostOps1 hostOps1_sub hostOps1_fresh (W2 m)),
    .region (regPool m),
    .host (hostSeg hostOps2 hostOps2_sub hostOps2_fresh (W4 m)) ]

/-- @main is the run of the segments. -/
theorem mainRun (c : Dev nD) : main (F := F) c = Pipeline.Seg.run (mainSegs m) := (main_chain c).trans (by chain_rfl)

set_option backward.isDefEq.respectTransparency.types false in
/-- THE RUN.  At the compiled mesh, from any memory with zero counters, every weakly fair execution of @main terminates,
    nothing faulting, and every final memory holds every unscoped buffer at `W5`. -/
theorem runAll : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) padm (pd m) () cellOf_inj emb₁ defs₀ 𝒱ₙ Lₙ lvₙ m ρ main (mainSegs m)
    (fun c Q => by rw [mainRun m c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rest c)) (Tₙ := Tend m)
    (hch := ⟨fun _ => .rfl, fun _ => .rfl, fun _ => .rfl, fun _ => .rfl, fun _ => .rfl, fun c => show (iprop(StableHlo.held (c : Thread nD τ) (Pipeline.ucRefs τ sig) (W5 m c) ∗ Rest c) : sProp 𝕄)
          ⊢ iprop(Tend m c ∗ ∃ W, owes (c : Thread nD τ) (0 : CellTallies nD τ sig Unit) W) from by
      iintro ⟨Hh, Hp, Ho⟩
      isplitl [Hh Hp]
      · isplitl [Hh]; · iexact Hh
        iexact Hp
      iexact Ho⟩)
    (hinit := by
      refine Pipeline.initEach Lₙ lvₙ fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c),
     (h c _ (mem_uc main_arg5 (by decide))).trans (W5_main_arg5 m c),
     (h c _ (mem_uc main_arg6 (by decide))).trans (W5_main_arg6 m c)⟩) (runAll m ρ)

end Cert.Kernel.Fr

end
-- ==== Proof.IProj.lean ====
/-
  The projection `x · W` as a pipelined region: 4 grid points, each staging 5000 rows of `x` and all of `W` and
  writing back 5000 rows of the product.  This module is the region's half of the frame: what each window's staging
  buffer holds at a point, the body's triple (two loads, one store of the product of the two blocks), the proof data
  and the body obligation, all at a parameter `V`, the buffer contents when the region is entered.
-/
import proofs.«414209_j12506944766171_3_alg».proof.Proof.Gen.KernelIdeal.Launch
import proofs.«414209_j12506944766171_3_alg».proof.Proof.Gen.KernelIdeal.Skeleton
import proofs.«414209_j12506944766171_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows: the elaborator's structural look recurses once per coordinate
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what core `c`'s buffers hold when the projection's region is entered: the parameter everything here is stated at
variable (V : (c : Dev nD) → (b : Ref sig .tc) → Buf (Elt F) ((c : Thread nD τ).loc b))

/-! ## The windows' blocks: 5000 rows of `x`, all of `W`, 5000 rows of the product -/

/-- Window `w`'s block at grid point `t`, read off its array as the region finds it. -/
def projBlk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The staging buffer of the `x` window holds the point's 5000 rows at every point, for any proof data over `V`
    whose body leaves the block in place. -/
theorem projBefore0_of {c : Dev nD} (dat : Dat τ (Elt F) Unit ℕ (UR sig nD τ) ℕ cfg0 c) (hA : dat.A 0 = V c (Pipeline.arrRef spec0 0))
    (hafter : ∀ t, dat.after 0 t = projBlk V c 0 t) (t : Fin cfg0.N) (d) : dat.before 0 t d = projBlk V c 0 t :=
  (dat.before_in_eq_fetched 0 rfl (fun _ => rfl) (fun _ _ _ => rfl) (fun t => by rw [hafter]; unfold Dat.blockOf projBlk; rw [hA]; try rfl) t d).trans
    (by unfold Dat.fetched Dat.blockOf projBlk; rw [hA]; try rfl)

/-- The staging buffer of the `W` window holds all of `W` at every point: it is fetched once, and its block never moves. -/
theorem projBefore1_of {c : Dev nD} (dat : Dat τ (Elt F) Unit ℕ (UR sig nD τ) ℕ cfg0 c) (hA : dat.A 1 = V c (Pipeline.arrRef spec0 1))
    (hafter : ∀ t, dat.after 1 t = projBlk V c 1 t) (t : Fin cfg0.N) (d) : dat.before 1 t d = projBlk V c 1 t :=
  (dat.before_in_eq_fetched 1 rfl (fun _ => rfl) (fun _ _ _ => rfl) (fun t => by rw [hafter]; unfold Dat.blockOf projBlk; rw [hA]; try rfl) t d).trans
    (by unfold Dat.fetched Dat.blockOf projBlk; rw [hA]; try rfl)

/-! ## The body's accesses: each buffer whole -/

abbrev projRx : Rect S5000x512 := Rect.unit (s := S5000x512) ![0, 0] S5000x512.size inb_S5000x512_S5000x512_0_0
abbrev projRw : Rect S512x256 := Rect.unit (s := S512x256) ![0, 0] S512x256.size inb_S512x256_S512x256_0_0
abbrev projRo : Rect S5000x256 := Rect.unit (s := S5000x256) ![0, 0] S5000x256.size inb_S5000x256_S5000x256_0_0

/-- What the body leaves in the product window's buffer: its one store, the product of the `x` block with `W`. -/
def projOut (x0 : Vec F S5000x512 .f32) (x1 : Vec F S512x256 .f32) : Vec F S5000x256 .bf16 :=
  View.canon [⟨projRo, k0_pay1 (View.ld x0 projRx) (View.ld x1 projRw)⟩]

/-- The one store covers the buffer. -/
theorem projCover (p0 : Vec F S5000x256 .bf16) (y : S5000x256.Idx) :
    ∃ pc ∈ ([⟨projRo, p0⟩] : List (View.Piece (Elt F) S5000x256 .bf16)), y ∈ pc.1.set :=
  View.cover_of_tiled [⟨projRo, p0⟩] S5000x256.size (by rfl) y

/-! ## The body's triple -/

set_option maxHeartbeats 4000000 in
/-- On whole staging buffers, the two inputs' at their contents and the product's at anything, the body runs to the
    continuation with the inputs as they were and the product's buffer at `projOut` of them. -/
theorem projSound (c : Dev nD) (E : Set ℕ) (i : grid0.Coords)
    (arg1 : Memref sig .tc .vmem S5000x512 .f32) (harg1 : arg1.IsWhole) (arg2 : Memref sig .tc .vmem S512x256 .f32) (harg2 : arg2.IsWhole)
    (arg3 : Memref sig .tc .vmem S5000x256 .bf16) (harg3 : arg3.IsWhole)
    (x0 : Vec F S5000x512 .f32) (x1 : Vec F S512x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (projOut x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (projCover _)

/-! ## The region's proof data -/

/-- The projection's proof data on core `c`: the arrays as the region finds them; after the body at point `t` each
    input's buffer at its block and the product's at `projOut` of the two blocks; the invariant the scoped rest and the
    generator register, untouched; nothing owed; full shares. -/
def projDat (c : Dev nD) : Dat τ (Elt F) Unit ℕ (UR sig nD τ) ℕ cfg0 c where
  A w := V c (Pipeline.arrRef spec0 w)
  after w t := match w with
    | ⟨0, _⟩ => projBlk V c 0 t
    | ⟨1, _⟩ => projBlk V c 1 t
    | ⟨2, _⟩ => projOut (projBlk V c 0 t) (projBlk V c 1 t)
  Φ _ := Pipeline.ΦA spec0 c
  q _ := fullShare
  owed _ := 0

theorem projA_eq (c : Dev nD) (w : Fin cfg0.W) : (projDat V c).A w = V c (Pipeline.arrRef spec0 w) := by
  dsimp only [projDat]

theorem projAfter0 (c : Dev nD) (t : Fin cfg0.N) : (projDat V c).after 0 t = projBlk V c 0 t := by dsimp only [projDat]
theorem projAfter1 (c : Dev nD) (t : Fin cfg0.N) : (projDat V c).after 1 t = projBlk V c 1 t := by dsimp only [projDat]
theorem projAfter2 (c : Dev nD) (t : Fin cfg0.N) :
    (projDat V c).after 2 t = projOut (projBlk V c 0 t) (projBlk V c 1 t) := by dsimp only [projDat]

theorem projBefore0 (c : Dev nD) (t : Fin cfg0.N) (d) : (projDat V c).before 0 t d = projBlk V c 0 t :=
  projBefore0_of V (projDat V c) (projA_eq V c 0) (projAfter0 V c) t d
theorem projBefore1 (c : Dev nD) (t : Fin cfg0.N) (d) : (projDat V c).before 1 t d = projBlk V c 1 t :=
  projBefore1_of V (projDat V c) (projA_eq V c 1) (projAfter1 V c) t d

/-! ## The body obligation -/

def projPre (c : Dev nD) (t : Fin cfg0.N) : sProp 𝕄 :=
  iprop((projDat V c).Φ t.castSucc ∗ (projDat V c).owesAt () t.castSucc
    ∗ (∃ d, owns (c : Thread nD τ) (st0_0 t) fullShare ((projDat V c).before 0 t d))
    ∗ (∃ d, owns (c : Thread nD τ) (st0_1 t) fullShare ((projDat V c).before 1 t d))
    ∗ (∃ d, owns (c : Thread nD τ) (st0_2 t) fullShare ((projDat V c).before 2 t d)))

def projPost (c : Dev nD) (t : Fin cfg0.N) : sProp 𝕄 :=
  iprop((projDat V c).Φ t.succ ∗ (projDat V c).owesAt () t.succ
    ∗ owns (c : Thread nD τ) (st0_0 t) fullShare ((projDat V c).after 0 t)
    ∗ owns (c : Thread nD τ) (st0_1 t) fullShare ((projDat V c).after 1 t)
    ∗ owns (c : Thread nD τ) (st0_2 t) fullShare ((projDat V c).after 2 t))

set_option maxHeartbeats 1000000 in
/-- The body at any point: the inputs' buffers hold their blocks, so `projSound` applies; the invariant and what the core
    owes pass through unread. -/
theorem projSoundBody (c : Dev nD) (t : Fin cfg0.N) :
    projPre V c t ⊢ wp frame (wpE (defs₀ (F := F)) Variants.none c none) Set.univ (bodyAt0 t) (fun _ => projPost V c t) := by
  unfold projPre projPost bodyAt0
  simp only [projBefore0, projBefore1]
  rw [show (projDat V c).Φ t.succ = (projDat V c).Φ t.castSucc from rfl,
    show (projDat V c).owesAt () t.succ = (projDat V c).owesAt () t.castSucc from rfl,
    projAfter0, projAfter1, projAfter2]
  iintro ⟨HΦ, Ho, ⟨%d0, H0⟩, ⟨%d1, H1⟩, ⟨%d2, H2⟩⟩
  iapply (projSound c Set.univ _ _ _ _ _ _ _ (projBlk V c 0 t) (projBlk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem projObligation (c : Dev nD) : BodyObligation (projDat (F := F) V c) (defs₀ (F := F)) Variants.none () Set.univ := fun t => by
  rw [bigSep_W0, bigSep_W0]
  exact projSoundBody V c t

end Cert.KernelIdeal.Fr

end
-- ==== Proof.IPoolRuns.lean ====
/-
  The pooling head as a pipelined region: 4 grid points, each staging one tile of 5000 rows (the aggregate, the
  projected features, the inverse degrees, the graph ids) beside the bias, the counts and the head's weights, which are
  fetched once.  The body keeps a 256x256 accumulator in a scratch buffer between points: at the first tile it resets the
  accumulator (and the output block) to zero, at every tile it adds the product of the tile's one-hot graph matrix
  with the tile's activations, and at the last tile it divides by the counts, applies the head and stores the
  output block, which is written back there only.  This module holds what the region's three control cases share and
  the body's triple in each: the two branch conditions in closed form over the grid, where the output window is idle,
  live or written back, the scratch buffer as a memref and the region invariant with it owned, each input window's
  staging buffer at its block, and the three runs (first tile, middle tiles, last tile), all at a parameter `V`, the
  buffer contents when the region is entered.
-/
import proofs.«414209_j12506944766171_3_alg».proof.Proof.Gen.KernelIdeal.Launch
import proofs.«414209_j12506944766171_3_alg».proof.Proof.Gen.KernelIdeal.Skeleton
import proofs.«414209_j12506944766171_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

-- membership in a rectangle of 5000 rows: the elaborator's structural look recurses once per coordinate
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what core `c`'s buffers hold when the pooling region is entered: the parameter everything here is stated at
variable (V : (c : Dev nD) → (b : Ref sig .tc) → Buf (Elt F) ((c : Thread nD τ).loc b))

/-! ## The two branch conditions, in closed form over the grid -/

/-- The body's first conditional (reset the accumulator and the output block): taken at the first tile. -/
abbrev poolFirst (i : grid1.Coords) : Prop := k1_cond1 i = 1#1
/-- It holds at point 0 only — decided over the grid. -/
theorem poolFirst_iff : ∀ t : Fin cfg1.N, poolFirst (grid1.coords t) ↔ t.val % 4 = 0 :=
  (by decide +kernel : ∀ t : Fin grid1.N, poolFirst (grid1.coords t) ↔ t.val % 4 = 0)

/-- The body's second conditional (apply the head and store the output block): taken at the last tile. -/
abbrev poolLast (i : grid1.Coords) : Prop := k1_cond2 i = 1#1
/-- It holds at point 3 only — decided over the grid. -/
theorem poolLast_iff : ∀ t : Fin cfg1.N, poolLast (grid1.coords t) ↔ t.val % 4 = 3 :=
  (by decide +kernel : ∀ t : Fin grid1.N, poolLast (grid1.coords t) ↔ t.val % 4 = 3)

/-! ## Where the output window is idle, live, written back -/

/-- At the first tile the body stores into the output block: the window is live there. -/
theorem poolOutLive_first : ∀ t : Fin cfg1.N, poolFirst (grid1.coords t) → ¬poolLast (grid1.coords t) → cfg1.idle 8 (grid1.coords t) = false := by decide +kernel
/-- At the middle tiles the body stores nothing into the output block: the window is idle there, -/
theorem poolOutIdle_mid : ∀ t : Fin cfg1.N, ¬poolFirst (grid1.coords t) → ¬poolLast (grid1.coords t) → cfg1.idle 8 (grid1.coords t) = true := by decide +kernel
/-- and the pipeline does not write the block back there. -/
theorem poolOutNoFlush_mid : ∀ t : Fin cfg1.N, ¬poolFirst (grid1.coords t) → ¬poolLast (grid1.coords t) → (cfg1.win 8).flush t = false := by decide +kernel
/-- At the last tile the body stores the head's result into the output block: the window is live there. -/
theorem poolOutLive_last : ∀ t : Fin cfg1.N, ¬poolFirst (grid1.coords t) → poolLast (grid1.coords t) → cfg1.idle 8 (grid1.coords t) = false := by decide +kernel

/-! ## The accumulator's buffer and the region invariant -/

/-- The accumulator: a whole scoped buffer of the kernel's own, passed to the body beside the windows. -/
abbrev poolScr : Memref sig .tc .vmem S256x256 .f32 := Memref.whole cc1_scratch0

/-- The projection's five staging buffers, which this region never touches, each at some contents, beside `P`: the
    shape of this region's scoped rest, with `P` what is said of the accumulator. -/
def poolRest (c : Dev nD) (P : sProp 𝕄) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ P)

/-- The region invariant as the launch hands it over: the projection's five staging buffers and the accumulator, each at
    some contents, and the generator register at some state. -/
theorem poolPhiA_eq (c : Dev nD) :
    (Pipeline.ΦA spec1 c : sProp 𝕄)
      = iprop(poolRest c (iprop(∃ d, owns (c : Thread nD τ) poolScr fullShare d)) ∗ (∃ r, prngReg c r)) := by
  unfold Pipeline.ΦA poolRest; rw [scopedRest1_eq]; simp only [poolScr, owns_whole]; try rfl

/-! ## The windows' blocks -/

/-- Window `w`'s block at grid point `t`, read off its array as the region finds it. -/
def poolBlk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The aggregate's staging buffer holds the point's 5000 rows at every point, for any proof data over `V` whose body leaves the block in place. -/
theorem poolBefore0_of {c : Dev nD} (dat : Dat τ (Elt F) Unit ℕ (UR sig nD τ) ℕ cfg1 c) (hA : dat.A 0 = V c (Pipeline.arrRef spec1 0))
    (hafter : ∀ t, dat.after 0 t = poolBlk V c 0 t) (t : Fin cfg1.N) (d) : dat.before 0 t d = poolBlk V c 0 t :=
  (dat.before_in_eq_fetched 0 rfl (fun _ => rfl) (fun _ _ _ => rfl) (fun t => by rw [hafter]; unfold Dat.blockOf poolBlk; rw [hA]; try rfl) t d).trans
    (by unfold Dat.fetched Dat.blockOf poolBlk; rw [hA]; try rfl)

/-- The projected features' staging buffer holds the point's 5000 rows at every point, for any proof data over `V` whose body leaves the block in place. -/
theorem poolBefore1_of {c : Dev nD} (dat : Dat τ (Elt F) Unit ℕ (UR sig nD τ) ℕ cfg1 c) (hA : dat.A 1 = V c (Pipeline.arrRef spec1 1))
    (hafter : ∀ t, dat.after 1 t = poolBlk V c 1 t) (t : Fin cfg1.N) (d) : dat.before 1 t d = poolBlk V c 1 t :=
  (dat.before_in_eq_fetched 1 rfl (fun _ => rfl) (fun _ _ _ => rfl) (fun t => by rw [hafter]; unfold Dat.blockOf poolBlk; rw [hA]; try rfl) t d).trans
    (by unfold Dat.fetched Dat.blockOf poolBlk; rw [hA]; try rfl)

/-- The inverse degrees' staging buffer holds the point's 5000 entries at every point, for any proof data over `V` whose body leaves the block in place. -/
theorem poolBefore2_of {c : Dev nD} (dat : Dat τ (Elt F) Unit ℕ (UR sig nD τ) ℕ cfg1 c) (hA : dat.A 2 = V c (Pipeline.arrRef spec1 2))
    (hafter : ∀ t, dat.after 2 t = poolBlk V c 2 t) (t : Fin cfg1.N) (d) : dat.before 2 t d = poolBlk V c 2 t :=
  (dat.before_in_eq_fetched 2 rfl (fun _ => rfl) (fun _ _ _ => rfl) (fun t => by rw [hafter]; unfold Dat.blockOf poolBlk; rw [hA]; try rfl) t d).trans
    (by unfold Dat.fetched Dat.blockOf poolBlk; rw [hA]; try rfl)

/-- The bias's staging buffer holds the bias at every point: it is fetched once, and its block never moves, for any proof data over `V` whose body leaves the block in place. -/
theorem poolBefore3_of {c : Dev nD} (dat : Dat τ (Elt F) Unit ℕ (UR sig nD τ) ℕ cfg1 c) (hA : dat.A 3 = V c (Pipeline.arrRef spec1 3))
    (hafter : ∀ t, dat.after 3 t = poolBlk V c 3 t) (t : Fin cfg1.N) (d) : dat.before 3 t d = poolBlk V c 3 t :=
  (dat.before_in_eq_fetched 3 rfl (fun _ => rfl) (fun _ _ _ => rfl) (fun t => by rw [hafter]; unfold Dat.blockOf poolBlk; rw [hA]; try rfl) t d).trans
    (by unfold Dat.fetched Dat.blockOf poolBlk; rw [hA]; try rfl)

/-- The graph ids' staging buffer holds the point's 5000 entries at every point, for any proof data over `V` whose body leaves the block in place. -/
theorem poolBefore4_of {c : Dev nD} (dat : Dat τ (Elt F) Unit ℕ (UR sig nD τ) ℕ cfg1 c) (hA : dat.A 4 = V c (Pipeline.arrRef spec1 4))
    (hafter : ∀ t, dat.after 4 t = poolBlk V c 4 t) (t : Fin cfg1.N) (d) : dat.before 4 t d = poolBlk V c 4 t :=
  (dat.before_in_eq_fetched 4 rfl (fun _ => rfl) (fun _ _ _ => rfl) (fun t => by rw [hafter]; unfold Dat.blockOf poolBlk; rw [hA]; try rfl) t d).trans
    (by unfold Dat.fetched Dat.blockOf poolBlk; rw [hA]; try rfl)

/-- The counts' staging buffer holds the counts at every point: fetched once, the block never moves, for any proof data over `V` whose body leaves the block in place. -/
theorem poolBefore5_of {c : Dev nD} (dat : Dat τ (Elt F) Unit ℕ (UR sig nD τ) ℕ cfg1 c) (hA : dat.A 5 = V c (Pipeline.arrRef spec1 5))
    (hafter : ∀ t, dat.after 5 t = poolBlk V c 5 t) (t : Fin cfg1.N) (d) : dat.before 5 t d = poolBlk V c 5 t :=
  (dat.before_in_eq_fetched 5 rfl (fun _ => rfl) (fun _ _ _ => rfl) (fun t => by rw [hafter]; unfold Dat.blockOf poolBlk; rw [hA]; try rfl) t d).trans
    (by unfold Dat.fetched Dat.blockOf poolBlk; rw [hA]; try rfl)

/-- The head's weights' staging buffer holds them at every point: fetched once, the block never moves, for any proof data over `V` whose body leaves the block in place. -/
theorem poolBefore6_of {c : Dev nD} (dat : Dat τ (Elt F) Unit ℕ (UR sig nD τ) ℕ cfg1 c) (hA : dat.A 6 = V c (Pipeline.arrRef spec1 6))
    (hafter : ∀ t, dat.after 6 t = poolBlk V c 6 t) (t : Fin cfg1.N) (d) : dat.before 6 t d = poolBlk V c 6 t :=
  (dat.before_in_eq_fetched 6 rfl (fun _ => rfl) (fun _ _ _ => rfl) (fun t => by rw [hafter]; unfold Dat.blockOf poolBlk; rw [hA]; try rfl) t d).trans
    (by unfold Dat.fetched Dat.blockOf poolBlk; rw [hA]; try rfl)

/-- The head's offset's staging buffer holds it at every point: fetched once, the block never moves, for any proof data over `V` whose body leaves the block in place. -/
theorem poolBefore7_of {c : Dev nD} (dat : Dat τ (Elt F) Unit ℕ (UR sig nD τ) ℕ cfg1 c) (hA : dat.A 7 = V c (Pipeline.arrRef spec1 7))
    (hafter : ∀ t, dat.after 7 t = poolBlk V c 7 t) (t : Fin cfg1.N) (d) : dat.before 7 t d = poolBlk V c 7 t :=
  (dat.before_in_eq_fetched 7 rfl (fun _ => rfl) (fun _ _ _ => rfl) (fun t => by rw [hafter]; unfold Dat.blockOf poolBlk; rw [hA]; try rfl) t d).trans
    (by unfold Dat.fetched Dat.blockOf poolBlk; rw [hA]; try rfl)

/-! ## The body's triple, case by case -/

/-- Every access of the body is through the whole-shape rectangle at zero offsets. -/
theorem poolZ : (![0, 0] : Fin 2 → Nat) = fun _ => 0 := funext fun a => by fin_cases a <;> rfl

set_option maxHeartbeats 4000000 in
/-- THE FIRST TILE (the reset taken, the head not).  On whole staging buffers, the five tile inputs' at their contents, the
    output block's and the accumulator's at anything, the body runs to the continuation with the inputs as they were, the
    output block zeroed, and the accumulator at the tile's one-hot product added to zero. -/
theorem poolSoundA (c : Dev nD) (E : Set ℕ) (i : grid1.Coords)
    (arg1 : Memref sig .tc .vmem S5000x256 .f32) (harg1 : arg1.IsWhole) (arg2 : Memref sig .tc .vmem S5000x256 .bf16) (harg2 : arg2.IsWhole)
    (arg3 : Memref sig .tc .vmem S5000x1 .f32) (harg3 : arg3.IsWhole) (arg4 : Memref sig .tc .vmem S1x256 .f32) (harg4 : arg4.IsWhole)
    (arg5 : Memref sig .tc .vmem S5000x1 .i32) (harg5 : arg5.IsWhole) (arg6 : Memref sig .tc .vmem S256x1 .f32) (harg6 : arg6.IsWhole)
    (arg7 : Memref sig .tc .vmem S256x1 .f32) (harg7 : arg7.IsWhole) (arg8 : Memref sig .tc .vmem S1x1 .f32) (harg8 : arg8.IsWhole)
    (arg9 : Memref sig .tc .vmem S256x1 .f32) (harg9 : arg9.IsWhole) (arg10 : Memref sig .tc .vmem S256x256 .f32) (harg10 : arg10.IsWhole)
    (hc1 : poolFirst i) (hc2 : ¬poolLast i)
    (x0 : Vec F S5000x256 .f32) (x1 : Vec F S5000x256 .bf16) (x2 : Vec F S5000x1 .f32) (x3 : Vec F S1x256 .f32) (x4 : Vec F S5000x1 .i32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg9 fullShare (k1_pay3 (F := F)) ∗ owns (c : Thread nD τ) arg10 fullShare (k1_pay4 x2 x1 x0 x3 x4 (k1_pay2 (F := F)))) -∗ K ⟨⟩))
      ⊢ wp frame (wpE (defs₀ (F := F)) Variants.none c none) E (cc1__pool_head_kernel i arg1 harg1 arg2 harg2 arg3 harg3 arg4 harg4 arg5 harg5 arg6 harg6 arg7 harg7 arg8 harg8 arg9 harg9 arg10 harg10) K := by
  simp only [cc1__pool_head_kernel_eq_skeleton]; unfold cc1__pool_head_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d9, %f9, -, H9⟩, ⟨%ds, %fs, -, HS⟩, Hk⟩
  obtain rfl := harg1.eq_unread hf0; obtain rfl := harg2.eq_unread hf1; obtain rfl := harg3.eq_unread hf2
  obtain rfl := harg4.eq_unread hf3; obtain rfl := harg5.eq_unread hf4
  sl_exec (disch := first | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H9]
  · iexists _; isplitr
    swap; · iexact H9
    ipureintro
    sl_unfold_words
    rw [View.read_writes_eq_canon _ _ _ (fun y => ⟨_, List.mem_cons.mpr (Or.inl rfl), View.mem_set_unit_zero poolZ inb_S256x1_S256x1_0_0 y⟩)]
    rw [View.canon_unit_zero (S := S256x1) poolZ]
  iexists _; isplitr
  swap; · iexact HS
  ipureintro
  sl_unfold_words
  rw [View.read_writes_eq_canon _ _ _ (fun y => ⟨_, List.mem_cons.mpr (Or.inl rfl), View.mem_set_unit_zero poolZ inb_S256x256_S256x256_0_0 y⟩)]
  rw [View.canon_cons_unit_zero (S := S256x256) poolZ, View.readCov_unit_zero (S := S256x256) _ poolZ]
  simp only [View.readAt_eq_ld, harg1.read_unread, harg2.read_unread, harg3.read_unread, harg4.read_unread, harg5.read_unread,
    View.ld_unit_zero (S := S5000x256) poolZ, View.ld_unit_zero (S := S5000x1) poolZ, View.ld_unit_zero (S := S1x256) poolZ,
    View.ld_unit_zero (S := S256x256) poolZ, View.ld_unit_zero (S := S256x1) poolZ, View.ld_unit_zero (S := S1x1) poolZ]

set_option maxHeartbeats 4000000 in
/-- A MIDDLE TILE (neither conditional taken).  On whole staging buffers, the five tile inputs' at their contents and the
    accumulator at what the tile before left, the body runs to the continuation with the inputs as they were and the
    accumulator advanced by the tile's one-hot product; it touches nothing else. -/
theorem poolSoundB (c : Dev nD) (E : Set ℕ) (i : grid1.Coords)
    (arg1 : Memref sig .tc .vmem S5000x256 .f32) (harg1 : arg1.IsWhole) (arg2 : Memref sig .tc .vmem S5000x256 .bf16) (harg2 : arg2.IsWhole)
    (arg3 : Memref sig .tc .vmem S5000x1 .f32) (harg3 : arg3.IsWhole) (arg4 : Memref sig .tc .vmem S1x256 .f32) (harg4 : arg4.IsWhole)
    (arg5 : Memref sig .tc .vmem S5000x1 .i32) (harg5 : arg5.IsWhole) (arg6 : Memref sig .tc .vmem S256x1 .f32) (harg6 : arg6.IsWhole)
    (arg7 : Memref sig .tc .vmem S256x1 .f32) (harg7 : arg7.IsWhole) (arg8 : Memref sig .tc .vmem S1x1 .f32) (harg8 : arg8.IsWhole)
    (arg9 : Memref sig .tc .vmem S256x1 .f32) (harg9 : arg9.IsWhole) (arg10 : Memref sig .tc .vmem S256x256 .f32) (harg10 : arg10.IsWhole)
    (hc1 : ¬poolFirst i) (hc2 : ¬poolLast i)
    (x0 : Vec F S5000x256 .f32) (x1 : Vec F S5000x256 .bf16) (x2 : Vec F S5000x1 .f32) (x3 : Vec F S1x256 .f32) (x4 : Vec F S5000x1 .i32)
    (xs : Vec F S256x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg10 fullShare xs
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg10 fullShare (k1_pay4 x2 x1 x0 x3 x4 xs)) -∗ K ⟨⟩))
      ⊢ wp frame (wpE (defs₀ (F := F)) Variants.none c none) E (cc1__pool_head_kernel i arg1 harg1 arg2 harg2 arg3 harg3 arg4 harg4 arg5 harg5 arg6 harg6 arg7 harg7 arg8 harg8 arg9 harg9 arg10 harg10) K := by
  simp only [cc1__pool_head_kernel_eq_skeleton]; unfold cc1__pool_head_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  obtain rfl := harg1.eq_unread hf0; obtain rfl := harg2.eq_unread hf1; obtain rfl := harg3.eq_unread hf2
  obtain rfl := harg4.eq_unread hf3; obtain rfl := harg5.eq_unread hf4; obtain rfl := harg10.eq_unread hfs
  sl_exec (disch := first | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  iexists _; isplitr
  swap; · iexact HS
  ipureintro
  rw [View.read_writes_eq_canon _ _ _ (fun y => ⟨_, List.mem_cons.mpr (Or.inl rfl), View.mem_set_unit_zero poolZ inb_S256x256_S256x256_0_0 y⟩)]
  rw [View.canon_unit_zero (S := S256x256) poolZ]
  simp only [View.readAt_eq_ld, harg1.read_unread, harg2.read_unread, harg3.read_unread, harg4.read_unread, harg5.read_unread, harg10.read_unread,
    View.ld_unit_zero (S := S5000x256) poolZ, View.ld_unit_zero (S := S5000x1) poolZ, View.ld_unit_zero (S := S1x256) poolZ,
    View.ld_unit_zero (S := S256x256) poolZ, View.ld_unit_zero (S := S256x1) poolZ, View.ld_unit_zero (S := S1x1) poolZ]

set_option maxHeartbeats 4000000 in
/-- THE LAST TILE (the reset not taken, the head taken).  On whole staging buffers, the eight inputs' at their contents, the
    accumulator at what the tile before left and the output block's at anything, the body runs to the continuation with the
    inputs as they were, the accumulator advanced by the tile's one-hot product, and the output block at the head of
    that final accumulator. -/
theorem poolSoundC (c : Dev nD) (E : Set ℕ) (i : grid1.Coords)
    (arg1 : Memref sig .tc .vmem S5000x256 .f32) (harg1 : arg1.IsWhole) (arg2 : Memref sig .tc .vmem S5000x256 .bf16) (harg2 : arg2.IsWhole)
    (arg3 : Memref sig .tc .vmem S5000x1 .f32) (harg3 : arg3.IsWhole) (arg4 : Memref sig .tc .vmem S1x256 .f32) (harg4 : arg4.IsWhole)
    (arg5 : Memref sig .tc .vmem S5000x1 .i32) (harg5 : arg5.IsWhole) (arg6 : Memref sig .tc .vmem S256x1 .f32) (harg6 : arg6.IsWhole)
    (arg7 : Memref sig .tc .vmem S256x1 .f32) (harg7 : arg7.IsWhole) (arg8 : Memref sig .tc .vmem S1x1 .f32) (harg8 : arg8.IsWhole)
    (arg9 : Memref sig .tc .vmem S256x1 .f32) (harg9 : arg9.IsWhole) (arg10 : Memref sig .tc .vmem S256x256 .f32) (harg10 : arg10.IsWhole)
    (hc1 : ¬poolFirst i) (hc2 : poolLast i)
    (x0 : Vec F S5000x256 .f32) (x1 : Vec F S5000x256 .bf16) (x2 : Vec F S5000x1 .f32) (x3 : Vec F S1x256 .f32) (x4 : Vec F S5000x1 .i32)
    (x5 : Vec F S256x1 .f32) (x6 : Vec F S256x1 .f32) (x7 : Vec F S1x1 .f32) (xs : Vec F S256x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d) ∗ owns (c : Thread nD τ) arg10 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (k1_pay1 (k1_pay4 x2 x1 x0 x3 x4 xs) x5 x6 x7) ∗ owns (c : Thread nD τ) arg10 fullShare (k1_pay4 x2 x1 x0 x3 x4 xs)) -∗ K ⟨⟩))
      ⊢ wp frame (wpE (defs₀ (F := F)) Variants.none c none) E (cc1__pool_head_kernel i arg1 harg1 arg2 harg2 arg3 harg3 arg4 harg4 arg5 harg5 arg6 harg6 arg7 harg7 arg8 harg8 arg9 harg9 arg10 harg10) K := by
  simp only [cc1__pool_head_kernel_eq_skeleton]; unfold cc1__pool_head_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d9, %f9, -, H9⟩, ⟨%fs, %hfs, HS⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hf6; obtain rfl := harg8.eq_unread hf7; obtain rfl := harg10.eq_unread hfs
  sl_exec (disch := first | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H9]
  · iexists _; isplitr
    swap; · iexact H9
    ipureintro
    sl_unfold_words
    rw [View.read_writes_eq_canon _ _ _ (fun y => ⟨_, List.mem_cons.mpr (Or.inl rfl), View.mem_set_unit_zero poolZ inb_S256x1_S256x1_0_0 y⟩)]
    rw [View.canon_unit_zero (S := S256x1) poolZ, View.readCov_unit_zero (S := S256x256) _ poolZ]
    simp only [View.readAt_eq_ld, harg1.read_unread, harg2.read_unread, harg3.read_unread, harg4.read_unread, harg5.read_unread,
      harg6.read_unread, harg7.read_unread, harg8.read_unread, harg10.read_unread,
      View.ld_unit_zero (S := S5000x256) poolZ, View.ld_unit_zero (S := S5000x1) poolZ, View.ld_unit_zero (S := S1x256) poolZ,
    View.ld_unit_zero (S := S256x256) poolZ, View.ld_unit_zero (S := S256x1) poolZ, View.ld_unit_zero (S := S1x1) poolZ]
  iexists _; isplitr
  swap; · iexact HS
  ipureintro
  sl_unfold_words
  rw [View.read_writes_eq_canon _ _ _ (fun y => ⟨_, List.mem_cons.mpr (Or.inl rfl), View.mem_set_unit_zero poolZ inb_S256x256_S256x256_0_0 y⟩)]
  rw [View.canon_unit_zero (S := S256x256) poolZ]
  simp only [View.readAt_eq_ld, harg1.read_unread, harg2.read_unread, harg3.read_unread, harg4.read_unread, harg5.read_unread, harg10.read_unread,
    View.ld_unit_zero (S := S5000x256) poolZ, View.ld_unit_zero (S := S5000x1) poolZ, View.ld_unit_zero (S := S1x256) poolZ,
    View.ld_unit_zero (S := S256x256) poolZ, View.ld_unit_zero (S := S256x1) poolZ, View.ld_unit_zero (S := S1x1) poolZ]

end Cert.KernelIdeal.Fr

end
-- ==== Proof.IPool.lean ====
/-
  The pooling head as a pipelined region, second half: what the accumulator holds after each tile (zero plus the first
  tile's one-hot product, then each later tile's product added in grid order), what the body leaves in the output block's
  buffer (zeros at the first tile; at the last the head of the final accumulator: its rows divided by the counts,
  multiplied into the head's weights, offset, and passed through the logistic), the region invariant that carries the
  accumulator from one point to the next, the proof data and the body obligation at every point — a case split on the
  two branch conditions' closed forms, each leaf that case's run —, how the launch's invariant enters and leaves, and
  the value equations in terms of the windows' blocks.  All at a parameter `V`, the buffer contents when the region is
  entered.
-/
import proofs.«414209_j12506944766171_3_alg».proof.Proof.IPoolRuns

-- membership in a rectangle of 5000 rows: the elaborator's structural look recurses once per coordinate
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what core `c`'s buffers hold when the pooling region is entered: the parameter everything here is stated at
variable (V : (c : Dev nD) → (b : Ref sig .tc) → Buf (Elt F) ((c : Thread nD τ).loc b))

/-! ## The accumulator, tile by tile -/

/-- The accumulator after point `n`: the first tile's one-hot product added to zero, then each later tile's product added
    to what the tile before left, in grid order. -/
def poolAcc (c : Dev nD) : (n : ℕ) → n < cfg1.N → Vec F S256x256 .f32
  | 0, h => k1_pay4 (poolBlk V c 2 ⟨0, h⟩) (poolBlk V c 1 ⟨0, h⟩) (poolBlk V c 0 ⟨0, h⟩) (poolBlk V c 3 ⟨0, h⟩) (poolBlk V c 4 ⟨0, h⟩) (k1_pay2 (F := F))
  | n + 1, h => k1_pay4 (poolBlk V c 2 ⟨n + 1, h⟩) (poolBlk V c 1 ⟨n + 1, h⟩) (poolBlk V c 0 ⟨n + 1, h⟩) (poolBlk V c 3 ⟨n + 1, h⟩) (poolBlk V c 4 ⟨n + 1, h⟩) (poolAcc c n (Nat.lt_of_succ_lt h))

theorem poolAcc_zero (c : Dev nD) (h : 0 < cfg1.N) :
    poolAcc V c 0 h = k1_pay4 (poolBlk V c 2 ⟨0, h⟩) (poolBlk V c 1 ⟨0, h⟩) (poolBlk V c 0 ⟨0, h⟩) (poolBlk V c 3 ⟨0, h⟩) (poolBlk V c 4 ⟨0, h⟩) (k1_pay2 (F := F)) := rfl

theorem poolAcc_succ (c : Dev nD) (n : ℕ) (h : n + 1 < cfg1.N) :
    poolAcc V c (n + 1) h = k1_pay4 (poolBlk V c 2 ⟨n + 1, h⟩) (poolBlk V c 1 ⟨n + 1, h⟩) (poolBlk V c 0 ⟨n + 1, h⟩) (poolBlk V c 3 ⟨n + 1, h⟩) (poolBlk V c 4 ⟨n + 1, h⟩) (poolAcc V c n (Nat.lt_of_succ_lt h)) := rfl

/-- The accumulator after the first point, stated at the point. -/
theorem poolAcc_first (c : Dev nD) (t : Fin cfg1.N) (h0 : t.val = 0) :
    poolAcc V c t.val t.isLt = k1_pay4 (poolBlk V c 2 t) (poolBlk V c 1 t) (poolBlk V c 0 t) (poolBlk V c 3 t) (poolBlk V c 4 t) (k1_pay2 (F := F)) := by
  obtain ⟨n, hn⟩ := t
  cases n with
  | zero => rfl
  | succ n => exact absurd h0 (Nat.succ_ne_zero n)

/-- The accumulator after a later point, stated at the point: its tile's product added to what the point before left. -/
theorem poolAcc_later (c : Dev nD) (t : Fin cfg1.N) (h0 : t.val ≠ 0) :
    poolAcc V c t.val t.isLt = k1_pay4 (poolBlk V c 2 t) (poolBlk V c 1 t) (poolBlk V c 0 t) (poolBlk V c 3 t) (poolBlk V c 4 t) (poolAcc V c (t.val - 1) (Nat.lt_of_le_of_lt (Nat.sub_le _ _) t.isLt)) := by
  obtain ⟨n, hn⟩ := t
  cases n with
  | zero => exact absurd rfl h0
  | succ n => rfl

/-- What the body leaves in the output block's buffer at point `t`: at the last tile the head of the final accumulator;
    before it the zeros the first tile stored (at the middle tiles, where the window is idle, a statement nothing consults). -/
def poolHead (c : Dev nD) (t : Fin cfg1.N) : Vec F S256x1 .f32 :=
  if t.val % 4 = 3 then k1_pay1 (poolAcc V c t.val t.isLt) (poolBlk V c 5 t) (poolBlk V c 6 t) (poolBlk V c 7 t) else k1_pay3 (F := F)

/-! ## The invariant that carries the accumulator -/

/-- The region invariant before position `n`: before the first point what the launch hands over (the accumulator at
    anything); afterwards the accumulator owned at what the point before left, the projection's staging buffers carried
    along untouched, and the generator register at some state. -/
def poolInv (c : Dev nD) : (n : ℕ) → n ≤ cfg1.N → sProp 𝕄
  | 0, _ => Pipeline.ΦA spec1 c
  | n + 1, hn => iprop(poolRest c (owns (c : Thread nD τ) poolScr fullShare (poolAcc V c n hn)) ∗ (∃ r, prngReg c r))

theorem poolInv_zero (c : Dev nD) (n : ℕ) (h : n ≤ cfg1.N) (hz : n = 0) : poolInv V c n h = Pipeline.ΦA spec1 c := by
  subst hz; rfl

theorem poolInv_succ (c : Dev nD) (n : ℕ) (hn : n < cfg1.N) :
    poolInv V c (n + 1) hn = iprop(poolRest c (owns (c : Thread nD τ) poolScr fullShare (poolAcc V c n hn)) ∗ (∃ r, prngReg c r)) := rfl

theorem poolInv_pos (c : Dev nD) (n : ℕ) (h : n ≤ cfg1.N) (hz : n ≠ 0) :
    poolInv V c n h = iprop(poolRest c (owns (c : Thread nD τ) poolScr fullShare (poolAcc V c (n - 1) (by omega))) ∗ (∃ r, prngReg c r)) := by
  cases n with
  | zero => exact absurd rfl hz
  | succ n => rfl

/-! ## The region's proof data -/

/-- The pooling region's proof data on core `c`: the arrays as the region finds them; after the body at point `t` each
    input's buffer at its block and the output block's at `poolHead`; the invariant `poolInv`; nothing owed; full shares. -/
def poolDat (c : Dev nD) : Dat τ (Elt F) Unit ℕ (UR sig nD τ) ℕ cfg1 c where
  A w := V c (Pipeline.arrRef spec1 w)
  after w t := match w with
    | ⟨0, _⟩ => poolBlk V c 0 t
    | ⟨1, _⟩ => poolBlk V c 1 t
    | ⟨2, _⟩ => poolBlk V c 2 t
    | ⟨3, _⟩ => poolBlk V c 3 t
    | ⟨4, _⟩ => poolBlk V c 4 t
    | ⟨5, _⟩ => poolBlk V c 5 t
    | ⟨6, _⟩ => poolBlk V c 6 t
    | ⟨7, _⟩ => poolBlk V c 7 t
    | ⟨8, _⟩ => poolHead V c t
  Φ t := poolInv V c t.val (Nat.le_of_lt_succ t.isLt)
  q _ := fullShare
  owed _ := 0

theorem poolA_eq (c : Dev nD) (w : Fin cfg1.W) : (poolDat V c).A w = V c (Pipeline.arrRef spec1 w) := by
  dsimp only [poolDat]

/-- The invariant at a point's start, restated at the point's position. -/
theorem poolInv_castSucc (c : Dev nD) (t : Fin cfg1.N) :
    (poolDat V c).Φ t.castSucc = poolInv V c t.val (Nat.le_of_lt t.isLt) := by
  dsimp only [poolDat]; simp only [Fin.coe_castSucc]

theorem poolAfter0 (c : Dev nD) (t : Fin cfg1.N) : (poolDat V c).after 0 t = poolBlk V c 0 t := by dsimp only [poolDat]
theorem poolAfter1 (c : Dev nD) (t : Fin cfg1.N) : (poolDat V c).after 1 t = poolBlk V c 1 t := by dsimp only [poolDat]
theorem poolAfter2 (c : Dev nD) (t : Fin cfg1.N) : (poolDat V c).after 2 t = poolBlk V c 2 t := by dsimp only [poolDat]
theorem poolAfter3 (c : Dev nD) (t : Fin cfg1.N) : (poolDat V c).after 3 t = poolBlk V c 3 t := by dsimp only [poolDat]
theorem poolAfter4 (c : Dev nD) (t : Fin cfg1.N) : (poolDat V c).after 4 t = poolBlk V c 4 t := by dsimp only [poolDat]
theorem poolAfter5 (c : Dev nD) (t : Fin cfg1.N) : (poolDat V c).after 5 t = poolBlk V c 5 t := by dsimp only [poolDat]
theorem poolAfter6 (c : Dev nD) (t : Fin cfg1.N) : (poolDat V c).after 6 t = poolBlk V c 6 t := by dsimp only [poolDat]
theorem poolAfter7 (c : Dev nD) (t : Fin cfg1.N) : (poolDat V c).after 7 t = poolBlk V c 7 t := by dsimp only [poolDat]
theorem poolAfter8 (c : Dev nD) (t : Fin cfg1.N) : (poolDat V c).after 8 t = poolHead V c t := by dsimp only [poolDat]

theorem poolBefore0 (c : Dev nD) (t : Fin cfg1.N) (d) : (poolDat V c).before 0 t d = poolBlk V c 0 t :=
  poolBefore0_of V (poolDat V c) (poolA_eq V c 0) (poolAfter0 V c) t d
theorem poolBefore1 (c : Dev nD) (t : Fin cfg1.N) (d) : (poolDat V c).before 1 t d = poolBlk V c 1 t :=
  poolBefore1_of V (poolDat V c) (poolA_eq V c 1) (poolAfter1 V c) t d
theorem poolBefore2 (c : Dev nD) (t : Fin cfg1.N) (d) : (poolDat V c).before 2 t d = poolBlk V c 2 t :=
  poolBefore2_of V (poolDat V c) (poolA_eq V c 2) (poolAfter2 V c) t d
theorem poolBefore3 (c : Dev nD) (t : Fin cfg1.N) (d) : (poolDat V c).before 3 t d = poolBlk V c 3 t :=
  poolBefore3_of V (poolDat V c) (poolA_eq V c 3) (poolAfter3 V c) t d
theorem poolBefore4 (c : Dev nD) (t : Fin cfg1.N) (d) : (poolDat V c).before 4 t d = poolBlk V c 4 t :=
  poolBefore4_of V (poolDat V c) (poolA_eq V c 4) (poolAfter4 V c) t d
theorem poolBefore5 (c : Dev nD) (t : Fin cfg1.N) (d) : (poolDat V c).before 5 t d = poolBlk V c 5 t :=
  poolBefore5_of V (poolDat V c) (poolA_eq V c 5) (poolAfter5 V c) t d
theorem poolBefore6 (c : Dev nD) (t : Fin cfg1.N) (d) : (poolDat V c).before 6 t d = poolBlk V c 6 t :=
  poolBefore6_of V (poolDat V c) (poolA_eq V c 6) (poolAfter6 V c) t d
theorem poolBefore7 (c : Dev nD) (t : Fin cfg1.N) (d) : (poolDat V c).before 7 t d = poolBlk V c 7 t :=
  poolBefore7_of V (poolDat V c) (poolA_eq V c 7) (poolAfter7 V c) t d

/-- An input window is never idle: after the body its buffer is owned at its block. -/
theorem poolLeaves0 (c : Dev nD) (t : Fin cfg1.N) :
    (poolDat V c).leavesExact 0 t = owns (c : Thread nD τ) (st1_0 t) fullShare (poolBlk V c 0 t) := by
  unfold Dat.leavesExact; rw [show cfg1.idle 0 (grid1.coords t) = false from rfl, poolAfter0]
theorem poolLeaves1 (c : Dev nD) (t : Fin cfg1.N) :
    (poolDat V c).leavesExact 1 t = owns (c : Thread nD τ) (st1_1 t) fullShare (poolBlk V c 1 t) := by
  unfold Dat.leavesExact; rw [show cfg1.idle 1 (grid1.coords t) = false from rfl, poolAfter1]
theorem poolLeaves2 (c : Dev nD) (t : Fin cfg1.N) :
    (poolDat V c).leavesExact 2 t = owns (c : Thread nD τ) (st1_2 t) fullShare (poolBlk V c 2 t) := by
  unfold Dat.leavesExact; rw [show cfg1.idle 2 (grid1.coords t) = false from rfl, poolAfter2]
theorem poolLeaves3 (c : Dev nD) (t : Fin cfg1.N) :
    (poolDat V c).leavesExact 3 t = owns (c : Thread nD τ) (st1_3 t) fullShare (poolBlk V c 3 t) := by
  unfold Dat.leavesExact; rw [show cfg1.idle 3 (grid1.coords t) = false from rfl, poolAfter3]
theorem poolLeaves4 (c : Dev nD) (t : Fin cfg1.N) :
    (poolDat V c).leavesExact 4 t = owns (c : Thread nD τ) (st1_4 t) fullShare (poolBlk V c 4 t) := by
  unfold Dat.leavesExact; rw [show cfg1.idle 4 (grid1.coords t) = false from rfl, poolAfter4]
theorem poolLeaves5 (c : Dev nD) (t : Fin cfg1.N) :
    (poolDat V c).leavesExact 5 t = owns (c : Thread nD τ) (st1_5 t) fullShare (poolBlk V c 5 t) := by
  unfold Dat.leavesExact; rw [show cfg1.idle 5 (grid1.coords t) = false from rfl, poolAfter5]
theorem poolLeaves6 (c : Dev nD) (t : Fin cfg1.N) :
    (poolDat V c).leavesExact 6 t = owns (c : Thread nD τ) (st1_6 t) fullShare (poolBlk V c 6 t) := by
  unfold Dat.leavesExact; rw [show cfg1.idle 6 (grid1.coords t) = false from rfl, poolAfter6]
theorem poolLeaves7 (c : Dev nD) (t : Fin cfg1.N) :
    (poolDat V c).leavesExact 7 t = owns (c : Thread nD τ) (st1_7 t) fullShare (poolBlk V c 7 t) := by
  unfold Dat.leavesExact; rw [show cfg1.idle 7 (grid1.coords t) = false from rfl, poolAfter7]

/-! ## The body obligation -/

/-- What the body is called with at point `t`, the windows one by one, -/
def poolPre (c : Dev nD) (t : Fin cfg1.N) : sProp 𝕄 :=
  iprop((poolDat V c).Φ t.castSucc ∗ (poolDat V c).owesAt () t.castSucc
    ∗ (∃ d, owns (c : Thread nD τ) (st1_0 t) fullShare ((poolDat V c).before 0 t d))
    ∗ (∃ d, owns (c : Thread nD τ) (st1_1 t) fullShare ((poolDat V c).before 1 t d))
    ∗ (∃ d, owns (c : Thread nD τ) (st1_2 t) fullShare ((poolDat V c).before 2 t d))
    ∗ (∃ d, owns (c : Thread nD τ) (st1_3 t) fullShare ((poolDat V c).before 3 t d))
    ∗ (∃ d, owns (c : Thread nD τ) (st1_4 t) fullShare ((poolDat V c).before 4 t d))
    ∗ (∃ d, owns (c : Thread nD τ) (st1_5 t) fullShare ((poolDat V c).before 5 t d))
    ∗ (∃ d, owns (c : Thread nD τ) (st1_6 t) fullShare ((poolDat V c).before 6 t d))
    ∗ (∃ d, owns (c : Thread nD τ) (st1_7 t) fullShare ((poolDat V c).before 7 t d))
    ∗ (∃ d, owns (c : Thread nD τ) (st1_8 t) fullShare ((poolDat V c).before 8 t d)))

/-- and what it returns. -/
def poolPost (c : Dev nD) (t : Fin cfg1.N) : sProp 𝕄 :=
  iprop((poolDat V c).Φ t.succ ∗ (poolDat V c).owesAt () t.succ
    ∗ (poolDat V c).leavesExact 0 t
    ∗ (poolDat V c).leavesExact 1 t
    ∗ (poolDat V c).leavesExact 2 t
    ∗ (poolDat V c).leavesExact 3 t
    ∗ (poolDat V c).leavesExact 4 t
    ∗ (poolDat V c).leavesExact 5 t
    ∗ (poolDat V c).leavesExact 6 t
    ∗ (poolDat V c).leavesExact 7 t
    ∗ (poolDat V c).leavesExact 8 t)

set_option maxHeartbeats 4000000 in
/-- The body at any point.  The inputs' buffers hold their blocks; the closed forms say which case the point is in.  At
    the first tile the invariant hands the body the accumulator at anything and takes it back at the first tile's
    contents, the output block zeroed; at a middle tile the accumulator comes at what the tile before left and goes back
    advanced, the output block's buffer handed back as found; at the last tile the accumulator likewise, and the output
    block's buffer at the head of the final accumulator.  The projection's staging buffers, the generator register and
    what the core owes pass through unread. -/
theorem poolSoundBody (c : Dev nD) (t : Fin cfg1.N) :
    poolPre V c t ⊢ wp frame (wpE (defs₀ (F := F)) Variants.none c none) Set.univ (bodyAt1 t) (fun _ => poolPost V c t) := by
  unfold poolPre poolPost bodyAt1
  simp only [poolBefore0, poolBefore1, poolBefore2, poolBefore3, poolBefore4, poolBefore5, poolBefore6, poolBefore7]
  rw [show (poolDat V c).owesAt () t.succ = (poolDat V c).owesAt () t.castSucc from rfl]
  rw [show (poolDat V c).Φ t.succ = poolInv V c (t.val + 1) t.isLt from rfl, poolInv_succ]
  rw [poolLeaves0, poolLeaves1, poolLeaves2, poolLeaves3, poolLeaves4, poolLeaves5, poolLeaves6, poolLeaves7]
  have hN : t.val < 4 := lt_of_lt_of_eq t.isLt (show cfg1.N = 4 from N_1)
  by_cases h0 : t.val % 4 = 0
  · -- the first tile
    have h3 : ¬t.val % 4 = 3 := by omega
    have hz : t.val = 0 := by omega
    rw [show (poolDat V c).leavesExact 8 t = owns (c : Thread nD τ) (st1_8 t) fullShare ((poolDat V c).after 8 t) from by
      unfold Dat.leavesExact; rw [poolOutLive_first t ((poolFirst_iff t).mpr h0) (fun h => h3 ((poolLast_iff t).mp h))], poolAfter8]
    unfold poolHead; rw [if_neg h3]
    rw [poolAcc_first V c t hz]
    rw [poolInv_castSucc V c t, poolInv_zero V c _ _ hz, poolPhiA_eq]
    unfold poolRest
    iintro ⟨⟨⟨Ha, Hb, Hc, Hd, He, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (poolSoundA c Set.univ _ _ _ _ _ _ _ _ _ _ _ _ _ _ _ _ _ _ _ _ _ ((poolFirst_iff t).mpr h0) (fun h => h3 ((poolLast_iff t).mp h)) (poolBlk V c 0 t) (poolBlk V c 1 t) (poolBlk V c 2 t) (poolBlk V c 3 t) (poolBlk V c 4 t) _)
    isplitl [H0]; · iexact H0
    isplitl [H1]; · iexact H1
    isplitl [H2]; · iexact H2
    isplitl [H3]; · iexact H3
    isplitl [H4]; · iexact H4
    isplitl [H8]; · iexists _; iexact H8
    isplitl [HS]; · iexact HS
    iintro ⟨H0, H1, H2, H3, H4, H8, HS⟩
    isplitl [Ha Hb Hc Hd He HS Hg]
    · isplitl [Ha Hb Hc Hd He HS]
      · isplitl [Ha]; · iexact Ha
        isplitl [Hb]; · iexact Hb
        isplitl [Hc]; · iexact Hc
        isplitl [Hd]; · iexact Hd
        isplitl [He]; · iexact He
        iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · have hz : t.val ≠ 0 := by omega
    by_cases h3 : t.val % 4 = 3
    · -- the last tile
      rw [show (poolDat V c).leavesExact 8 t = owns (c : Thread nD τ) (st1_8 t) fullShare ((poolDat V c).after 8 t) from by
        unfold Dat.leavesExact; rw [poolOutLive_last t (fun h => h0 ((poolFirst_iff t).mp h)) ((poolLast_iff t).mpr h3)], poolAfter8]
      unfold poolHead; rw [if_pos h3]
      rw [poolAcc_later V c t hz]
      rw [poolInv_castSucc V c t, poolInv_pos V c _ _ hz]
      unfold poolRest
      iintro ⟨⟨⟨Ha, Hb, Hc, Hd, He, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (poolSoundC c Set.univ _ _ _ _ _ _ _ _ _ _ _ _ _ _ _ _ _ _ _ _ _ (fun h => h0 ((poolFirst_iff t).mp h)) ((poolLast_iff t).mpr h3) (poolBlk V c 0 t) (poolBlk V c 1 t) (poolBlk V c 2 t) (poolBlk V c 3 t) (poolBlk V c 4 t) (poolBlk V c 5 t) (poolBlk V c 6 t) (poolBlk V c 7 t) (poolAcc V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS]; · iexact HS
      iintro ⟨H0, H1, H2, H3, H4, H5, H6, H7, H8, HS⟩
      isplitl [Ha Hb Hc Hd He HS Hg]
      · isplitl [Ha Hb Hc Hd He HS]
        · isplitl [Ha]; · iexact Ha
          isplitl [Hb]; · iexact Hb
          isplitl [Hc]; · iexact Hc
          isplitl [Hd]; · iexact Hd
          isplitl [He]; · iexact He
          iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · -- a middle tile
      rw [Dat.leavesExact_idle (poolDat V c) 8 t (poolOutIdle_mid t (fun h => h0 ((poolFirst_iff t).mp h)) (fun h => h3 ((poolLast_iff t).mp h))) (poolOutNoFlush_mid t (fun h => h0 ((poolFirst_iff t).mp h)) (fun h => h3 ((poolLast_iff t).mp h)))]
      rw [poolAcc_later V c t hz]
      rw [poolInv_castSucc V c t, poolInv_pos V c _ _ hz]
      unfold poolRest
      iintro ⟨⟨⟨Ha, Hb, Hc, Hd, He, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8⟩
      iapply (poolSoundB c Set.univ _ _ _ _ _ _ _ _ _ _ _ _ _ _ _ _ _ _ _ _ _ (fun h => h0 ((poolFirst_iff t).mp h)) (fun h => h3 ((poolLast_iff t).mp h)) (poolBlk V c 0 t) (poolBlk V c 1 t) (poolBlk V c 2 t) (poolBlk V c 3 t) (poolBlk V c 4 t) (poolAcc V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [Ha Hb Hc Hd He HS Hg]
      · isplitl [Ha Hb Hc Hd He HS]
        · isplitl [Ha]; · iexact Ha
          isplitl [Hb]; · iexact Hb
          isplitl [Hc]; · iexact Hc
          isplitl [Hd]; · iexact Hd
          isplitl [He]; · iexact He
          iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8

/-- The library's body obligation, at every point. -/
theorem poolObligation (c : Dev nD) : BodyObligation (poolDat (F := F) V c) (defs₀ (F := F)) Variants.none () Set.univ := fun t => by
  rw [bigSep_W1, bigSep_W1]
  exact poolSoundBody V c t

/-! ## The invariant at the region's two ends -/

/-- What the launch hands the region is the invariant before the first point. -/
theorem poolIn (c : Dev nD) : Pipeline.ΦA spec1 c ⊢ (poolDat V c).Φ 0 := by
  rw [show (poolDat V c).Φ 0 = poolInv V c 0 (Nat.zero_le _) from rfl, poolInv_zero V c 0 _ rfl]
  try exact Idealize.SL.BI.Entails.refl _

/-- After any point the invariant gives the launch's back: the accumulator's named contents are forgotten. -/
theorem poolInv_out (c : Dev nD) (t : Fin (cfg1.N + 1)) (ht : t.val ≠ 0) : (poolDat V c).Φ t ⊢ Pipeline.ΦA spec1 c := by
  rw [show (poolDat V c).Φ t = poolInv V c t.val (Nat.le_of_lt_succ t.isLt) from rfl, poolInv_pos V c _ _ ht, poolPhiA_eq]
  unfold poolRest
  iintro ⟨⟨Ha, Hb, Hc, Hd, He, HS⟩, Hg⟩
  isplitl [Ha Hb Hc Hd He HS]
  · isplitl [Ha]; · iexact Ha
    isplitl [Hb]; · iexact Hb
    isplitl [Hc]; · iexact Hc
    isplitl [Hd]; · iexact Hd
    isplitl [He]; · iexact He
    iexists _; iexact HS
  iexact Hg

/-- The same after the last point. -/
theorem poolOut (c : Dev nD) : (poolDat V c).Φ (Fin.last cfg1.N) ⊢ Pipeline.ΦA spec1 c :=
  poolInv_out V c _ (by rw [Fin.val_last]; have : cfg1.N = 4 := N_1; omega)

/-! ## The output block at the last point -/

/-- At the last point the body leaves the head of the final accumulator in the output block's buffer. -/
theorem poolAfter8_last (c : Dev nD) :
    (poolDat V c).after 8 t1_3 = k1_pay1 (poolAcc V c 3 (by rw [show cfg1.N = 4 from N_1]; decide)) (poolBlk V c 5 t1_3) (poolBlk V c 6 t1_3) (poolBlk V c 7 t1_3) := by
  rw [poolAfter8]; unfold poolHead; rw [if_pos (show t1_3.val % 4 = 3 from rfl)]; rfl

end Cert.KernelIdeal.Fr

end
-- ==== Proof.IMain.lean ====
/-
  The kernel program's run, whole: @main is a stretch of host operations, the projection's region, a second stretch,
  the pooling region, and one closing reshape.  What every unscoped buffer holds at each of the six boundaries is a fold
  from the launch memory (`W0 … W5`): a host stretch applies its operations, a region leaves its output array at what
  its write-backs assemble and every other buffer as entered.  Each region is a segment over the thread state "every
  unscoped buffer at the boundary's contents, the generator register at some state, nothing owed"; the launch theorem
  for a list of segments then says that every weakly fair execution terminates with every unscoped buffer at `W5`.
  The argument arrays are written by nothing, so they end as launched.
-/
import proofs.«414209_j12506944766171_3_alg».proof.Proof.Gen.KernelIdeal.Launch
import proofs.«414209_j12506944766171_3_alg».proof.Proof.Gen.KernelIdeal.Skeleton
import proofs.«414209_j12506944766171_3_alg».proof.Proof.Gen.KernelIdeal.Points
import proofs.«414209_j12506944766171_3_alg».proof.Proof.Gen.KernelIdeal.Regions
import proofs.«414209_j12506944766171_3_alg».proof.Proof.IProj
import proofs.«414209_j12506944766171_3_alg».proof.Proof.IPool
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows: the elaborator's structural look recurses once per coordinate
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 (c : Dev nD) : Valuation τ sig (Elt F) := fun b => m (c, b)
/-- After the first host stretch: the projection's entry. -/
abbrev W1 (c : Dev nD) : Valuation τ sig (Elt F) := StableHlo.after hostOps0 (W0 m c)
/-- The same read at the TensorCore's references. -/
abbrev E1 : (c : Dev nD) → (b : Ref sig .tc) → Buf (Elt F) ((c : Thread nD τ).loc b) := fun c b => W1 m c b
/-- At the projection's exit: its arrays at what the pipeline leaves, every other buffer as entered. -/
def W2 (c : Dev nD) : Valuation τ sig (Elt F) :=
  Pipeline.withArrays spec0 c (W1 m c) fun w => (projDat (E1 m) c).arrAt w cfg0.N
theorem W2_arr (c : Dev nD) (w : Fin cfg0.W) :
    W2 m c (Proc.devRef .tc (Pipeline.arrRef spec0 w)) = (projDat (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev X2 : (c : Dev nD) → (b : Ref sig .tc) → Buf (Elt F) ((c : Thread nD τ).loc b) := fun c b => W2 m c b
theorem projExitArr (c : Dev nD) (w : Fin cfg0.W) : (projDat (E1 m) c).arrAt w cfg0.N = X2 m c (Pipeline.arrRef spec0 w) :=
  (W2_arr m c w).symm
theorem projExitRest (c : Dev nD) : ∀ b, b ∉ Finset.univ.image (Pipeline.arrRef spec0) → X2 m c b = E1 m c b :=
  fun b hb => W2_of_ne m c b fun w e => hb (Finset.mem_image.mpr ⟨w, Finset.mem_univ _, e⟩)

/-- After the second host stretch: the pooling region's entry. -/
abbrev W3 (c : Dev nD) : Valuation τ sig (Elt F) := StableHlo.after hostOps1 (W2 m c)
abbrev E3 : (c : Dev nD) → (b : Ref sig .tc) → Buf (Elt F) ((c : Thread nD τ).loc b) := fun c b => W3 m c b
/-- At the pooling region's exit. -/
def W4 (c : Dev nD) : Valuation τ sig (Elt F) :=
  Pipeline.withArrays spec1 c (W3 m c) fun w => (poolDat (E3 m) c).arrAt w cfg1.N
theorem W4_arr (c : Dev nD) (w : Fin cfg1.W) :
    W4 m c (Proc.devRef .tc (Pipeline.arrRef spec1 w)) = (poolDat (E3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev X4 : (c : Dev nD) → (b : Ref sig .tc) → Buf (Elt F) ((c : Thread nD τ).loc b) := fun c b => W4 m c b
theorem poolExitArr (c : Dev nD) (w : Fin cfg1.W) : (poolDat (E3 m) c).arrAt w cfg1.N = X4 m c (Pipeline.arrRef spec1 w) :=
  (W4_arr m c w).symm
theorem poolExitRest (c : Dev nD) : ∀ b, b ∉ Finset.univ.image (Pipeline.arrRef spec1) → X4 m c b = E3 m c b :=
  fun b hb => W4_of_ne m c b fun w e => hb (Finset.mem_image.mpr ⟨w, Finset.mem_univ _, e⟩)

/-- After the closing reshape: what the program ends with. -/
abbrev W5 (c : Dev nD) : Valuation τ sig (Elt F) := StableHlo.after hostOps2 (W4 m c)

/-! ## Nothing writes an argument -/

theorem W1_of (c : Dev nD) (r : Ref sig .tc) (h : r ∉ hostOps0_W) : W1 m c r = W0 m c r :=
  StableHlo.after_of_writes_sub hostOps0 _ hostOps0_writes h
theorem W3_of (c : Dev nD) (r : Ref sig .tc) (h : r ∉ hostOps1_W) : W3 m c r = W2 m c r :=
  StableHlo.after_of_writes_sub hostOps1 _ hostOps1_writes h
theorem W5_of (c : Dev nD) (r : Ref sig .tc) (h : r ∉ hostOps2_W) : W5 m c r = W4 m c r :=
  StableHlo.after_of_writes_sub hostOps2 _ hostOps2_writes h

/-- In the projection's region every window but the one onto the product array is an input window. -/
theorem projInputs : ∀ w : Fin 3, Pipeline.arrRef spec0 w ≠ main_v12 → (cfg0.win w).isOut = false := by decide
/-- In the pooling region every window but the one onto the result array is an input window. -/
theorem poolInputs : ∀ w : Fin 9, Pipeline.arrRef spec1 w ≠ main_v51 → (cfg1.win w).isOut = false := by decide

/-- A buffer that no host stretch writes and that is neither region's OUTPUT array ends as launched: an input array of a
    region is handed back as entered. -/
theorem W5_kept (c : Dev nD) (r : Ref sig .tc) (h0 : r ∉ hostOps0_W) (h1 : r ∉ hostOps1_W) (h2 : r ∉ hostOps2_W)
    (hp : r ≠ main_v12) (hq : r ≠ main_v51) : W5 m c r = m ((c : Thread nD τ).loc r) := by
  have e4 : W4 m c r = W3 m c r := by
    by_cases hw : ∃ w, Pipeline.arrRef spec1 w = r
    · obtain ⟨w, rfl⟩ := hw
      have hin : (cfg1.win w).isOut = false := poolInputs w hq
      exact (W4_arr m c w).trans (((poolDat (E3 m) c).arrAt_in w hin _).trans (poolA_eq (E3 m) c w))
    · exact W4_of_ne m c r fun w e => hw ⟨w, e⟩
  have e2 : W2 m c r = W1 m c r := by
    by_cases hw : ∃ w, Pipeline.arrRef spec0 w = r
    · obtain ⟨w, rfl⟩ := hw
      have hin : (cfg0.win w).isOut = false := projInputs w hp
      exact (W2_arr m c w).trans (((projDat (E1 m) c).arrAt_in w hin _).trans (projA_eq (E1 m) c w))
    · exact W2_of_ne m c r fun w e => hw ⟨w, e⟩
  exact (W5_of m c r h2).trans (e4.trans ((W3_of m c r h1).trans (e2.trans ((W1_of m c r h0).trans rfl))))

theorem W5_main_arg0 (c : Dev nD) : W5 m c main_arg0 = m ((c : Thread nD τ).loc main_arg0) :=
  W5_kept m c main_arg0 (by decide) (by decide) (by decide) (by decide) (by decide)
theorem W5_main_arg1 (c : Dev nD) : W5 m c main_arg1 = m ((c : Thread nD τ).loc main_arg1) :=
  W5_kept m c main_arg1 (by decide) (by decide) (by decide) (by decide) (by decide)
theorem W5_main_arg2 (c : Dev nD) : W5 m c main_arg2 = m ((c : Thread nD τ).loc main_arg2) :=
  W5_kept m c main_arg2 (by decide) (by decide) (by decide) (by decide) (by decide)
theorem W5_main_arg3 (c : Dev nD) : W5 m c main_arg3 = m ((c : Thread nD τ).loc main_arg3) :=
  W5_kept m c main_arg3 (by decide) (by decide) (by decide) (by decide) (by decide)
theorem W5_main_arg4 (c : Dev nD) : W5 m c main_arg4 = m ((c : Thread nD τ).loc main_arg4) :=
  W5_kept m c main_arg4 (by decide) (by decide) (by decide) (by decide) (by decide)
theorem W5_main_arg5 (c : Dev nD) : W5 m c main_arg5 = m ((c : Thread nD τ).loc main_arg5) :=
  W5_kept m c main_arg5 (by decide) (by decide) (by decide) (by decide) (by decide)
theorem W5_main_arg6 (c : Dev nD) : W5 m c main_arg6 = m ((c : Thread nD τ).loc main_arg6) :=
  W5_kept m c main_arg6 (by decide) (by decide) (by decide) (by decide) (by decide)

/-! ## The proof data family and the thread state -/

/-- No pipeline has a prefetched table. -/
abbrev padm : (p : Fin 2) → (pcfgs (F := F) p).Adm := fun p => (cfgs p).toPCfg_adm
/-- Each pipeline's proof data at its region's entry contents: a literal match on the pipeline. -/
def pd : (p : Fin 2) → (c : Dev nD) → Dat τ (Elt F) Unit ℕ (UR sig nD τ) ℕ (Pipeline.pin (pcfgs (F := F)) padm p) c
  | ⟨0, _⟩ => fun c => projDat (E1 m) c
  | ⟨1, _⟩ => fun c => poolDat (E3 m) c
abbrev 𝒱ₙ : Variants := Variants.none
/-- No core owes another anything. -/
abbrev Lₙ : GSem nD τ sig → Finset Unit := fun _ => ∅
abbrev lvₙ : GSem nD τ sig → Unit → ℕ := fun _ _ => 0
/-- What rides beside the buffers through every segment: the generator register at some state, and nothing owed. -/
abbrev Rest (c : Dev nD) : sProp 𝕄 := iprop((∃ r, prngReg c r) ∗ ∃ W, owes (c : Thread nD τ) (0 : CellTallies nD τ sig Unit) W)
/-- A host stretch as a segment from the contents `W`, the rest riding along. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱ₙ Lₙ lvₙ :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at `W5`, the generator register at some state. -/
abbrev Tend (c : Dev nD) : sProp 𝕄 := iprop(StableHlo.held (c : Thread nD τ) (Pipeline.ucRefs τ sig) (W5 m c) ∗ ∃ r, prngReg c r)

/-! ## The regions as segments -/

set_option backward.isDefEq.respectTransparency.types false in
/-- The projection's region: entered from every unscoped buffer at `W1`, left at `W2`.  Its arrays are split out of the
    unscoped buffers and put back at the exit contents; the generator register goes into the invariant and comes out. -/
def regProj : Pipeline.RegionSeg (pcfgs (F := F)) padm (pd m) () defs₀ 𝒱ₙ Lₙ lvₙ 0 where
  win := launch0.win.to₀
  block_pos := launch0.block_pos
  stage_whole := launch0.stage_whole
  K := PEmpty
  osem k := k.elim
  ho := Pipeline.OwnSemFacts.none _
  hbody c := (projObligation (E1 m) c).loose
  hwaits := Pipeline.hwaits_of_owed_zero _ _ _ _ Lₙ lvₙ 0 fun _ _ => rfl
  pre c := iprop(StableHlo.held (c : Thread nD τ) (Pipeline.ucRefs τ sig) (W1 m c) ∗ Rest c)
  post c := iprop(StableHlo.held (c : Thread nD τ) (Pipeline.ucRefs τ sig) (W2 m c) ∗ Rest c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) padm (pd m) launch0.win launch0.arr_whole c
      ((pd m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m 0 c).Φ 0 = Pipeline.ΦA spec0 c from rfl]; unfold Pipeline.ΦA
    iintro ⟨Hp, -, Hr⟩
    isplitl [Hr]; · iexact Hr
    iexact Hp
  hout c := by
    rw [Pipeline.ownSems0_none, show (pd m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) padm (Ix := Unit) (Name := ℕ) (U := UR sig nD τ) (Lvl := ℕ)
      launch0.win launch0.arr_whole c (pd m) ((pd m 0 c).share_full fun _ => rfl)
      (E1 m c) (X2 m c) ((pd m 0 c).arrAt · cfg0.N) (projExitArr m c) (projExitRest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The pooling region: entered from every unscoped buffer at `W3`, left at `W4`.  Its invariant takes the scoped rest and
    the generator register in at the first tile and gives them back after the last, the accumulator's contents forgotten. -/
def regPool : Pipeline.RegionSeg (pcfgs (F := F)) padm (pd m) () defs₀ 𝒱ₙ Lₙ lvₙ 1 where
  win := launch1.win.to₀
  block_pos := launch1.block_pos
  stage_whole := launch1.stage_whole
  K := PEmpty
  osem k := k.elim
  ho := Pipeline.OwnSemFacts.none _
  hbody c := (poolObligation (E3 m) c).loose
  hwaits := Pipeline.hwaits_of_owed_zero _ _ _ _ Lₙ lvₙ 1 fun _ _ => rfl
  pre c := iprop(StableHlo.held (c : Thread nD τ) (Pipeline.ucRefs τ sig) (W3 m c) ∗ Rest c)
  post c := iprop(StableHlo.held (c : Thread nD τ) (Pipeline.ucRefs τ sig) (W4 m c) ∗ Rest c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) padm (pd m) launch1.win launch1.arr_whole c
      ((pd m 1 c).share_full fun _ => rfl) (E3 m c) fun w => poolA_eq (E3 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have hΦ : Pipeline.ΦA spec1 c ⊢ (pd m 1 c).Φ 0 := poolIn (E3 m) c
    iintro ⟨Hp, -, Hr⟩
    iapply hΦ
    unfold Pipeline.ΦA
    isplitl [Hr]; · iexact Hr
    iexact Hp
  hout c := by
    rw [Pipeline.ownSems0_none]
    have hΦ : (pd m 1 c).Φ (Fin.last _) ⊢ Pipeline.ΦA spec1 c := poolOut (E3 m) c
    iintro H
    ihave H' := hΦ $$ H
    unfold Pipeline.ΦA
    icases H' with ⟨Hr, Hp⟩
    isplitl [Hp]; · iexact Hp
    isplitr; · iempintro
    iexact Hr
  hexit c := by
    have hjoin := Pipeline.unscopedBufs_of_arrays (p := 1) (pcfgs (F := F)) padm (Ix := Unit) (Name := ℕ) (U := UR sig nD τ) (Lvl := ℕ)
      launch1.win launch1.arr_whole c (pd m) ((pd m 1 c).share_full fun _ => rfl)
      (E3 m c) (X4 m c) ((pd m 1 c).arrAt · cfg1.N) (poolExitArr m c) (poolExitRest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's five segments in order. -/
abbrev mainSegs : List (Pipeline.Seg (pcfgs (F := F)) padm (pd m) () defs₀ 𝒱ₙ Lₙ lvₙ) :=
  [ .host (hostSeg hostOps0 hostOps0_sub hostOps0_fresh (W0 m)),
    .region (regProj m),
    .host (hostSeg hostOps1 hostOps1_sub hostOps1_fresh (W2 m)),
    .region (regPool m),
    .host (hostSeg hostOps2 hostOps2_sub hostOps2_fresh (W4 m)) ]

/-- @main is the run of the segments. -/
theorem mainRun (c : Dev nD) : main (F := F) c = Pipeline.Seg.run (mainSegs m) := (main_chain c).trans (by chain_rfl)

set_option backward.isDefEq.respectTransparency.types false in
/-- THE RUN.  At the compiled mesh, from any memory with zero counters, every weakly fair execution of @main terminates,
    nothing faulting, and every final memory holds every unscoped buffer at `W5`. -/
theorem runAll : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) padm (pd m) () cellOf_inj emb₁ defs₀ 𝒱ₙ Lₙ lvₙ m ρ main (mainSegs m)
    (fun c Q => by rw [mainRun m c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rest c)) (Tₙ := Tend m)
    (hch := ⟨fun _ => .rfl, fun _ => .rfl, fun _ => .rfl, fun _ => .rfl, fun _ => .rfl, fun c => show (iprop(StableHlo.held (c : Thread nD τ) (Pipeline.ucRefs τ sig) (W5 m c) ∗ Rest c) : sProp 𝕄)
          ⊢ iprop(Tend m c ∗ ∃ W, owes (c : Thread nD τ) (0 : CellTallies nD τ sig Unit) W) from by
      iintro ⟨Hh, Hp, Ho⟩
      isplitl [Hh Hp]
      · isplitl [Hh]; · iexact Hh
        iexact Hp
      iexact Ho⟩)
    (hinit := by
      refine Pipeline.initEach Lₙ lvₙ fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c),
     (h c _ (mem_uc main_arg5 (by decide))).trans (W5_main_arg5 m c),
     (h c _ (mem_uc main_arg6 (by decide))).trans (W5_main_arg6 m c)⟩) (runAll m ρ)

end Cert.KernelIdeal.Fr

end
-- ==== Proof.LibScatter.lean ====
/-
  Host scatter-add, gather and concatenation read at an index, and two reindexings of a finite sum.

  A float scatter with an `add` body is, over the extended reals, each operand element plus the sum of the
  updates whose start index, read as a signed integer and not clamped, is that element's row; an update whose
  index falls outside the operand contributes nothing.  A gather reads the row its start index names, read
  signed and clamped into the table.  These are stated for the two shapes a segment sum and a row lookup
  print: a vector of scalars, and a matrix whose rows are scattered or gathered whole.
-/
import Idealize.ShloMosaic.PureOps.Ideal
import Idealize.ShloMosaic.PureOps.Ideal.Laws
import Idealize.ShloMosaic.PureOps.Contract
import Idealize.ShloMosaic.Lib.ValueIdx
import Idealize.ShloMosaic.Lib.Pipeline.Value
import Idealize.ShloMosaic.Lib.StableHlo.Predicate

noncomputable section

namespace Cert.LibScatter

open Idealize.ShloMosaic Idealize.ShloMosaic.ValueIdx Idealize.ShloMosaic.StableHlo.Predicate

/-- A start index names row `i`: read as a signed integer, not clamped. -/
def Lands {n : Nat} (v : BitVec 32) (i : Fin n) : Prop := v.toInt = (i.val : Int)

instance {n : Nat} (v : BitVec 32) (i : Fin n) : Decidable (Lands v i) := by unfold Lands; infer_instance

/-- The row a gather reads for a start index: read signed and clamped into a table of `N` rows. -/
def row (N : Nat) (hN : 0 < N) (v : BitVec 32) : Fin N := ⟨min v.toInt.toNat (N - 1), by omega⟩

/-! ## Small facts about axis lists -/
/-- Every entry of a one-element list is that element. -/
private theorem getElem_of_eq_singleton {β : Type} {l : List β} {b : β} (h : l = [b]) (k : Nat) (hk : k < l.length) :
    l[k] = b := by
  subst h
  have hk0 : k = 0 := by simpa using hk
  subst hk0
  rfl

/-- A position in a one-element list is position 0. -/
private theorem idx_of_eq_singleton {β : Type} {l : List β} {b : β} (h : l = [b]) (k : Nat) (hk : k < l.length) : k = 0 := by
  subst h; simpa using hk

/-- An axis a shape keeps after dropping the axes `L` is not in `L`. -/
private theorem not_mem_of_mem_kept {s : Shape} {L : List (Fin s.rank)} {a : Fin s.rank} (h : a ∈ s.kept L) : a ∉ L := by
  have := (List.mem_filter.1 h).2
  simpa using this

/-- An axis of a rank-2 shape is axis 0 or axis 1. -/
private theorem fin2_cases (a : Fin 2) : a = 0 ∨ a = 1 := by omega

/-- The axes a shape keeps after dropping the axes `L` are exactly those not in `L`. -/
private theorem mem_kept_iff {s : Shape} {L : List (Fin s.rank)} {a : Fin s.rank} : a ∈ s.kept L ↔ a ∉ L := by
  simp [Shape.kept, List.mem_filter, List.mem_finRange]

/-- The rank-1 index at coordinate `k`, in the form the library's rank-1 lookup is stated for. -/
private theorem ix1_eq_ofFin {n : Nat} (k : Fin n) : ix1 k = Shape.Idx.ofFin k := Shape.Idx.eq_ofFin (ix1 k)

/-! ## Where an update lands -/

/-- An update lands at operand index `i` exactly when, on every operand axis, its start index (read signed) plus
    its window coordinate is `i`'s coordinate: the range test a scatter makes is then met by itself. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro h
    split at h
    · rename_i hall
      intro a
      have hv := congrArg Fin.val (congrFun (Option.some.inj h) a)
      simp only at hv
      have := hall a
      omega
    · cases h
  · intro h
    have hall : ∀ a, 0 ≤ d.start j idx a + (d.window j a : Int) ∧ d.start j idx a + (d.window j a : Int) < s.size a :=
      fun a => by
        rw [h a]
        exact ⟨Int.natCast_nonneg _, Int.ofNat_lt.mpr (i a).isLt⟩
    rw [dif_pos hall]
    congr 1
    funext a
    apply Fin.ext
    simp only
    rw [h a]
    exact Int.toNat_natCast _

section Vec
variable {N P : Nat} (d : ScatterDims ⟨1, ![N]⟩ ⟨2, ![P, 1]⟩ ⟨1, ![P]⟩)
  (huw : d.updateWindowDims = []) (hiw : d.insertedWindowDims = [0])
  (hsd : d.scatterDimsToOperandDims = [0]) (hivd : d.indexVectorDim = 1)
include huw hiw hsd hivd

/-- Update `e` of a vector scatter reads its start index at row `e` of the index column. -/
private theorem vec_start (idx : IVec ⟨2, ![P, 1]⟩ 32) (e : Fin P) (a : Fin 1) :
    d.start (ix1 e) idx a = (idx (ixP e)).toInt := by
  obtain rfl : a = 0 := Subsingleton.elim _ _
  have hm : (0 : Fin 1) ∈ d.scatterDimsToOperandDims := by rw [hsd]; exact List.mem_singleton.mpr rfl
  unfold ScatterDims.start
  rw [dif_pos hm]
  congr 2
  funext b
  apply Fin.ext
  rcases fin2_cases b with rfl | rfl
  · unfold ScatterDims.siIdx
    rw [dif_neg (by rw [hivd]; exact Nat.zero_ne_one)]
    unfold ScatterDims.siCoord
    simp only [Fin.val_cast]
    have h1 : ∀ X : Fin 1, ((ix1 e) X).val = e.val := fun X => by
      obtain rfl : X = 0 := Subsingleton.elim _ _
      rfl
    exact h1 _
  · unfold ScatterDims.siIdx
    rw [dif_pos (by rw [hivd]; rfl)]
    exact idx_of_eq_singleton hsd _ (List.idxOf_lt_length_iff.2 hm)

/-- A vector scatter has no window: the one operand axis is an inserted one. -/
private theorem vec_window (e : Fin P) (a : Fin 1) : d.window (ix1 e) a = 0 := by
  obtain rfl : a = 0 := Subsingleton.elim _ _
  unfold ScatterDims.window
  rw [dif_neg fun h => not_mem_of_mem_kept h (by rw [hiw]; exact List.mem_singleton.mpr rfl)]

/-- Update `e` of a vector scatter lands at element `i` exactly when its start index names `i`. -/
theorem vec_lands (idx : IVec ⟨2, ![P, 1]⟩ 32) (e : Fin P) (i : Fin N) :
    d.resultIdx? (ix1 e) idx = some (ix1 i) ↔ Lands (idx (ixP e)) i := by
  rw [resultIdx?_eq_some_iff]
  constructor
  · intro h
    have h0 := h 0
    rw [vec_start d huw hiw hsd hivd, vec_window d huw hiw hsd hivd, Nat.cast_zero, add_zero] at h0
    exact h0
  · intro h a
    obtain rfl : a = 0 := Subsingleton.elim _ _
    rw [vec_start d huw hiw hsd hivd, vec_window d huw hiw hsd hivd, Nat.cast_zero, add_zero]
    exact h

end Vec

section Rows
variable {N P C : Nat} (d : ScatterDims ⟨2, ![N, C]⟩ ⟨2, ![P, 1]⟩ ⟨2, ![P, C]⟩)
  (huw : d.updateWindowDims = [1]) (hiw : d.insertedWindowDims = [0])
  (hsd : d.scatterDimsToOperandDims = [0]) (hivd : d.indexVectorDim = 1)
include huw hiw hsd hivd

/-- On the row axis, update `(e, q')` of a row scatter reads its start index at row `e` of the index column. -/
private theorem rows_start0 (idx : IVec ⟨2, ![P, 1]⟩ 32) (e : Fin P) (q' : Fin C) :
    d.start (ix2 e q') idx (0 : Fin 2) = (idx (ixP e)).toInt := by
  have hm : (0 : Fin 2) ∈ d.scatterDimsToOperandDims := by rw [hsd]; exact List.mem_singleton.mpr rfl
  -- the updates' scatter axes are those that are not the window axis 1: only axis 0
  have hX : ∀ X ∈ d.uScatter, X = 0 := fun X hX => by
    have hn := not_mem_of_mem_kept hX
    rw [huw] at hn
    rcases fin2_cases X with h | h
    · exact h
    · exact absurd (h ▸ List.mem_singleton.mpr rfl) hn
  unfold ScatterDims.start
  rw [dif_pos hm]
  congr 2
  funext b
  apply Fin.ext
  rcases fin2_cases b with rfl | rfl
  · unfold ScatterDims.siIdx
    rw [dif_neg (by rw [hivd]; exact Nat.zero_ne_one)]
    unfold ScatterDims.siCoord
    simp only [Fin.val_cast]
    rw [hX _ (List.getElem_mem _)]
    rfl
  · unfold ScatterDims.siIdx
    rw [dif_pos (by rw [hivd]; rfl)]
    exact idx_of_eq_singleton hsd _ (List.idxOf_lt_length_iff.2 hm)

/-- The column axis has no start index: the map names the row axis only. -/
private theorem rows_start1 (idx : IVec ⟨2, ![P, 1]⟩ 32) (j : (⟨2, ![P, C]⟩ : Shape).Idx) : d.start j idx (1 : Fin 2) = 0 := by
  unfold ScatterDims.start
  rw [dif_neg (by rw [hsd]; simp)]

/-- The row axis is an inserted one: no window coordinate. -/
private theorem rows_window0 (j : (⟨2, ![P, C]⟩ : Shape).Idx) : d.window j (0 : Fin 2) = 0 := by
  unfold ScatterDims.window
  rw [dif_neg fun h => not_mem_of_mem_kept h (by rw [hiw]; exact List.mem_singleton.mpr rfl)]

/-- The column axis takes the update's column as its window coordinate. -/
private theorem rows_window1 (j : (⟨2, ![P, C]⟩ : Shape).Idx) : d.window j (1 : Fin 2) = (j 1).val := by
  have hk : (1 : Fin 2) ∈ d.sKept := mem_kept_iff.2 (by rw [hiw]; simp)
  unfold ScatterDims.window
  rw [dif_pos hk, getElem_of_eq_singleton huw]

/-- Update `(e, q')` of a row scatter lands at `(i, q)` exactly when its start index names row `i` and its
    column is `q`. -/
theorem rows_lands (idx : IVec ⟨2, ![P, 1]⟩ 32) (e : Fin P) (q' : Fin C) (i : Fin N) (q : Fin C) :
    d.resultIdx? (ix2 e q') idx = some (ix2 i q) ↔ Lands (idx (ixP e)) i ∧ q' = q := by
  rw [resultIdx?_eq_some_iff]
  constructor
  · intro h
    have h0 := h (0 : Fin 2)
    have h1 := h (1 : Fin 2)
    rw [rows_start0 d huw hiw hsd hivd, rows_window0 d huw hiw hsd hivd, Nat.cast_zero, add_zero] at h0
    rw [rows_start1 d huw hiw hsd hivd, rows_window1 d huw hiw hsd hivd, zero_add] at h1
    exact ⟨h0, Fin.ext (Int.ofNat_inj.1 h1)⟩
  · rintro ⟨h, rfl⟩ a
    rcases fin2_cases a with rfl | rfl
    · rw [rows_start0 d huw hiw hsd hivd, rows_window0 d huw hiw hsd hivd, Nat.cast_zero, add_zero]
      exact h
    · rw [rows_start1 d huw hiw hsd hivd, rows_window1 d huw hiw hsd hivd, zero_add]
      rfl

end Rows

/-! ## The operations read at an index -/

/-- A scatter-add of `P` scalars into a vector of `N`: element `i` gains the updates whose index names it. -/
theorem scatterAdd_vec_apply {N P : Nat} (d : ScatterDims ⟨1, ![N]⟩ ⟨2, ![P, 1]⟩ ⟨1, ![P]⟩)
    (huw : d.updateWindowDims = []) (hiw : d.insertedWindowDims = [0])
    (hsd : d.scatterDimsToOperandDims = [0]) (hivd : d.indexVectorDim = 1)
    (x : (⟨1, ![N]⟩ : Shape).Idx → EReal) (idx : IVec ⟨2, ![P, 1]⟩ 32) (upd : (⟨1, ![P]⟩ : Shape).Idx → EReal) (i : Fin N) :
    Host.scatterAdd (F := Ideal) (φ := .f32) d x idx upd (ix1 i)
      = x (ix1 i) + ∑ e ∈ Finset.univ.filter (fun e : Fin P => Lands (idx (ixP e)) i), upd (ix1 e) := by
  unfold Host.scatterAdd
  rw [Ideal.hostScatterAdd_def]
  unfold Ideal.hostScatterAdd
  congr 1
  refine Finset.sum_nbij' (fun j => (j 0 : Fin P)) (fun e => ix1 e) ?_ ?_ ?_ ?_ ?_
  · intro j hj
    have h := (Finset.mem_filter.1 hj).2
    rw [eq_ix1 j] at h
    exact Finset.mem_filter.2 ⟨Finset.mem_univ _, (vec_lands d huw hiw hsd hivd idx (j 0) i).1 h⟩
  · intro e he
    exact Finset.mem_filter.2 ⟨Finset.mem_univ _, (vec_lands d huw hiw hsd hivd idx e i).2 (Finset.mem_filter.1 he).2⟩
  · intro j _
    exact (eq_ix1 j).symm
  · intro e _
    rfl
  · intro j _
    exact congrArg upd (eq_ix1 j)

/-- A scatter-add of `P` rows of width `C` into a matrix of `N` rows: row `i` gains, column by column, the
    update rows whose index names it. -/
theorem scatterAdd_rows_apply {N P C : Nat} (d : ScatterDims ⟨2, ![N, C]⟩ ⟨2, ![P, 1]⟩ ⟨2, ![P, C]⟩)
    (huw : d.updateWindowDims = [1]) (hiw : d.insertedWindowDims = [0])
    (hsd : d.scatterDimsToOperandDims = [0]) (hivd : d.indexVectorDim = 1)
    (x : (⟨2, ![N, C]⟩ : Shape).Idx → EReal) (idx : IVec ⟨2, ![P, 1]⟩ 32) (upd : (⟨2, ![P, C]⟩ : Shape).Idx → EReal)
    (i : Fin N) (q : Fin C) :
    Host.scatterAdd (F := Ideal) (φ := .f32) d x idx upd (ix2 i q)
      = x (ix2 i q) + ∑ e ∈ Finset.univ.filter (fun e : Fin P => Lands (idx (ixP e)) i), upd (ix2 e q) := by
  unfold Host.scatterAdd
  rw [Ideal.hostScatterAdd_def]
  unfold Ideal.hostScatterAdd
  congr 1
  -- an update that lands at `(i, q)` is in column `q`: it is its row `e` alone that varies
  have hland : ∀ j : (⟨2, ![P, C]⟩ : Shape).Idx, d.resultIdx? j idx = some (ix2 i q) →
      Lands (idx (ixP (j 0))) i ∧ j = ix2 (j 0) q := fun j h => by
    rw [eq_ix2 j] at h
    have hl := (rows_lands d huw hiw hsd hivd idx (j 0) (j 1) i q).1 h
    exact ⟨hl.1, (eq_ix2 j).trans (congrArg (ix2 (j 0)) hl.2)⟩
  refine Finset.sum_nbij' (fun j => (j 0 : Fin P)) (fun e => ix2 e q) ?_ ?_ ?_ ?_ ?_
  · intro j hj
    exact Finset.mem_filter.2 ⟨Finset.mem_univ _, (hland j (Finset.mem_filter.1 hj).2).1⟩
  · intro e he
    exact Finset.mem_filter.2
      ⟨Finset.mem_univ _, (rows_lands d huw hiw hsd hivd idx e q i q).2 ⟨(Finset.mem_filter.1 he).2, rfl⟩⟩
  · intro j hj
    exact (hland j (Finset.mem_filter.1 hj).2).2.symm
  · intro e _
    rfl
  · intro j hj
    exact congrArg upd (hland j (Finset.mem_filter.1 hj).2).2

/-- A lookup of `P` entries of a vector of `N`: entry `e` is the table's at the row its start index names. -/
theorem gather_vec_apply {α : Type} {N P : Nat} (hN : 0 < N) (d : GatherDims ⟨1, ![N]⟩ ⟨2, ![P, 1]⟩ ⟨1, ![P]⟩)
    (hcoll : d.collapsedSliceDims = [0]) (hob : d.operandBatchingDims = [])
    (hsim : d.startIndexMap = [0]) (hivd : d.indexVectorDim = 1)
    (x : (⟨1, ![N]⟩ : Shape).Idx → α) (idx : IVec ⟨2, ![P, 1]⟩ 32) (e : Fin P) :
    Host.gather d x idx (ix1 e) = x (ix1 (row N hN (idx (ixP e)))) := by
  rw [ix1_eq_ofFin, ix1_eq_ofFin]
  exact gather_take d hcoll hob hsim hivd x idx e hN

/-- A lookup of `P` rows of a matrix of `N` rows of width `C`: row `e` of the result is the table's row that
    its start index names, column for column. -/
theorem gather_rows_apply {α : Type} {N P C : Nat} (hN : 0 < N) (d : GatherDims ⟨2, ![N, C]⟩ ⟨2, ![P, 1]⟩ ⟨2, ![P, C]⟩)
    (hoff : d.offsetDims = [1]) (hcoll : d.collapsedSliceDims = [0]) (hob : d.operandBatchingDims = [])
    (hsib : d.startIndicesBatchingDims = []) (hsim : d.startIndexMap = [0]) (hivd : d.indexVectorDim = 1)
    (hss : d.sliceSizes = ![1, C])
    (x : (⟨2, ![N, C]⟩ : Shape).Idx → α) (idx : IVec ⟨2, ![P, 1]⟩ 32) (e : Fin P) (q : Fin C) :
    Host.gather d x idx (ix2 e q) = x (ix2 (row N hN (idx (ixP e))) q) := by
  have hb : ∀ a, a ∉ d.operandBatchingDims := fun a => by rw [hob]; exact List.not_mem_nil
  have hk0 : (0 : Fin 2) ∉ d.sKept := by rw [GatherDims.mem_sKept, hcoll]; simp
  have hk1 : (1 : Fin 2) ∈ d.sKept := by rw [GatherDims.mem_sKept, hcoll, hob]; simp
  have hm0 : (0 : Fin 2) ∈ d.startIndexMap := by rw [hsim]; exact List.mem_singleton.mpr rfl
  have hm1 : (1 : Fin 2) ∉ d.startIndexMap := by rw [hsim]; simp
  -- the result's batch axes are the ones that are not its offset axis 1: only axis 0
  have hX : ∀ X ∈ d.batchDims, X = 0 := fun X hX => by
    have hn := not_mem_of_mem_kept hX
    rw [hoff] at hn
    rcases fin2_cases X with h | h
    · exact h
    · exact absurd (h ▸ List.mem_singleton.mpr rfl) hn
  -- the start index of result row `e` sits at row `e` of the index column, whatever the column `q`
  have hsi : ∀ c : Fin d.startIndexMap.length, d.siIdx (ix2 e q) c = ixP e := by
    intro c
    funext b
    apply Fin.ext
    rcases fin2_cases b with rfl | rfl
    · unfold GatherDims.siIdx
      rw [dif_neg (by rw [hivd]; exact Nat.zero_ne_one)]
      unfold GatherDims.siCoord
      simp only [Fin.val_cast]
      rw [hX _ (List.getElem_mem _)]
      rfl
    · unfold GatherDims.siIdx
      rw [dif_pos (by rw [hivd]; rfl)]
      exact idx_of_eq_singleton hsim c.val c.isLt
  unfold Host.gather
  congr 1
  funext a
  apply Fin.ext
  show d.start _ idx a + d.batchCoord _ a + d.offCoord _ a = _
  rw [GatherDims.batchCoord_eq_zero _ _ _ (hb a), Nat.add_zero]
  rcases fin2_cases a with rfl | rfl
  · -- the row axis: collapsed and start-indexed, the slice of height 1 clamped into the table
    rw [GatherDims.offCoord_eq_zero _ _ _ hk0, Nat.add_zero]
    unfold GatherDims.start
    rw [dif_pos hm0, hsi, hss]
    rfl
  · -- the column axis: an offset axis that no start index moves
    unfold GatherDims.start
    rw [dif_neg hm1, Nat.zero_add]
    unfold GatherDims.offCoord
    rw [dif_pos hk1, getElem_of_eq_singleton hoff]
    rfl

/-- A sum over `A + B` positions under a condition splits into the first `A` and the last `B`. -/
theorem sum_filter_add {M : Type} [AddCommMonoid M] {A B : Nat} (p : Fin (A + B) → Prop) [DecidablePred p] (f : Fin (A + B) → M) :
    ∑ k ∈ Finset.univ.filter p, f k
      = (∑ e ∈ Finset.univ.filter (fun e : Fin A => p (Fin.castAdd B e)), f (Fin.castAdd B e))
        + ∑ i ∈ Finset.univ.filter (fun i : Fin B => p (Fin.natAdd A i)), f (Fin.natAdd A i) := by
  rw [Finset.sum_filter, Fin.sum_univ_add, Finset.sum_filter, Finset.sum_filter]

/-- A sum over `T` tiles of `R` rows each, under a condition on the row's position `R * t + r`, is the sum over
    the `T * R` positions. -/
theorem sum_tiles_filter {M : Type} [AddCommMonoid M] {T R : Nat} (p : Fin (T * R) → Prop) [DecidablePred p] (f : Fin (T * R) → M)
    (pos : Fin T → Fin R → Fin (T * R)) (hpos : ∀ t r, (pos t r).val = R * t.val + r.val) :
    ∑ t : Fin T, ∑ r ∈ Finset.univ.filter (fun r : Fin R => p (pos t r)), f (pos t r)
      = ∑ i ∈ Finset.univ.filter p, f i := by
  have hp : ∀ t r, pos t r = finProdFinEquiv (t, r) := fun t r =>
    Fin.ext (by rw [hpos, finProdFinEquiv_apply_val]; exact Nat.add_comm _ _)
  simp only [hp, Finset.sum_filter]
  rw [← Fintype.sum_prod_type']
  exact Equiv.sum_comp finProdFinEquiv (fun i => if p i then f i else 0)

/-- Exactly one position of `Fin n` equals a given one: a sum over the positions equal to `i` is the term at `i`. -/
theorem sum_filter_eq_self {M : Type} [AddCommMonoid M] {n : Nat} (i : Fin n) (f : Fin n → M) :
    ∑ k ∈ Finset.univ.filter (fun k : Fin n => k = i), f k = f i := by
  rw [Finset.filter_eq' Finset.univ i, if_pos (Finset.mem_univ i), Finset.sum_singleton]

end Cert.LibScatter

end
-- ==== Proof.Spec.lean ====
/-
  A graph-convolution layer with symmetric normalisation and self-loops, a rectifier, mean pooling by graph id and a
  logistic head, as ONE function of its inputs over the extended reals.

  Nodes `i < 20000` carry features `x i` of width 512; edges `e < 320000` run from `src e` to `dst e`; node `i`
  belongs to graph `batch i`.  The index arrays hold arbitrary 32-bit words.  A word used to LOOK UP a row is first
  wrapped (a negative one has the extent added) and then read signed and clamped into the table (`at`); a word used to
  ACCUMULATE into a row is read signed and not clamped, and names no row when it falls outside (`Lands`).

    deg i      = (number of edges whose destination names i) + 1          -- the self-loop
    dinv i     = deg i ^ (-1/2)
    h i j      = Σ_k x i k · W k j
    msg e j    = h (at (src e)) j · (dinv (at (src e)) · dinv (at (dst e)))
    agg i j    = Σ_{e : dst e names i} msg e j  +  h i j · (dinv i · dinv i)
    act i j    = max (agg i j + b j) 0
    pooled g j = Σ_{i : batch i names g} act i j
    count g    = number of nodes whose graph id names g
    out g      = logistic ( Σ_j (pooled g j / max (count g) 1) · lw j  +  lb )
-/
import proofs.«414209_j12506944766171_3_alg».proof.Proof.LibScatter

noncomputable section

namespace Cert.Gcn

open Idealize.ShloMosaic Cert.LibScatter

/-- A lookup index as it is normalised before the gather: a negative word has the table's extent added. -/
def wrap (v : BitVec 32) : BitVec 32 :=
  Scalar.select (IntOp.cmpi .slt v 0#32) (IntOp.addi v 20000#32) v

/-- The node a lookup index reads: wrapped, then read signed and clamped into the 20000 nodes. -/
def «at» (v : BitVec 32) : Fin 20000 := row 20000 (by decide) (wrap v)

section

variable (x : Fin 20000 → Fin 512 → EReal) (src dst : Fin 320000 → BitVec 32) (batch : Fin 20000 → BitVec 32)
  (W : Fin 512 → Fin 256 → EReal) (b : Fin 256 → EReal) (lw : Fin 256 → EReal) (lb : EReal)

/-- The degree of node `i` with its self-loop: the edges whose destination names it, and one. -/
def deg (i : Fin 20000) : EReal :=
  (∑ _e ∈ Finset.univ.filter (fun e : Fin 320000 => Lands (dst e) i), (1 : EReal)) + 1

/-- The inverse square root of the degree. -/
def dinv (i : Fin 20000) : EReal := Ideal.rsqrt (deg dst i)

/-- The projected features. -/
def h (i : Fin 20000) (j : Fin 256) : EReal := ∑ k : Fin 512, x i k * W k j

/-- Edge `e`'s message: its source's projected features, scaled by both ends' normalisation. -/
def msg (e : Fin 320000) (j : Fin 256) : EReal :=
  h x W («at» (src e)) j * (dinv dst («at» (src e)) * dinv dst («at» (dst e)))

/-- What node `i` aggregates: the messages of the edges whose destination names it, and its own self-loop's. -/
def agg (i : Fin 20000) (j : Fin 256) : EReal :=
  (∑ e ∈ Finset.univ.filter (fun e : Fin 320000 => Lands (dst e) i), msg x src dst W e j)
    + h x W i j * (dinv dst i * dinv dst i)

/-- The rectified activation. -/
def act (i : Fin 20000) (j : Fin 256) : EReal := max (agg x src dst W i j + b j) 0

/-- Graph `g`'s pooled sum: the activations of the nodes whose graph id names it. -/
def pooled (g : Fin 256) (j : Fin 256) : EReal :=
  ∑ i ∈ Finset.univ.filter (fun i : Fin 20000 => Lands (batch i) g), act x src dst W b i j

/-- Graph `g`'s node count. -/
def count (g : Fin 256) : EReal :=
  ∑ _i ∈ Finset.univ.filter (fun i : Fin 20000 => Lands (batch i) g), (1 : EReal)

/-- The layer's output for graph `g`. -/
def out (g : Fin 256) : EReal :=
  Ideal.logistic ((∑ j : Fin 256, Ideal.div (pooled x src dst batch W b g j) (max (count batch g) 1) * lw j) + lb)

end

/-- The layer's output as an array of 256 entries, from the seven argument arrays at their shapes: node features
    [20000, 512], the edge list [2, 320000] (row 0 the sources, row 1 the destinations), graph ids [20000], the
    projection [512, 256], the bias [256], the head's weights [256, 1] and its bias [1]. -/
def outArr (a0 : (⟨2, ![20000, 512]⟩ : Shape).Idx → EReal) (a1 : (⟨2, ![2, 320000]⟩ : Shape).Idx → BitVec 32)
    (a2 : (⟨1, ![20000]⟩ : Shape).Idx → BitVec 32) (a3 : (⟨2, ![512, 256]⟩ : Shape).Idx → EReal)
    (a4 : (⟨1, ![256]⟩ : Shape).Idx → EReal) (a5 : (⟨2, ![256, 1]⟩ : Shape).Idx → EReal)
    (a6 : (⟨1, ![1]⟩ : Shape).Idx → EReal) : (⟨1, ![256]⟩ : Shape).Idx → EReal :=
  fun g => out (fun i k => a0 (ValueIdx.ix2 i k)) (fun e => a1 (ValueIdx.ix2 (0 : Fin 2) e)) (fun e => a1 (ValueIdx.ix2 (1 : Fin 2) e))
    (fun i => a2 (ValueIdx.ix1 i)) (fun k j => a3 (ValueIdx.ix2 k j)) (fun j => a4 (ValueIdx.ix1 j))
    (fun j => a5 (ValueIdx.ix2 j (0 : Fin 1))) (a6 (ValueIdx.ix1 (0 : Fin 1))) (g 0)

end Cert.Gcn

end
-- ==== Proof.IHostA.lean ====
/-
  The kernel program's first host stretch, read at an index: the degree of each node is the number of edges whose
  destination names it, plus one for the self-loop the kernel folds in analytically; `main_v10` is its inverse square
  root and `main_v11` that squared.  Also the seven argument arrays as the coordinate functions the layer is stated over.
-/
import proofs.«414209_j12506944766171_3_alg».proof.Proof.IMain
import proofs.«414209_j12506944766171_3_alg».proof.Proof.LibScatter
import proofs.«414209_j12506944766171_3_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws
import Idealize.ShloMosaic.Lib.IdealHost

set_option maxRecDepth 16384

noncomputable section

namespace Cert.KernelIdeal.Val

open Cert.KernelIdeal Cert.KernelIdeal.Gen Cert.KernelIdeal.Fr Cert.LibScatter
open Idealize.ShloMosaic.StableHlo Idealize.ShloMosaic.StableHlo.Predicate
open Idealize.ShloMosaic Idealize.ShloMosaic.TcCoe Idealize.ShloMosaic.ValueIdx Idealize.SL.Sem

variable (m : (ℓ : Loc nD τ sig) → Buf (Elt Ideal) ℓ) (c : Dev nD)

/-! ## The argument arrays as coordinate functions -/

abbrev ax : Fin 20000 → Fin 512 → EReal := fun i k => (m ((c.tc : Thread nD τ).loc main_arg0) : S20000x512.Idx → EReal) (ix2 i k)
abbrev asrc : Fin 320000 → BitVec 32 := fun e => (m ((c.tc : Thread nD τ).loc main_arg1) : S2x320000.Idx → BitVec 32) (ix2 (0 : Fin 2) e)
abbrev adst : Fin 320000 → BitVec 32 := fun e => (m ((c.tc : Thread nD τ).loc main_arg1) : S2x320000.Idx → BitVec 32) (ix2 (1 : Fin 2) e)
abbrev abatch : Fin 20000 → BitVec 32 := fun i => (m ((c.tc : Thread nD τ).loc main_arg2) : S20000.Idx → BitVec 32) (ix1 i)
abbrev aW : Fin 512 → Fin 256 → EReal := fun k j => (m ((c.tc : Thread nD τ).loc main_arg3) : S512x256.Idx → EReal) (ix2 k j)
abbrev ab : Fin 256 → EReal := fun j => (m ((c.tc : Thread nD τ).loc main_arg4) : S256.Idx → EReal) (ix1 j)
abbrev alw : Fin 256 → EReal := fun j => (m ((c.tc : Thread nD τ).loc main_arg5) : S256x1.Idx → EReal) (ix2 j (0 : Fin 1))
abbrev alb : EReal := (m ((c.tc : Thread nD τ).loc main_arg6) : S1.Idx → EReal) (ix1 (0 : Fin 1))

/-! ## The stages of the first stretch, as functions of the edge array -/

/-- Row `r` of a column is the row-`r` index of a two-axis array whose second axis has one position. -/
theorem ixP_eq_ix2 {n : Nat} (p : Fin n) : ixP p = ix2 p (0 : Fin 1) :=
  funext fun d => match d with | ⟨0, _⟩ => rfl | ⟨1, _⟩ => rfl

/-- The edge list's row of sources, as a vector. -/
def srcVec (x1 : (⟨S2x320000, .i32⟩ : BufTy).Contents (Elt Ideal)) : (⟨S320000, .i32⟩ : BufTy).Contents (Elt Ideal) :=
  shapeCast _ (extractStridedSlice S1x320000 ![0, 0] x1 slices_S2x320000_S1x320000_0_0) shapeCasts_S1x320000_S320000

/-- The edge list's row of destinations, as a vector. -/
def dstVec (x1 : (⟨S2x320000, .i32⟩ : BufTy).Contents (Elt Ideal)) : (⟨S320000, .i32⟩ : BufTy).Contents (Elt Ideal) :=
  shapeCast _ (extractStridedSlice S1x320000 ![1, 0] x1 slices_S2x320000_S1x320000_1_0) shapeCasts_S1x320000_S320000

/-- The source vector at edge `e` is row 0 of the edge list at column `e`. -/
theorem srcVec_apply (x1 : (⟨S2x320000, .i32⟩ : BufTy).Contents (Elt Ideal)) (e : Fin 320000) :
    srcVec x1 (ix1 e) = x1 (ix2 (0 : Fin 2) e) := by
  unfold srcVec
  generalize hy : extractStridedSlice S1x320000 ![0, 0] x1 slices_S2x320000_S1x320000_0_0 = y
  rw [shapeCast_apply y shapeCasts_S1x320000_S320000 (ix1 e) (ix2 (0 : Fin 1) e)
    (by rewrite [Shape.rowMajor_val_two, Shape.rowMajor_val_one]; show 0 * 320000 + e.val = e.val; omega), ← hy]
  exact extractStridedSlice_apply ![0, 0] x1 slices_S2x320000_S1x320000_0_0 _ (ix2 (0 : Fin 2) e) (fun a => match a with
    | ⟨0, _⟩ => rfl
    | ⟨1, _⟩ => by show e.val = 0 + e.val; omega)

/-- The destination vector at edge `e` is row 1 of the edge list at column `e`. -/
theorem dstVec_apply (x1 : (⟨S2x320000, .i32⟩ : BufTy).Contents (Elt Ideal)) (e : Fin 320000) :
    dstVec x1 (ix1 e) = x1 (ix2 (1 : Fin 2) e) := by
  unfold dstVec
  generalize hy : extractStridedSlice S1x320000 ![1, 0] x1 slices_S2x320000_S1x320000_1_0 = y
  rw [shapeCast_apply y shapeCasts_S1x320000_S320000 (ix1 e) (ix2 (0 : Fin 1) e)
    (by rewrite [Shape.rowMajor_val_two, Shape.rowMajor_val_one]; show 0 * 320000 + e.val = e.val; omega), ← hy]
  exact extractStridedSlice_apply ![1, 0] x1 slices_S2x320000_S1x320000_1_0 _ (ix2 (1 : Fin 2) e) (fun a => match a with
    | ⟨0, _⟩ => rfl
    | ⟨1, _⟩ => by show e.val = 0 + e.val; omega)

/-- The destinations as a column of start indices. -/
def dstCol (x1 : (⟨S2x320000, .i32⟩ : BufTy).Contents (Elt Ideal)) : (⟨S320000x1, .i32⟩ : BufTy).Contents (Elt Ideal) :=
  broadcastInDim S320000x1 ![0] bcast_S320000_S320000x1_0 (dstVec x1)

/-- Row `e` of the destination column is row 1 of the edge list at column `e`. -/
theorem dstCol_apply (x1 : (⟨S2x320000, .i32⟩ : BufTy).Contents (Elt Ideal)) (e : Fin 320000) :
    dstCol x1 (ixP e) = x1 (ix2 (1 : Fin 2) e) := by
  unfold dstCol
  generalize hy : dstVec x1 = y
  have he : (ix1 e : S320000.Idx) = Shape.Idx.ofFin e := Shape.Idx.eq_ofFin (ix1 e)
  rw [bcast_col1 bcast_S320000_S320000x1_0 y e, ← he, ← hy]
  exact dstVec_apply x1 e

/-- The number of edges whose destination names each node, counted by adding a one at each destination into zeros. -/
def degCount (x1 : (⟨S2x320000, .i32⟩ : BufTy).Contents (Elt Ideal)) : (⟨S20000, .f32⟩ : BufTy).Contents (Elt Ideal) :=
  Host.scatterAdd (F := Ideal) scatter_S20000_S320000x1_S320000_n_0_0_1
    (broadcastInDim S20000 ![] bcast_S_S20000 (constant S_ .f32 0x00000000#32))
    (dstCol x1)
    (broadcastInDim S320000 ![] bcast_S_S320000 (constant S_ .f32 0x3F800000#32))

/-- Zero plus a one for each edge whose destination names node `i`. -/
theorem degCount_apply (x1 : (⟨S2x320000, .i32⟩ : BufTy).Contents (Elt Ideal)) (i : Fin 20000) :
    degCount x1 (ix1 i)
      = ∑ _e ∈ Finset.univ.filter (fun e : Fin 320000 => Lands (x1 (ix2 (1 : Fin 2) e)) i), (1 : EReal) := by
  unfold degCount
  rw [scatterAdd_vec_apply scatter_S20000_S320000x1_S320000_n_0_0_1 rfl rfl rfl rfl]
  rw [broadcastInDim_scalar_apply, constant_apply, Ideal.ofBits_zero_f32, zero_add]
  simp only [dstCol_apply]
  refine Finset.sum_congr rfl fun e _ => ?_
  rw [broadcastInDim_scalar_apply, constant_apply, Ideal.ofBits_one_f32]

/-- The inverse square root of the count plus one. -/
def dinvVec (x1 : (⟨S2x320000, .i32⟩ : BufTy).Contents (Elt Ideal)) : (⟨S20000, .f32⟩ : BufTy).Contents (Elt Ideal) :=
  Host.rsqrt (F := Ideal) (addf (degCount x1) (broadcastInDim S20000 ![] bcast_S_S20000 (constant S_ .f32 0x3F800000#32)))

/-- At node `i` it is the inverse square root of the degree with its self-loop. -/
theorem dinvVec_apply (x1 : (⟨S2x320000, .i32⟩ : BufTy).Contents (Elt Ideal)) (i : Fin 20000) :
    dinvVec x1 (ix1 i) = Cert.Gcn.dinv (fun e => x1 (ix2 (1 : Fin 2) e)) i := by
  have h : dinvVec x1 (ix1 i) = FloatOps.hostUnary .rsqrt (addf (F := Ideal) (φ := .f32) (degCount x1)
      (broadcastInDim S20000 ![] bcast_S_S20000 (constant (F := Ideal) S_ .f32 0x3F800000#32)) (ix1 i)) := rfl
  rw [h, Ideal.hostUnary_rsqrt_def, addf_apply, degCount_apply, broadcastInDim_scalar_apply, constant_apply, Ideal.ofBits_one_f32]
  rfl

/-- What the first stretch leaves in `main_v10`, `main_v11`, `main_v1` and `main_v3`, as functions of the edge array. -/
theorem W1_v10_eq : (W1 (F := Ideal) m c main_v10 : S20000.Idx → EReal) = dinvVec (m ((c.tc : Thread nD τ).loc main_arg1)) := by
  dsimp only [W1, W0, hostOps0]
  after_results
  rfl

theorem W1_v11_eq : (W1 (F := Ideal) m c main_v11 : S20000.Idx → EReal)
    = mulf (F := Ideal) (φ := .f32) (dinvVec (m ((c.tc : Thread nD τ).loc main_arg1))) (dinvVec (m ((c.tc : Thread nD τ).loc main_arg1))) := by
  dsimp only [W1, W0, hostOps0]
  after_results
  rfl

theorem W1_v1_eq : (W1 (F := Ideal) m c main_v1 : S320000.Idx → BitVec 32) = srcVec (m ((c.tc : Thread nD τ).loc main_arg1)) := by
  dsimp only [W1, W0, hostOps0]
  after_results
  rfl

theorem W1_v3_eq : (W1 (F := Ideal) m c main_v3 : S320000.Idx → BitVec 32) = dstVec (m ((c.tc : Thread nD τ).loc main_arg1)) := by
  dsimp only [W1, W0, hostOps0]
  after_results
  rfl

/-- `main_v10` is the inverse square root of the degree. -/
theorem W1_dinv (i : Fin 20000) :
    (W1 (F := Ideal) m c main_v10 : S20000.Idx → EReal) (ix1 i) = Cert.Gcn.dinv (adst m c) i := by
  rw [W1_v10_eq, dinvVec_apply]

/-- `main_v11` is its square. -/
theorem W1_dinv2 (i : Fin 20000) :
    (W1 (F := Ideal) m c main_v11 : S20000.Idx → EReal) (ix1 i) = Cert.Gcn.dinv (adst m c) i * Cert.Gcn.dinv (adst m c) i := by
  rw [W1_v11_eq, mulf_apply, dinvVec_apply]

/-- `main_v1` holds the sources and `main_v3` the destinations. -/
theorem W1_src (e : Fin 320000) : (W1 (F := Ideal) m c main_v1 : S320000.Idx → BitVec 32) (ix1 e) = asrc m c e := by
  rw [W1_v1_eq, srcVec_apply]
theorem W1_dst (e : Fin 320000) : (W1 (F := Ideal) m c main_v3 : S320000.Idx → BitVec 32) (ix1 e) = adst m c e := by
  rw [W1_v3_eq, dstVec_apply]

/-- The first host stretch writes no argument array. -/
theorem W1_arg0 : W1 (F := Ideal) m c main_arg0 = m ((c.tc : Thread nD τ).loc main_arg0) := W1_of m c main_arg0 (by decide)
theorem W1_arg1 : W1 (F := Ideal) m c main_arg1 = m ((c.tc : Thread nD τ).loc main_arg1) := W1_of m c main_arg1 (by decide)
theorem W1_arg3 : W1 (F := Ideal) m c main_arg3 = m ((c.tc : Thread nD τ).loc main_arg3) := W1_of m c main_arg3 (by decide)

end Cert.KernelIdeal.Val

end
-- ==== Proof.IProjValue.lean ====
/-
  The projection's region, read as a value: each of its four grid points writes back the product of 5000 rows of `x`
  with `W`, the four blocks tile the product array, so after the region `main_v12` holds `h = x · W` entry by entry
  (the change of float format on the way in and out is the identity over the extended reals, and a matrix product into
  a zero accumulator is the plain sum of products).

  In order: the block product at an entry (r, j) is the sum over k of x0 (r, k) · x1 (k, j); at grid point t the left
  block's row r is row 5000 t + r of `x` and the right block is all of `W`, so what point t writes back is block t of
  the one array (i, j) ↦ Σ_k x i k · W k j; row i lies in the block of point i / 5000, so the four blocks cover the array.
-/
import proofs.«414209_j12506944766171_3_alg».proof.Proof.IMain
import proofs.«414209_j12506944766171_3_alg».proof.Proof.IHostA
import proofs.«414209_j12506944766171_3_alg».proof.Proof.LibScatter
import proofs.«414209_j12506944766171_3_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

namespace Cert.KernelIdeal.Val

open Cert.KernelIdeal Cert.KernelIdeal.Gen Cert.KernelIdeal.Fr Cert.LibScatter
open Idealize.ShloMosaic Idealize.ShloMosaic.TcCoe Idealize.ShloMosaic.ValueIdx Idealize.SL.Sem

variable (m : (ℓ : Loc nD τ sig) → Buf (Elt Ideal) ℓ) (c : Dev nD)

/-! ## The body's arithmetic at an index -/

/-- The zero offset of a rectangle that is the whole buffer. -/
theorem hz : (![0, 0] : Fin 2 → Nat) = fun _ => 0 := funext fun a => by fin_cases a <;> rfl

/-- The left operand's index at output entry i and contraction index q: its row is i's row … -/
theorem lhs_proj_0 (i : S5000x256.Idx) (q : dot_S5000x512_S512x256_S5000x256_1_0_0_1_n_n.contr.Idx) :
    (dot_S5000x512_S512x256_S5000x256_1_0_0_1_n_n.lhsIdx i q 0).val = (i 0).val := by
  unfold DotDims.lhsIdx
  rw [dif_neg (show ¬(0 : Fin S5000x512.rank) ∈ dot_S5000x512_S512x256_S5000x256_1_0_0_1_n_n.lhsBatch by decide), dif_pos (show (0 : Fin S5000x512.rank) ∈ dot_S5000x512_S512x256_S5000x256_1_0_0_1_n_n.lhsNonContracting by decide)]
  rfl
/-- … and its column is q. -/
theorem lhs_proj_1 (i : S5000x256.Idx) (q : dot_S5000x512_S512x256_S5000x256_1_0_0_1_n_n.contr.Idx) :
    (dot_S5000x512_S512x256_S5000x256_1_0_0_1_n_n.lhsIdx i q 1).val = (q ⟨0, by decide⟩).val :=
  dot_S5000x512_S512x256_S5000x256_1_0_0_1_n_n.lhsIdx_val_of_single rfl i q
/-- The right operand's index: its row is q … -/
theorem rhs_proj_0 (i : S5000x256.Idx) (q : dot_S5000x512_S512x256_S5000x256_1_0_0_1_n_n.contr.Idx) :
    (dot_S5000x512_S512x256_S5000x256_1_0_0_1_n_n.rhsIdx i q 0).val = (q ⟨0, by decide⟩).val :=
  dot_S5000x512_S512x256_S5000x256_1_0_0_1_n_n.rhsIdx_val_of_single rfl i q
/-- … and its column is i's column. -/
theorem rhs_proj_1 (i : S5000x256.Idx) (q : dot_S5000x512_S512x256_S5000x256_1_0_0_1_n_n.contr.Idx) :
    (dot_S5000x512_S512x256_S5000x256_1_0_0_1_n_n.rhsIdx i q 1).val = (i 1).val := by
  unfold DotDims.rhsIdx
  rw [dif_neg (show ¬(1 : Fin S512x256.rank) ∈ dot_S5000x512_S512x256_S5000x256_1_0_0_1_n_n.rhsBatch by decide), dif_pos (show (1 : Fin S512x256.rank) ∈ dot_S5000x512_S512x256_S5000x256_1_0_0_1_n_n.rhsNonContracting by decide)]
  rfl

/-- The product of two blocks into a zero accumulator, read at an entry: the sum of products along the shared axis. -/
theorem matmul_proj_apply (x0 : FVec Ideal S5000x512 .bf16) (x1 : FVec Ideal S512x256 .bf16) (r : Fin 5000) (j : Fin 256) :
    (matmul (F := Ideal) dot_S5000x512_S512x256_S5000x256_1_0_0_1_n_n none x0 x1 (constant (F := Ideal) S5000x256 .f32 0x00000000#32) : FVec Ideal S5000x256 .f32) (ix2 r j)
      = ∑ k : Fin 512, x0 (ix2 r k) * x1 (ix2 k j) := by
  simp only [matmul]
  rw [Ideal.matmul_constant_zero_apply, ← Equiv.sum_comp (ValueIdx.contrEquiv1 dot_S5000x512_S512x256_S5000x256_1_0_0_1_n_n 512 rfl rfl).symm]
  refine Finset.sum_congr rfl fun k _ => ?_
  have hk := ValueIdx.contrEquiv1_symm_val dot_S5000x512_S512x256_S5000x256_1_0_0_1_n_n 512 rfl rfl k
  have el : dot_S5000x512_S512x256_S5000x256_1_0_0_1_n_n.lhsIdx (ix2 r j) ((ValueIdx.contrEquiv1 dot_S5000x512_S512x256_S5000x256_1_0_0_1_n_n 512 rfl rfl).symm k) = ix2 r k := funext fun a => Fin.ext (by
    match a with
    | ⟨0, _⟩ => exact lhs_proj_0 _ _
    | ⟨1, _⟩ => exact (lhs_proj_1 _ _).trans hk)
  have er : dot_S5000x512_S512x256_S5000x256_1_0_0_1_n_n.rhsIdx (ix2 r j) ((ValueIdx.contrEquiv1 dot_S5000x512_S512x256_S5000x256_1_0_0_1_n_n 512 rfl rfl).symm k) = ix2 k j := funext fun a => Fin.ext (by
    match a with
    | ⟨0, _⟩ => exact (rhs_proj_0 _ _).trans hk
    | ⟨1, _⟩ => exact rhs_proj_1 _ _)
  rw [el, er]

/-- The body's stored value at an entry: the changes of float format are the identity, so it is the block product. -/
theorem projPay_apply (x0 : Vec Ideal S5000x512 .f32) (x1 : Vec Ideal S512x256 .f32) (r : Fin 5000) (j : Fin 256) :
    (k0_pay1 (F := Ideal) x0 x1 : S5000x256.Idx → EReal) (ix2 r j) = ∑ k : Fin 512, (x0 (ix2 r k) : EReal) * x1 (ix2 k j) := by
  unfold k0_pay1
  exact matmul_proj_apply _ _ r j

/-! ## The blocks -/

/-- The printed index maps over the four points: the window on x and the one on the product sit at row block t,
    the window on W at block 0. -/
theorem idx_proj : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The product x · W as an array over the 20000 x 256 index space. -/
def hArr : S20000x256.Idx → EReal := fun idx => Cert.Gcn.h (ax m c) (aW m c) (idx 0) (idx 1)

/-- One entry of a block product whose left block is rows of X from row i - r on and whose right block is all of Wm. -/
theorem projEntry (x0 : Vec Ideal S5000x512 .f32) (x1 : Vec Ideal S512x256 .f32)
    (X : S20000x512.Idx → EReal) (Wm : S512x256.Idx → EReal) (i : Fin 20000) (r : Fin 5000) (j : Fin 256)
    (h0 : ∀ k : Fin 512, x0 (ix2 r k) = X (ix2 i k)) (h1 : ∀ k : Fin 512, x1 (ix2 k j) = Wm (ix2 k j)) :
    (k0_pay1 (F := Ideal) x0 x1 : S5000x256.Idx → EReal) (ix2 r j) = ∑ k : Fin 512, X (ix2 i k) * Wm (ix2 k j) := by
  rw [projPay_apply]
  exact Finset.sum_congr rfl fun k _ => by rw [h0 k, h1 k]

/-- What point t writes back is block t of the array x · W: entry (r, j) of the block product is Σ_k x (5000 t + r) k · W k j. -/
theorem projFlushed (t : Fin cfg0.N) :
    (projDat (E1 m) c).flushed 2 t = ((cfg0.win 2).blk t).view.read (Elt Ideal) (hArr m c) := by
  show (cfg0.win 2).cut (grid0.coords t) ((projDat (E1 m) c).after 2 t) = _
  rw [projAfter2]
  unfold projOut
  rw [View.canon_unit_zero hz]
  simp only [View.ld_unit_zero (S := S5000x512) hz, View.ld_unit_zero (S := S512x256) hz]
  obtain ⟨e00, e01, e10, e11, e20, e21⟩ := idx_proj t
  have hN : t.val < 4 := t.isLt
  funext y
  obtain ⟨r, j, rfl⟩ : ∃ (r : Fin 5000) (j : Fin 256), y = ix2 r j := ⟨y 0, y 1, eq_ix2 y⟩
  have hi : 5000 * t.val + r.val < 20000 := by have := r.isLt; omega
  show (k0_pay1 (F := Ideal) (projBlk (E1 m) c 0 t) (projBlk (E1 m) c 1 t) : S5000x256.Idx → EReal) (ix2 r j)
    = hArr m c (((cfg0.win 2).blk t).view.emb (ix2 r j))
  have hemb : ((cfg0.win 2).blk t).view.emb (ix2 r j) = (ix2 (⟨5000 * t.val + r.val, hi⟩ : Fin 20000) j : S20000x256.Idx) := by
    funext a; apply Fin.ext
    match a with
    | ⟨0, _⟩ => show win0_2.index t (0 : Fin 2) * 5000 + 1 * r.val = 5000 * t.val + r.val; rw [e20]; omega
    | ⟨1, _⟩ => show win0_2.index t (1 : Fin 2) * 256 + 1 * j.val = j.val; rw [e21]; omega
  rw [hemb]
  refine (projEntry _ _ (W1 (F := Ideal) m c main_arg0) (W1 (F := Ideal) m c main_arg3) ⟨5000 * t.val + r.val, hi⟩ r j (fun k => ?_) (fun k => ?_)).trans ?_
  · unfold projBlk
    rw [View.read_apply]
    show E1 m c main_arg0 (((cfg0.win 0).blk t).view.emb (ix2 r k)) = _
    refine congrArg _ ?_
    funext a; apply Fin.ext
    match a with
    | ⟨0, _⟩ => show win0_0.index t (0 : Fin 2) * 5000 + 1 * r.val = 5000 * t.val + r.val; rw [e00]; omega
    | ⟨1, _⟩ => show win0_0.index t (1 : Fin 2) * 512 + 1 * k.val = k.val; rw [e01]; omega
  · unfold projBlk
    rw [View.read_apply]
    show E1 m c main_arg3 (((cfg0.win 1).blk t).view.emb (ix2 k j)) = _
    refine congrArg _ ?_
    funext a; apply Fin.ext
    match a with
    | ⟨0, _⟩ => show win0_1.index t (0 : Fin 2) * 512 + 1 * k.val = k.val; rw [e10]; omega
    | ⟨1, _⟩ => show win0_1.index t (1 : Fin 2) * 256 + 1 * j.val = j.val; rw [e11]; omega
  · rw [W1_arg0 m c, W1_arg3 m c]
    rfl

/-! ## From the blocks to the array -/

/-- An index of the product array is in point t's block iff each coordinate is in the block's range on its axis. -/
theorem projMemBlk (t : Fin cfg0.N) (i : S20000x256.Idx) :
    i ∈ ((cfg0.win 2).blk t).view.set ↔ ∀ a : Fin 2, win0_2.index t a * S5000x256.size a ≤ (i a).val ∧ (i a).val < win0_2.index t a * S5000x256.size a + S5000x256.size a := by
  show i ∈ ((View.whole main_v12).slice (win0_2.rect t)).set ↔ _
  rw [View.set_slice_whole, Rect.mem_set_unit]
  exact Iff.rfl

/-- Row i of the product array lies in the block of point i / 5000, and every point writes its block back. -/
theorem projCovered (i : S20000x256.Idx) :
    ∃ t : Fin cfg0.N, (cfg0.win 2).flush t = true ∧ i ∈ ((cfg0.win 2).blk t).view.set := by
  have hi0 : (i 0).val < 20000 := (i 0).isLt
  have hi1 : (i 1).val < 256 := (i 1).isLt
  obtain ⟨T, hT⟩ : ∃ T : Fin cfg0.N, T.val = (i 0).val / 5000 := ⟨⟨(i 0).val / 5000, by rw [show cfg0.N = 4 from N_0]; omega⟩, rfl⟩
  obtain ⟨-, -, -, -, e20, e21⟩ := idx_proj T
  refine ⟨T, flush0_2 T, ?_⟩
  rw [projMemBlk]
  intro a
  match a with
  | ⟨0, _⟩ => show win0_2.index T (0 : Fin 2) * 5000 ≤ (i 0).val ∧ (i 0).val < win0_2.index T (0 : Fin 2) * 5000 + 5000; rw [e20, hT]; omega
  | ⟨1, _⟩ => show win0_2.index T (1 : Fin 2) * 256 ≤ (i 1).val ∧ (i 1).val < win0_2.index T (1 : Fin 2) * 256 + 256; rw [e21]; omega

/-- After the four write-backs the product array holds x · W. -/
theorem projFinal : (projDat (E1 m) c).arrAt 2 cfg0.N = hArr m c :=
  (projDat (E1 m) c).arrAt_eq_of_cover 2 (hArr m c) (fun t _ => projFlushed m c t) projCovered

/-- After the projection's region `main_v12` is the product `x · W`. -/
theorem W2_h (i : Fin 20000) (j : Fin 256) :
    (W2 (F := Ideal) m c main_v12 : S20000x256.Idx → EReal) (ix2 i j) = Cert.Gcn.h (ax m c) (aW m c) i j := by
  have e : W2 (F := Ideal) m c main_v12 = hArr m c := (W2_arr m c 2).trans (projFinal m c)
  exact congrFun e (ix2 i j)

end Cert.KernelIdeal.Val

end
-- ==== Proof.IHostB.lean ====
/-
  The kernel program's second host stretch, read at an index: what each of the pooling region's eight input arrays
  holds when the region is entered.  The edge aggregation `main_v41` gathers `h` at each edge's source, scales it by
  the two ends' normalisation and scatter-adds it at the edge's destination (real edges only: the self-loop's term is
  added inside the region); the rest are the product carried over, the squared normalisation, the bias, the graph ids
  and the per-graph counts, each reshaped to a column or a row, and the head's weights and bias.
-/
import proofs.«414209_j12506944766171_3_alg».proof.Proof.IMain
import proofs.«414209_j12506944766171_3_alg».proof.Proof.IHostA
import proofs.«414209_j12506944766171_3_alg».proof.Proof.IProjValue
import proofs.«414209_j12506944766171_3_alg».proof.Proof.LibScatter
import proofs.«414209_j12506944766171_3_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws
import Idealize.ShloMosaic.Lib.IdealHost

set_option maxRecDepth 16384

noncomputable section

namespace Cert.KernelIdeal.Val

open Cert.KernelIdeal Cert.KernelIdeal.Gen Cert.KernelIdeal.Fr Cert.LibScatter
open Idealize.ShloMosaic Idealize.ShloMosaic.TcCoe Idealize.ShloMosaic.ValueIdx Idealize.SL.Sem
open Idealize.ShloMosaic.StableHlo Idealize.ShloMosaic.StableHlo.Predicate

variable (m : (ℓ : Loc nD τ sig) → Buf (Elt Ideal) ℓ) (c : Dev nD)

/-! ## Layout reads used below -/

/-- Row `p`, column `q` of a rectangle, in the two spellings of a two-axis index. -/
theorem ij_eq_ix2 {n k : Nat} (p : Fin n) (q : Fin k) : ij p q = ix2 p q :=
  funext fun d => match d with | ⟨0, _⟩ => rfl | ⟨1, _⟩ => rfl

/-- A vector reshaped to a column reads, at row `i`, the vector at `i`. -/
theorem shapeCast_col {α : Type} {n : Nat} (h : (⟨1, ![n]⟩ : Shape).ShapeCasts ⟨2, ![n, 1]⟩)
    (x : (⟨1, ![n]⟩ : Shape).Idx → α) (i : Fin n) : shapeCast ⟨2, ![n, 1]⟩ x h (ix2 i (0 : Fin 1)) = x (ix1 i) :=
  shapeCast_apply x h (ix2 i (0 : Fin 1)) (ix1 i)
    (by rewrite [Shape.rowMajor_val_two, Shape.rowMajor_val_one]; show i.val = i.val * 1 + 0; omega)

/-- A vector reshaped to a row reads, at column `j`, the vector at `j`. -/
theorem shapeCast_row {α : Type} {n : Nat} (h : (⟨1, ![n]⟩ : Shape).ShapeCasts ⟨2, ![1, n]⟩)
    (x : (⟨1, ![n]⟩ : Shape).Idx → α) (j : Fin n) : shapeCast ⟨2, ![1, n]⟩ x h (ix2 (0 : Fin 1) j) = x (ix1 j) :=
  shapeCast_apply x h (ix2 (0 : Fin 1) j) (ix1 j)
    (by rewrite [Shape.rowMajor_val_two, Shape.rowMajor_val_one]; show j.val = 0 * n + j.val; omega)

/-- A vector laid out as a column of start indices reads, at row `e`, the vector at `e`. -/
theorem col_apply {α : Type} {n : Nat} (h : (⟨1, ![n]⟩ : Shape).BroadcastsInDim ⟨2, ![n, 1]⟩ ![0])
    (v : (⟨1, ![n]⟩ : Shape).Idx → α) (e : Fin n) : broadcastInDim ⟨2, ![n, 1]⟩ ![0] h v (ixP e) = v (ix1 e) := by
  rw [bcast_col1 h v e]
  exact congrArg v (Shape.Idx.eq_ofFin (ix1 e)).symm

/-! ## The second stretch's stages, as functions of the arrays they read -/

/-- A vector of lookup indices normalised: a negative one has 20000 added. -/
def wrapVec (v : (⟨S320000, .i32⟩ : BufTy).Contents (Elt Ideal)) : (⟨S320000, .i32⟩ : BufTy).Contents (Elt Ideal) :=
  select (cmpi .slt v (broadcastInDim S320000 ![] bcast_S_S320000 (constantI S_ 32 0#32)))
    (addi v (broadcastInDim S320000 ![] bcast_S_S320000 (constantI S_ 32 20000#32))) v

theorem wrapVec_apply (v : (⟨S320000, .i32⟩ : BufTy).Contents (Elt Ideal)) (e : Fin 320000) :
    wrapVec v (ix1 e) = Cert.Gcn.wrap (v (ix1 e)) := by
  have h : wrapVec v (ix1 e) = Scalar.select
      (IntOp.cmpi .slt (v (ix1 e)) (broadcastInDim S320000 ![] bcast_S_S320000 (constantI S_ 32 0#32) (ix1 e)))
      (IntOp.addi (v (ix1 e)) (broadcastInDim S320000 ![] bcast_S_S320000 (constantI S_ 32 20000#32) (ix1 e))) (v (ix1 e)) := rfl
  rw [h, broadcastInDim_scalar_apply, broadcastInDim_scalar_apply]
  rfl

/-- The normalised indices as a column of start indices. -/
def wrapCol (v : (⟨S320000, .i32⟩ : BufTy).Contents (Elt Ideal)) : (⟨S320000x1, .i32⟩ : BufTy).Contents (Elt Ideal) :=
  broadcastInDim S320000x1 ![0] bcast_S320000_S320000x1_0 (wrapVec v)

theorem wrapCol_apply (v : (⟨S320000, .i32⟩ : BufTy).Contents (Elt Ideal)) (e : Fin 320000) :
    wrapCol v (ixP e) = Cert.Gcn.wrap (v (ix1 e)) := by
  unfold wrapCol
  rw [col_apply, wrapVec_apply]

/-- A vector over the nodes looked up at each edge's index. -/
def lookupVec (d : (⟨S20000, .f32⟩ : BufTy).Contents (Elt Ideal)) (v : (⟨S320000, .i32⟩ : BufTy).Contents (Elt Ideal)) :
    (⟨S320000, .f32⟩ : BufTy).Contents (Elt Ideal) :=
  Host.gather gather_S20000_S320000x1_S320000_n_0_n_n_0_1_1 d (wrapCol v)

theorem lookupVec_apply (d : (⟨S20000, .f32⟩ : BufTy).Contents (Elt Ideal)) (v : (⟨S320000, .i32⟩ : BufTy).Contents (Elt Ideal)) (e : Fin 320000) :
    lookupVec d v (ix1 e) = d (ix1 (Cert.Gcn.at (v (ix1 e)))) := by
  unfold lookupVec
  rw [gather_vec_apply (by decide : 0 < 20000) gather_S20000_S320000x1_S320000_n_0_n_n_0_1_1 rfl rfl rfl rfl, wrapCol_apply]
  rfl

/-- The matrix over the nodes looked up row by row at each edge's index, its entries read as extended reals. -/
def lookupRows (H : (⟨S20000x256, .bf16⟩ : BufTy).Contents (Elt Ideal)) (v : (⟨S320000, .i32⟩ : BufTy).Contents (Elt Ideal)) :
    (⟨S320000x256, .f32⟩ : BufTy).Contents (Elt Ideal) :=
  extf (F := Ideal) .f32 (Host.gather gather_S20000x256_S320000x1_S320000x256_1_0_n_n_0_1_1256 H (wrapCol v)) bitsLt_bf16_f32

theorem lookupRows_apply (H : (⟨S20000x256, .bf16⟩ : BufTy).Contents (Elt Ideal)) (v : (⟨S320000, .i32⟩ : BufTy).Contents (Elt Ideal))
    (e : Fin 320000) (j : Fin 256) :
    lookupRows H v (ix2 e j) = H (ix2 (Cert.Gcn.at (v (ix1 e))) j) := by
  unfold lookupRows
  rw [extf_apply, gather_rows_apply (by decide : 0 < 20000) gather_S20000x256_S320000x1_S320000x256_1_0_n_n_0_1_1256 rfl rfl rfl rfl rfl rfl rfl,
    wrapCol_apply]
  rfl

/-- Each edge's coefficient: the normalisation at its source times the one at its destination. -/
def coefVec (d : (⟨S20000, .f32⟩ : BufTy).Contents (Elt Ideal)) (s t : (⟨S320000, .i32⟩ : BufTy).Contents (Elt Ideal)) :
    (⟨S320000, .f32⟩ : BufTy).Contents (Elt Ideal) :=
  mulf (F := Ideal) (φ := .f32) (lookupVec d s) (lookupVec d t)

theorem coefVec_apply (d : (⟨S20000, .f32⟩ : BufTy).Contents (Elt Ideal)) (s t : (⟨S320000, .i32⟩ : BufTy).Contents (Elt Ideal)) (e : Fin 320000) :
    coefVec d s t (ix1 e) = d (ix1 (Cert.Gcn.at (s (ix1 e)))) * d (ix1 (Cert.Gcn.at (t (ix1 e)))) := by
  unfold coefVec
  rw [mulf_apply, lookupVec_apply, lookupVec_apply]

/-- The messages: each edge's source row scaled by the edge's coefficient. -/
def msgArr (H : (⟨S20000x256, .bf16⟩ : BufTy).Contents (Elt Ideal)) (d : (⟨S20000, .f32⟩ : BufTy).Contents (Elt Ideal))
    (s t : (⟨S320000, .i32⟩ : BufTy).Contents (Elt Ideal)) : (⟨S320000x256, .f32⟩ : BufTy).Contents (Elt Ideal) :=
  mulf (F := Ideal) (φ := .f32) (lookupRows H s)
    (broadcastInDim S320000x256 ![0, 1] bcast_S320000x1_S320000x256_0_1
      (broadcastInDim S320000x1 ![0] bcast_S320000_S320000x1_0 (coefVec d s t)))

theorem msgArr_apply (H : (⟨S20000x256, .bf16⟩ : BufTy).Contents (Elt Ideal)) (d : (⟨S20000, .f32⟩ : BufTy).Contents (Elt Ideal))
    (s t : (⟨S320000, .i32⟩ : BufTy).Contents (Elt Ideal)) (e : Fin 320000) (j : Fin 256) :
    msgArr H d s t (ix2 e j)
      = H (ix2 (Cert.Gcn.at (s (ix1 e))) j) * (d (ix1 (Cert.Gcn.at (s (ix1 e)))) * d (ix1 (Cert.Gcn.at (t (ix1 e))))) := by
  unfold msgArr
  generalize hy : coefVec d s t = y
  rw [mulf_apply, lookupRows_apply, ← ij_eq_ix2 e j, bcast_rows bcast_S320000_S320000x1_0 bcast_S320000x1_S320000x256_0_1 y e j]
  rw [show (Shape.Idx.ofFin e : S320000.Idx) = ix1 e from (Shape.Idx.eq_ofFin (ix1 e)).symm, ← hy, coefVec_apply]

/-- A vector of edge indices as a column of start indices. -/
def idxCol (v : (⟨S320000, .i32⟩ : BufTy).Contents (Elt Ideal)) : (⟨S320000x1, .i32⟩ : BufTy).Contents (Elt Ideal) :=
  broadcastInDim S320000x1 ![0] bcast_S320000_S320000x1_0 v

theorem idxCol_apply (v : (⟨S320000, .i32⟩ : BufTy).Contents (Elt Ideal)) (e : Fin 320000) :
    idxCol v (ixP e) = v (ix1 e) := col_apply _ v e

/-- The aggregation: each edge's message added into zeros at the row its destination names. -/
def aggArr (H : (⟨S20000x256, .bf16⟩ : BufTy).Contents (Elt Ideal)) (d : (⟨S20000, .f32⟩ : BufTy).Contents (Elt Ideal))
    (s t : (⟨S320000, .i32⟩ : BufTy).Contents (Elt Ideal)) : (⟨S20000x256, .f32⟩ : BufTy).Contents (Elt Ideal) :=
  Host.scatterAdd (F := Ideal) scatter_S20000x256_S320000x1_S320000x256_1_0_0_1
    (broadcastInDim S20000x256 ![] bcast_S_S20000x256 (constant S_ .f32 0x00000000#32))
    (idxCol t)
    (msgArr H d s t)

theorem aggArr_apply (H : (⟨S20000x256, .bf16⟩ : BufTy).Contents (Elt Ideal)) (d : (⟨S20000, .f32⟩ : BufTy).Contents (Elt Ideal))
    (s t : (⟨S320000, .i32⟩ : BufTy).Contents (Elt Ideal)) (i : Fin 20000) (j : Fin 256) :
    aggArr H d s t (ix2 i j)
      = ∑ e ∈ Finset.univ.filter (fun e : Fin 320000 => Lands (t (ix1 e)) i),
          H (ix2 (Cert.Gcn.at (s (ix1 e))) j) * (d (ix1 (Cert.Gcn.at (s (ix1 e)))) * d (ix1 (Cert.Gcn.at (t (ix1 e))))) := by
  unfold aggArr
  rw [scatterAdd_rows_apply scatter_S20000x256_S320000x1_S320000x256_1_0_0_1 rfl rfl rfl rfl,
    broadcastInDim_scalar_apply, constant_apply, Ideal.ofBits_zero_f32, zero_add]
  simp only [idxCol_apply, msgArr_apply]

/-- The aggregation of arrays that hold the sources, the destinations, the normalisation and the projected features is
    the sum of the layer's messages over the edges whose destination names the node. -/
theorem aggArr_msg (H : (⟨S20000x256, .bf16⟩ : BufTy).Contents (Elt Ideal)) (d : (⟨S20000, .f32⟩ : BufTy).Contents (Elt Ideal))
    (s t : (⟨S320000, .i32⟩ : BufTy).Contents (Elt Ideal))
    (x : Fin 20000 → Fin 512 → EReal) (src dst : Fin 320000 → BitVec 32) (W : Fin 512 → Fin 256 → EReal)
    (hs : ∀ e, s (ix1 e) = src e) (ht : ∀ e, t (ix1 e) = dst e) (hd : ∀ i, d (ix1 i) = Cert.Gcn.dinv dst i)
    (hH : ∀ i j, H (ix2 i j) = Cert.Gcn.h x W i j) (i : Fin 20000) (j : Fin 256) :
    aggArr H d s t (ix2 i j)
      = ∑ e ∈ Finset.univ.filter (fun e : Fin 320000 => Lands (dst e) i), Cert.Gcn.msg x src dst W e j := by
  rw [aggArr_apply]
  simp only [hs, ht, hd, hH]
  rfl

/-- The graph ids as a column of start indices. -/
def batchCol (b : (⟨S20000, .i32⟩ : BufTy).Contents (Elt Ideal)) : (⟨S20000x1, .i32⟩ : BufTy).Contents (Elt Ideal) :=
  broadcastInDim S20000x1 ![0] bcast_S20000_S20000x1_0 b

theorem batchCol_apply (b : (⟨S20000, .i32⟩ : BufTy).Contents (Elt Ideal)) (i : Fin 20000) :
    batchCol b (ixP i) = b (ix1 i) := col_apply _ b i

/-- The number of nodes whose graph id names each graph, counted by adding a one at each node's graph id into zeros. -/
def countVec (b : (⟨S20000, .i32⟩ : BufTy).Contents (Elt Ideal)) : (⟨S256, .f32⟩ : BufTy).Contents (Elt Ideal) :=
  Host.scatterAdd (F := Ideal) scatter_S256_S20000x1_S20000_n_0_0_1
    (broadcastInDim S256 ![] bcast_S_S256 (constant S_ .f32 0x00000000#32))
    (batchCol b)
    (broadcastInDim S20000 ![] bcast_S_S20000 (constant S_ .f32 0x3F800000#32))

theorem countVec_apply (b : (⟨S20000, .i32⟩ : BufTy).Contents (Elt Ideal)) (g : Fin 256) :
    countVec b (ix1 g) = Cert.Gcn.count (fun i => b (ix1 i)) g := by
  unfold countVec Cert.Gcn.count
  rw [scatterAdd_vec_apply scatter_S256_S20000x1_S20000_n_0_0_1 rfl rfl rfl rfl,
    broadcastInDim_scalar_apply, constant_apply, Ideal.ofBits_zero_f32, zero_add]
  simp only [batchCol_apply]
  refine Finset.sum_congr rfl fun i _ => ?_
  rw [broadcastInDim_scalar_apply, constant_apply, Ideal.ofBits_one_f32]

/-! ## What the projection's region and the first stretch left, carried to the second stretch -/

theorem W2_src (e : Fin 320000) : (W2 (F := Ideal) m c main_v1 : S320000.Idx → BitVec 32) (ix1 e) = asrc m c e := by
  rw [W2_of_ne m c main_v1 (by decide)]; exact W1_src m c e
theorem W2_dst (e : Fin 320000) : (W2 (F := Ideal) m c main_v3 : S320000.Idx → BitVec 32) (ix1 e) = adst m c e := by
  rw [W2_of_ne m c main_v3 (by decide)]; exact W1_dst m c e
theorem W2_dinv (i : Fin 20000) : (W2 (F := Ideal) m c main_v10 : S20000.Idx → EReal) (ix1 i) = Cert.Gcn.dinv (adst m c) i := by
  rw [W2_of_ne m c main_v10 (by decide)]; exact W1_dinv m c i
theorem W2_dinv2 (i : Fin 20000) :
    (W2 (F := Ideal) m c main_v11 : S20000.Idx → EReal) (ix1 i) = Cert.Gcn.dinv (adst m c) i * Cert.Gcn.dinv (adst m c) i := by
  rw [W2_of_ne m c main_v11 (by decide)]; exact W1_dinv2 m c i

/-- An argument array that the projection's region does not write and the first stretch does not write is as launched. -/
theorem W2_arg2 : W2 (F := Ideal) m c main_arg2 = m ((c.tc : Thread nD τ).loc main_arg2) :=
  (W2_of_ne m c main_arg2 (by decide)).trans (W1_of m c main_arg2 (by decide))
theorem W2_arg4 : W2 (F := Ideal) m c main_arg4 = m ((c.tc : Thread nD τ).loc main_arg4) :=
  (W2_of_ne m c main_arg4 (by decide)).trans (W1_of m c main_arg4 (by decide))
theorem W2_arg5 : W2 (F := Ideal) m c main_arg5 = m ((c.tc : Thread nD τ).loc main_arg5) :=
  (W2_of_ne m c main_arg5 (by decide)).trans (W1_of m c main_arg5 (by decide))
theorem W2_arg6 : W2 (F := Ideal) m c main_arg6 = m ((c.tc : Thread nD τ).loc main_arg6) :=
  (W2_of_ne m c main_arg6 (by decide)).trans (W1_of m c main_arg6 (by decide))

/-! ## The second stretch's results as the stages -/

theorem W3_v41_eq : (W3 (F := Ideal) m c main_v41 : S20000x256.Idx → EReal)
    = aggArr (W2 (F := Ideal) m c main_v12) (W2 (F := Ideal) m c main_v10) (W2 (F := Ideal) m c main_v1) (W2 (F := Ideal) m c main_v3) := by
  dsimp only [W3, hostOps1]
  after_results_simp
  rfl

/-- `main_v41`: the messages of the edges whose destination names the node. -/
theorem W3_edges (i : Fin 20000) (j : Fin 256) :
    (W3 (F := Ideal) m c main_v41 : S20000x256.Idx → EReal) (ix2 i j)
      = ∑ e ∈ Finset.univ.filter (fun e : Fin 320000 => Lands (adst m c e) i), Cert.Gcn.msg (ax m c) (asrc m c) (adst m c) (aW m c) e j := by
  rw [W3_v41_eq]
  exact aggArr_msg _ _ _ _ _ _ _ _ (W2_src m c) (W2_dst m c) (W2_dinv m c) (W2_h m c) i j

theorem W3_v47_eq : (W3 (F := Ideal) m c main_v47 : S20000x1.Idx → EReal)
    = shapeCast S20000x1 (W2 (F := Ideal) m c main_v11 : S20000.Idx → EReal) shapeCasts_S20000_S20000x1 := by
  dsimp only [W3, hostOps1]
  after_results_simp
  rfl

theorem W3_v48_eq : (W3 (F := Ideal) m c main_v48 : S1x256.Idx → EReal)
    = shapeCast S1x256 (W2 (F := Ideal) m c main_arg4 : S256.Idx → EReal) shapeCasts_S256_S1x256 := by
  dsimp only [W3, hostOps1]
  after_results_simp
  rfl

theorem W3_v46_eq : (W3 (F := Ideal) m c main_v46 : S20000x1.Idx → BitVec 32)
    = shapeCast S20000x1 (W2 (F := Ideal) m c main_arg2 : S20000.Idx → BitVec 32) shapeCasts_S20000_S20000x1 := by
  dsimp only [W3, hostOps1]
  after_results_simp
  rfl

theorem W3_v49_eq : (W3 (F := Ideal) m c main_v49 : S256x1.Idx → EReal)
    = shapeCast S256x1 (countVec (W2 (F := Ideal) m c main_arg2)) shapeCasts_S256_S256x1 := by
  dsimp only [W3, hostOps1]
  after_results_simp
  rfl

theorem W3_v50_eq : (W3 (F := Ideal) m c main_v50 : S1x1.Idx → EReal)
    = shapeCast S1x1 (W2 (F := Ideal) m c main_arg6 : S1.Idx → EReal) shapeCasts_S1_S1x1 := by
  dsimp only [W3, hostOps1]
  after_results_simp
  rfl

/-- `main_v12` is still the product. -/
theorem W3_h (i : Fin 20000) (j : Fin 256) :
    (W3 (F := Ideal) m c main_v12 : S20000x256.Idx → EReal) (ix2 i j) = Cert.Gcn.h (ax m c) (aW m c) i j := by
  rw [W3_of m c main_v12 (by decide)]
  exact W2_h m c i j

/-- `main_v47`: the squared normalisation as a column. -/
theorem W3_dinv2 (i : Fin 20000) :
    (W3 (F := Ideal) m c main_v47 : S20000x1.Idx → EReal) (ix2 i (0 : Fin 1)) = Cert.Gcn.dinv (adst m c) i * Cert.Gcn.dinv (adst m c) i := by
  rw [W3_v47_eq, shapeCast_col]
  exact W2_dinv2 m c i

/-- `main_v48`: the bias as a row. -/
theorem W3_bias (j : Fin 256) :
    (W3 (F := Ideal) m c main_v48 : S1x256.Idx → EReal) (ix2 (0 : Fin 1) j) = ab m c j := by
  rw [W3_v48_eq, shapeCast_row, W2_arg4]

/-- `main_v46`: the graph ids as a column. -/
theorem W3_batch (i : Fin 20000) :
    (W3 (F := Ideal) m c main_v46 : S20000x1.Idx → BitVec 32) (ix2 i (0 : Fin 1)) = abatch m c i := by
  rw [W3_v46_eq, shapeCast_col, W2_arg2]

/-- `main_v49`: the per-graph node counts as a column. -/
theorem W3_count (g : Fin 256) :
    (W3 (F := Ideal) m c main_v49 : S256x1.Idx → EReal) (ix2 g (0 : Fin 1)) = Cert.Gcn.count (abatch m c) g := by
  rw [W3_v49_eq, shapeCast_col, countVec_apply, W2_arg2]

/-- `main_arg5`: the head's weights, untouched. -/
theorem W3_lw (j : Fin 256) :
    (W3 (F := Ideal) m c main_arg5 : S256x1.Idx → EReal) (ix2 j (0 : Fin 1)) = alw m c j := by
  rw [W3_of m c main_arg5 (by decide), W2_arg5]

/-- `main_v50`: the head's bias as a 1 × 1 array. -/
theorem W3_lb :
    (W3 (F := Ideal) m c main_v50 : S1x1.Idx → EReal) (ix2 (0 : Fin 1) (0 : Fin 1)) = alb m c := by
  rw [W3_v50_eq, shapeCast_col, W2_arg6]

end Cert.KernelIdeal.Val

end
-- ==== Proof.IPoolTile.lean ====
/-
  One tile of the pooling region, read at an index.  The tile's update adds to the accumulator the product of the
  transposed one-hot membership matrix of the tile's rows with the tile's rectified activations: entry (g, j) gains
  the sum, over the tile's 5000 rows r, of [graph id of r is g] times max (edges r j + dinv² r · h r j + bias j) 0.
  A one-hot entry is 1 exactly where the row's graph id, read signed, is g, so the sum is the sum of the
  activations over the rows whose graph id names g.
-/
import proofs.«414209_j12506944766171_3_alg».proof.Proof.Gen.KernelIdeal.Skeleton
import proofs.«414209_j12506944766171_3_alg».proof.Proof.LibScatter
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws

set_option maxRecDepth 16384

noncomputable section

namespace Cert.KernelIdeal.Val

open Cert.KernelIdeal Cert.KernelIdeal.Gen Cert.LibScatter
open Idealize.ShloMosaic Idealize.ShloMosaic.ValueIdx Idealize.ShloMosaic.StableHlo.Predicate

/-! ## A column broadcast along the rows -/

/-- An [a, 1] column broadcast to [a, b] reads, at (p, c), the column's entry at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The one-hot entry -/

/-- The one-hot entry of a graph-id word against column g: 1 where the word is g's, 0 elsewhere. -/
def oh (w : BitVec 32) (g : Fin 256) : EReal := if w = BitVec.ofNat 32 g.val then 1 else 0

/-- A widened equality bit converted to a float is 1 or 0. -/
theorem sitofp_eqbit (a b : BitVec 32) :
    FloatOps.sitofp (F := Ideal) .f32 ((IntOp.cmpi .eq a b).setWidth 32) = if a = b then (1 : EReal) else 0 := by
  by_cases h : a = b
  · rw [if_pos h, cmpi_eq_iff.mpr h]
    show (((((1#1 : BitVec 1).setWidth 32).toInt : ℝ)) : EReal) = 1
    rw [show ((1#1 : BitVec 1).setWidth 32).toInt = 1 by decide]
    simp
  · rw [if_neg h, eq_zero_of_ne_one (fun h1 => h (cmpi_eq_iff.mp h1))]
    show (((((0#1 : BitVec 1).setWidth 32).toInt : ℝ)) : EReal) = 0
    rw [show ((0#1 : BitVec 1).setWidth 32).toInt = 0 by decide]
    simp

/-- Column g's word, read signed, is g: the columns are far below the sign bit. -/
theorem toInt_ofNat_small (g : Fin 256) : (BitVec.ofNat 32 g.val).toInt = (g.val : Int) := by
  have hg := g.isLt
  have h1 : (BitVec.ofNat 32 g.val).toNat = g.val := by
    rw [BitVec.toNat_ofNat]; exact Nat.mod_eq_of_lt (by omega)
  rw [BitVec.toInt_eq_toNat_cond, h1, if_pos (by omega)]

/-- A graph-id word is column g's word exactly when, read signed, it is g. -/
theorem eq_ofNat_iff_lands (w : BitVec 32) (g : Fin 256) : w = BitVec.ofNat 32 g.val ↔ Lands w g := by
  unfold Lands
  constructor
  · intro h
    subst h
    exact toInt_ofNat_small g
  · intro h
    apply BitVec.eq_of_toInt_eq
    rw [h, toInt_ofNat_small]

/-- A one-hot weighted sum over rows is the sum over the rows whose graph id names the column. -/
theorem sum_oh {R : Nat} (w : Fin R → BitVec 32) (g : Fin 256) (a : Fin R → EReal) :
    ∑ r : Fin R, oh (w r) g * a r = ∑ r ∈ Finset.univ.filter (fun r : Fin R => Lands (w r) g), a r := by
  rw [Finset.sum_filter]
  refine Finset.sum_congr rfl fun r _ => ?_
  unfold oh
  by_cases h : Lands (w r) g
  · rw [if_pos h, if_pos ((eq_ofNat_iff_lands _ _).mpr h), one_mul]
  · rw [if_neg h, if_neg (fun h' => h ((eq_ofNat_iff_lands _ _).mp h')), zero_mul]

/-! ## The tile's contraction: over the rows, axis 0 of both operands -/

theorem lhs_tile_0 (i : S256x256.Idx) (q : dot_S5000x256_S5000x256_S256x256_0_0_1_1_n_n.contr.Idx) :
    (dot_S5000x256_S5000x256_S256x256_0_0_1_1_n_n.lhsIdx i q 0).val = (q ⟨0, by decide⟩).val :=
  dot_S5000x256_S5000x256_S256x256_0_0_1_1_n_n.lhsIdx_val_of_single rfl i q
theorem lhs_tile_1 (i : S256x256.Idx) (q : dot_S5000x256_S5000x256_S256x256_0_0_1_1_n_n.contr.Idx) :
    (dot_S5000x256_S5000x256_S256x256_0_0_1_1_n_n.lhsIdx i q 1).val = (i 0).val := by
  unfold DotDims.lhsIdx
  rw [dif_neg (show ¬(1 : Fin S5000x256.rank) ∈ dot_S5000x256_S5000x256_S256x256_0_0_1_1_n_n.lhsBatch by decide), dif_pos (show (1 : Fin S5000x256.rank) ∈ dot_S5000x256_S5000x256_S256x256_0_0_1_1_n_n.lhsNonContracting by decide)]
  rfl
theorem rhs_tile_0 (i : S256x256.Idx) (q : dot_S5000x256_S5000x256_S256x256_0_0_1_1_n_n.contr.Idx) :
    (dot_S5000x256_S5000x256_S256x256_0_0_1_1_n_n.rhsIdx i q 0).val = (q ⟨0, by decide⟩).val :=
  dot_S5000x256_S5000x256_S256x256_0_0_1_1_n_n.rhsIdx_val_of_single rfl i q
theorem rhs_tile_1 (i : S256x256.Idx) (q : dot_S5000x256_S5000x256_S256x256_0_0_1_1_n_n.contr.Idx) :
    (dot_S5000x256_S5000x256_S256x256_0_0_1_1_n_n.rhsIdx i q 1).val = (i 1).val := by
  unfold DotDims.rhsIdx
  rw [dif_neg (show ¬(1 : Fin S5000x256.rank) ∈ dot_S5000x256_S5000x256_S256x256_0_0_1_1_n_n.rhsBatch by decide), dif_pos (show (1 : Fin S5000x256.rank) ∈ dot_S5000x256_S5000x256_S256x256_0_0_1_1_n_n.rhsNonContracting by decide)]
  rfl

/-- The tile's product into zeros at (g, j): the sum over the tile's rows r of the left operand at (r, g) times the
    right operand at (r, j). -/
theorem tile_matmul_apply (A B : FVec Ideal S5000x256 .bf16) (g j : Fin 256) :
    FloatOps.matmul dot_S5000x256_S5000x256_S256x256_0_0_1_1_n_n none A B (constant (F := Ideal) S256x256 .f32 0x00000000#32) (ix2 g j)
      = ∑ r : Fin 5000, A (ix2 r g) * B (ix2 r j) := by
  rw [Ideal.matmul_constant_zero_apply, ← Equiv.sum_comp (contrEquiv1 dot_S5000x256_S5000x256_S256x256_0_0_1_1_n_n 5000 rfl rfl).symm]
  refine Finset.sum_congr rfl fun k _ => ?_
  have hk := contrEquiv1_symm_val dot_S5000x256_S5000x256_S256x256_0_0_1_1_n_n 5000 rfl rfl k
  have el : dot_S5000x256_S5000x256_S256x256_0_0_1_1_n_n.lhsIdx (ix2 g j) ((contrEquiv1 dot_S5000x256_S5000x256_S256x256_0_0_1_1_n_n 5000 rfl rfl).symm k) = ix2 k g := funext fun a => Fin.ext (by
    match a with
    | ⟨0, _⟩ => exact (lhs_tile_0 _ _).trans hk
    | ⟨1, _⟩ => exact lhs_tile_1 _ _)
  have er : dot_S5000x256_S5000x256_S256x256_0_0_1_1_n_n.rhsIdx (ix2 g j) ((contrEquiv1 dot_S5000x256_S5000x256_S256x256_0_0_1_1_n_n 5000 rfl rfl).symm k) = ix2 k j := funext fun a => Fin.ext (by
    match a with
    | ⟨0, _⟩ => exact (rhs_tile_0 _ _).trans hk
    | ⟨1, _⟩ => exact rhs_tile_1 _ _)
  rw [el, er]

/-! ## The tile's payload at an index -/

/-- The tile's update at (g, j): the accumulator's entry plus, over the tile's rows r, the one-hot entry of r's graph
    id against g times the rectified sum of r's edge aggregation, its self-loop term and the bias. -/
theorem tile_apply (v3 : Vec Ideal S5000x1 .f32) (v5 : Vec Ideal S5000x256 .bf16) (v10 : Vec Ideal S5000x256 .f32)
    (v13 : Vec Ideal S1x256 .f32) (v20 : Vec Ideal S5000x1 .i32) (v29 : Vec Ideal S256x256 .f32) (g j : Fin 256) :
    k1_pay4 (F := Ideal) v3 v5 v10 v13 v20 v29 (ix2 g j)
      = v29 (ix2 g j) + ∑ r : Fin 5000, oh (v20 (ix2 r (0 : Fin 1))) g
          * max (v10 (ix2 r j) + v3 (ix2 r (0 : Fin 1)) * v5 (ix2 r j) + v13 (ix2 (0 : Fin 1) j)) 0 := by
  unfold k1_pay4
  dsimp only
  refine (congrFun (shapeCast_self _ _) (ix2 g j)).trans ?_
  refine (congrArg (v29 (ix2 g j) + ·) (tile_matmul_apply _ _ g j)).trans ?_
  refine congrArg (v29 (ix2 g j) + ·) (Finset.sum_congr rfl fun r _ => ?_)
  refine congrArg₂ (· * ·) ?_ ?_
  · show FloatOps.sitofp (F := Ideal) .f32 ((IntOp.cmpi .eq
        (broadcastTo S5000x256 (shapeCast S5000x1 v20 shapeCasts_S5000x1_S5000x1) broadcasts_S5000x1_S5000x256 (ix2 r g))
        (iota .tc S5000x256 32 [1] iota_S5000x256_d1_w32 (ix2 r g))).setWidth 32) = _
    rw [sitofp_eqbit, iota_single_apply, broadcastTo_a1_ab_apply, shapeCast_self]
    rfl
  · show max (shapeCast S5000x256 v10 shapeCasts_S5000x256_S5000x256 (ix2 r j)
        + broadcastTo S5000x256 (shapeCast S5000x1 v3 shapeCasts_S5000x1_S5000x1) broadcasts_S5000x1_S5000x256 (ix2 r j)
          * shapeCast S5000x256 v5 shapeCasts_S5000x256_S5000x256 (ix2 r j)
        + broadcastTo S5000x256 (shapeCast S1x256 v13 shapeCasts_S1x256_S1x256) broadcasts_S1x256_S5000x256 (ix2 r j))
        (Ideal.ofBits .f32 0x00000000#32) = _
    rw [Ideal.ofBits_zero_f32, shapeCast_self, shapeCast_self, shapeCast_self, shapeCast_self, broadcastTo_a1_ab_apply,
      broadcastTo_1b_ab_apply]

end Cert.KernelIdeal.Val

end
-- ==== Proof.IPoolSum.lean ====
/-
  The pooling region's accumulator, tile by tile.  Tile n holds nodes 5000 n … 5000 n + 4999: row r of each tiled
  window's block is the array's row 5000 n + r, and the bias row is the whole bias at every tile.  With the region's
  input arrays read as the layer's quantities, one tile's update adds, at (g, j), the activations of the tile's nodes
  whose graph id names g.  The accumulator starts from zero at the first tile, so after the fourth it holds the sum
  over all 20000 nodes whose graph id names g: the pooled sum.
-/
import proofs.«414209_j12506944766171_3_alg».proof.Proof.IMain
import proofs.«414209_j12506944766171_3_alg».proof.Proof.IHostA
import proofs.«414209_j12506944766171_3_alg».proof.Proof.IHostB
import proofs.«414209_j12506944766171_3_alg».proof.Proof.IPoolTile
import proofs.«414209_j12506944766171_3_alg».proof.Proof.LibScatter
import proofs.«414209_j12506944766171_3_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Cert.KernelIdeal Cert.KernelIdeal.Gen Cert.KernelIdeal.Fr Cert.LibScatter
open Idealize.ShloMosaic Idealize.ShloMosaic.TcCoe Idealize.ShloMosaic.ValueIdx Idealize.SL.Sem

/-! ## Where each window's block sits in its array -/

/-- The windows' index maps at each of the four tiles: a tiled window's block row is the tile's number, every other
    block coordinate is 0. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

section Blocks

variable (V : (c : Dev nD) → (b : Ref sig .tc) → Buf (Elt Ideal) ((c : Thread nD τ).loc b)) (c : Dev nD)

/-- Tile t's blocks and the region's input arrays, each at its literal type. -/
abbrev eblk (t : Fin cfg1.N) : S5000x256.Idx → EReal := poolBlk (F := Ideal) V c 0 t
abbrev hblk (t : Fin cfg1.N) : S5000x256.Idx → EReal := poolBlk (F := Ideal) V c 1 t
abbrev dblk (t : Fin cfg1.N) : S5000x1.Idx → EReal := poolBlk (F := Ideal) V c 2 t
abbrev bblk (t : Fin cfg1.N) : S1x256.Idx → EReal := poolBlk (F := Ideal) V c 3 t
abbrev gblk (t : Fin cfg1.N) : S5000x1.Idx → BitVec 32 := poolBlk (F := Ideal) V c 4 t
abbrev earr : S20000x256.Idx → EReal := V c main_v41
abbrev harr : S20000x256.Idx → EReal := V c main_v12
abbrev darr : S20000x1.Idx → EReal := V c main_v47
abbrev barr : S1x256.Idx → EReal := V c main_v48
abbrev garr : S20000x1.Idx → BitVec 32 := V c main_v46

/-- Row r of tile t's block of the edge aggregation is the array's row 5000 t + r. -/
theorem blk0_read (t : Fin cfg1.N) (r : Fin 5000) (j : Fin 256) (i : Fin 20000) (hi : i.val = 5000 * t.val + r.val) :
    eblk V c t (ix2 r j) = earr V c (ix2 i j) := by
  show earr V c (((cfg1.win 0).blk t).view.emb (ix2 r j)) = _
  refine congrArg _ (funext fun a => Fin.ext ?_)
  obtain ⟨e0, e1, -⟩ := idx1 t
  match a with
  | ⟨0, _⟩ => show win1_0.index t (0 : Fin 2) * 5000 + 1 * r.val = i.val; omega
  | ⟨1, _⟩ => show win1_0.index t (1 : Fin 2) * 256 + 1 * j.val = j.val; omega

/-- Row r of tile t's block of the projected features is the array's row 5000 t + r. -/
theorem blk1_read (t : Fin cfg1.N) (r : Fin 5000) (j : Fin 256) (i : Fin 20000) (hi : i.val = 5000 * t.val + r.val) :
    hblk V c t (ix2 r j) = harr V c (ix2 i j) := by
  show harr V c (((cfg1.win 1).blk t).view.emb (ix2 r j)) = _
  refine congrArg _ (funext fun a => Fin.ext ?_)
  obtain ⟨-, -, e0, e1, -⟩ := idx1 t
  match a with
  | ⟨0, _⟩ => show win1_1.index t (0 : Fin 2) * 5000 + 1 * r.val = i.val; omega
  | ⟨1, _⟩ => show win1_1.index t (1 : Fin 2) * 256 + 1 * j.val = j.val; omega

/-- Row r of tile t's block of the squared normalisation is the column's row 5000 t + r. -/
theorem blk2_read (t : Fin cfg1.N) (r : Fin 5000) (i : Fin 20000) (hi : i.val = 5000 * t.val + r.val) :
    dblk V c t (ix2 r (0 : Fin 1)) = darr V c (ix2 i (0 : Fin 1)) := by
  show darr V c (((cfg1.win 2).blk t).view.emb (ix2 r (0 : Fin 1))) = _
  refine congrArg _ (funext fun a => Fin.ext ?_)
  obtain ⟨-, -, -, -, e0, e1, -⟩ := idx1 t
  match a with
  | ⟨0, _⟩ => show win1_2.index t (0 : Fin 2) * 5000 + 1 * r.val = i.val; omega
  | ⟨1, _⟩ => show win1_2.index t (1 : Fin 2) * 1 + 1 * 0 = 0; omega

/-- The bias window's block is the whole bias row at every tile. -/
theorem blk3_read (t : Fin cfg1.N) (j : Fin 256) :
    bblk V c t (ix2 (0 : Fin 1) j) = barr V c (ix2 (0 : Fin 1) j) := by
  show barr V c (((cfg1.win 3).blk t).view.emb (ix2 (0 : Fin 1) j)) = _
  refine congrArg _ (funext fun a => Fin.ext ?_)
  obtain ⟨-, -, -, -, -, -, e0, e1, -⟩ := idx1 t
  match a with
  | ⟨0, _⟩ => show win1_3.index t (0 : Fin 2) * 1 + 1 * 0 = 0; omega
  | ⟨1, _⟩ => show win1_3.index t (1 : Fin 2) * 256 + 1 * j.val = j.val; omega

/-- Row r of tile t's block of the graph ids is the column's row 5000 t + r. -/
theorem blk4_read (t : Fin cfg1.N) (r : Fin 5000) (i : Fin 20000) (hi : i.val = 5000 * t.val + r.val) :
    gblk V c t (ix2 r (0 : Fin 1)) = garr V c (ix2 i (0 : Fin 1)) := by
  show garr V c (((cfg1.win 4).blk t).view.emb (ix2 r (0 : Fin 1))) = _
  refine congrArg _ (funext fun a => Fin.ext ?_)
  obtain ⟨-, -, -, -, -, -, -, -, e0, e1⟩ := idx1 t
  match a with
  | ⟨0, _⟩ => show win1_4.index t (0 : Fin 2) * 5000 + 1 * r.val = i.val; omega
  | ⟨1, _⟩ => show win1_4.index t (1 : Fin 2) * 1 + 1 * 0 = 0; omega

end Blocks

/-! ## One tile's update, in the layer's terms -/

variable (m : (ℓ : Loc nD τ sig) → Buf (Elt Ideal) ℓ) (c : Dev nD)

/-- Tile n's row r as a node. -/
def node (n : ℕ) (h : n < cfg1.N) (r : Fin 5000) : Fin 20000 :=
  ⟨5000 * n + r.val, by have h4 : n < 4 := by rw [show cfg1.N = 4 from N_1] at h; exact h
                        have := r.isLt; omega⟩

theorem node_val (n : ℕ) (h : n < cfg1.N) (r : Fin 5000) : (node n h r).val = 5000 * n + r.val := rfl

/-- Tile n's update at (g, j): what the accumulator held plus the activations of the tile's nodes whose graph id
    names g. -/
theorem tile_step (n : ℕ) (h : n < cfg1.N) (acc : Vec Ideal S256x256 .f32) (g j : Fin 256) :
    k1_pay4 (F := Ideal) (poolBlk (E3 m) c 2 ⟨n, h⟩) (poolBlk (E3 m) c 1 ⟨n, h⟩) (poolBlk (E3 m) c 0 ⟨n, h⟩)
        (poolBlk (E3 m) c 3 ⟨n, h⟩) (poolBlk (E3 m) c 4 ⟨n, h⟩) acc (ix2 g j)
      = acc (ix2 g j) + ∑ r ∈ Finset.univ.filter (fun r : Fin 5000 => Lands (abatch m c (node n h r)) g),
          Cert.Gcn.act (ax m c) (asrc m c) (adst m c) (aW m c) (ab m c) (node n h r) j := by
  refine (tile_apply _ _ _ _ _ acc g j).trans ?_
  refine congrArg (acc (ix2 g j) + ·) ?_
  have hrow : ∀ r : Fin 5000,
      oh (gblk (E3 m) c ⟨n, h⟩ (ix2 r (0 : Fin 1))) g
        * max (eblk (E3 m) c ⟨n, h⟩ (ix2 r j)
            + dblk (E3 m) c ⟨n, h⟩ (ix2 r (0 : Fin 1)) * hblk (E3 m) c ⟨n, h⟩ (ix2 r j)
            + bblk (E3 m) c ⟨n, h⟩ (ix2 (0 : Fin 1) j)) 0
      = oh (abatch m c (node n h r)) g
        * Cert.Gcn.act (ax m c) (asrc m c) (adst m c) (aW m c) (ab m c) (node n h r) j := fun r => by
    rw [blk4_read (E3 m) c ⟨n, h⟩ r (node n h r) rfl, blk0_read (E3 m) c ⟨n, h⟩ r j (node n h r) rfl,
      blk2_read (E3 m) c ⟨n, h⟩ r (node n h r) rfl, blk1_read (E3 m) c ⟨n, h⟩ r j (node n h r) rfl,
      blk3_read (E3 m) c ⟨n, h⟩ j]
    rw [show garr (E3 m) c (ix2 (node n h r) (0 : Fin 1)) = abatch m c (node n h r) from W3_batch m c _,
      show earr (E3 m) c (ix2 (node n h r) j) = _ from W3_edges m c _ j,
      show darr (E3 m) c (ix2 (node n h r) (0 : Fin 1)) = _ from W3_dinv2 m c _,
      show harr (E3 m) c (ix2 (node n h r) j) = _ from W3_h m c _ j,
      show barr (E3 m) c (ix2 (0 : Fin 1) j) = _ from W3_bias m c j]
    unfold Cert.Gcn.act Cert.Gcn.agg
    rw [mul_comm (Cert.Gcn.dinv (adst m c) (node n h r) * Cert.Gcn.dinv (adst m c) (node n h r))]
  rw [← sum_oh (fun r => abatch m c (node n h r)) g
    (fun r => Cert.Gcn.act (ax m c) (asrc m c) (adst m c) (aW m c) (ab m c) (node n h r) j)]
  exact Finset.sum_congr rfl fun r _ => hrow r

/-! ## The four tiles -/

/-- The value the accumulator is reset to is zero everywhere. -/
theorem pay2_apply (g j : Fin 256) : k1_pay2 (F := Ideal) (ix2 g j) = 0 := by
  unfold k1_pay2
  refine (congrFun (shapeCast_self _ _) (ix2 g j)).trans ?_
  exact Ideal.ofBits_zero_f32

/-- What tile n adds at (g, j): the activations of the tile's nodes whose graph id names g. -/
abbrev contrib (n : ℕ) (h : n < cfg1.N) (g j : Fin 256) : EReal :=
  ∑ r ∈ Finset.univ.filter (fun r : Fin 5000 => Lands (abatch m c (node n h r)) g),
    Cert.Gcn.act (ax m c) (asrc m c) (adst m c) (aW m c) (ab m c) (node n h r) j

theorem lt_N1 (t : Fin 4) : t.val < cfg1.N := by rw [show cfg1.N = 4 from N_1]; exact t.isLt

/-- The accumulator after the last tile is the pooled sum: zero plus the four tiles' contributions, which together run
    over all 20000 nodes. -/
theorem acc_last (g j : Fin 256) (h3 : 3 < cfg1.N) :
    (poolAcc (F := Ideal) (E3 m) c 3 h3 : S256x256.Idx → EReal) (ix2 g j)
      = Cert.Gcn.pooled (ax m c) (asrc m c) (adst m c) (abatch m c) (aW m c) (ab m c) g j := by
  have h0 : 0 < cfg1.N := lt_N1 0
  have h1 : 1 < cfg1.N := lt_N1 1
  have h2 : 2 < cfg1.N := lt_N1 2
  have e0 : (poolAcc (F := Ideal) (E3 m) c 0 h0 : S256x256.Idx → EReal) (ix2 g j) = 0 + contrib m c 0 h0 g j :=
    (congrFun (poolAcc_zero (F := Ideal) (E3 m) c h0) (ix2 g j)).trans
      ((tile_step m c 0 h0 _ g j).trans (congrArg (· + contrib m c 0 h0 g j) (pay2_apply g j)))
  have e1 : (poolAcc (F := Ideal) (E3 m) c 1 h1 : S256x256.Idx → EReal) (ix2 g j)
      = 0 + contrib m c 0 h0 g j + contrib m c 1 h1 g j :=
    (congrFun (poolAcc_succ (F := Ideal) (E3 m) c 0 h1) (ix2 g j)).trans
      ((tile_step m c 1 h1 _ g j).trans (congrArg (· + contrib m c 1 h1 g j) e0))
  have e2 : (poolAcc (F := Ideal) (E3 m) c 2 h2 : S256x256.Idx → EReal) (ix2 g j)
      = 0 + contrib m c 0 h0 g j + contrib m c 1 h1 g j + contrib m c 2 h2 g j :=
    (congrFun (poolAcc_succ (F := Ideal) (E3 m) c 1 h2) (ix2 g j)).trans
      ((tile_step m c 2 h2 _ g j).trans (congrArg (· + contrib m c 2 h2 g j) e1))
  have e3 : (poolAcc (F := Ideal) (E3 m) c 3 h3 : S256x256.Idx → EReal) (ix2 g j)
      = 0 + contrib m c 0 h0 g j + contrib m c 1 h1 g j + contrib m c 2 h2 g j + contrib m c 3 h3 g j :=
    (congrFun (poolAcc_succ (F := Ideal) (E3 m) c 2 h3) (ix2 g j)).trans
      ((tile_step m c 3 h3 _ g j).trans (congrArg (· + contrib m c 3 h3 g j) e2))
  rw [e3, zero_add]
  unfold Cert.Gcn.pooled
  rw [← sum_tiles_filter (T := 4) (R := 5000) (fun i : Fin (4 * 5000) => Lands (abatch m c i) g)
    (fun i : Fin (4 * 5000) => Cert.Gcn.act (ax m c) (asrc m c) (adst m c) (aW m c) (ab m c) i j)
    (fun t r => node t.val (lt_N1 t) r) (fun t r => rfl), Fin.sum_univ_four]
  rfl

end Cert.KernelIdeal.Val

end
-- ==== Proof.IPoolHead.lean ====
/-
  The head of the pooling region, read at an index.  At the last tile the accumulator's row g is divided by the
  graph's node count clamped below at 1, contracted with the head's weights over the 256 features, the head's bias
  is added and the logistic function applied: entry (g, 0) of what the last tile stores.
-/
import proofs.«414209_j12506944766171_3_alg».proof.Proof.Gen.KernelIdeal.Skeleton
import proofs.«414209_j12506944766171_3_alg».proof.Proof.IPoolTile
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Cert.KernelIdeal Cert.KernelIdeal.Gen Cert.LibScatter
open Idealize.ShloMosaic Idealize.ShloMosaic.ValueIdx

/-- The float word 0x3F800000 is the extended real 1: its sign bit is 0, its exponent field 127 (the bias) and its
    fraction field 0, so it denotes 2 ^ 23 · 2 ^ (127 - 127 - 23). -/
theorem ofBits_one_f32 : Ideal.ofBits .f32 0x3F800000#32 = 1 := by
  have hneg : ((0x3F800000#32 : BitVec 32).extractLsb' (8 + 23) 1 == 1#1) = false := by decide
  have hex : ((0x3F800000#32 : BitVec 32).extractLsb' 23 8).toNat = 127 := by decide
  have hfr : ((0x3F800000#32 : BitVec 32).extractLsb' 0 23).toNat = 0 := by decide
  show Ideal.ieee 8 23 (0x3F800000#32 : BitVec 32) = 1
  unfold Ideal.ieee
  simp only [hneg, hex, hfr]
  rw [if_neg (by norm_num), if_neg (by norm_num)]
  norm_num

/-! ## The head's contraction: over the features, axis 1 of the left operand and axis 0 of the right -/

theorem lhs_head_0 (i : S256x1.Idx) (q : dot_S256x256_S256x1_S256x1_1_0_0_1_n_n.contr.Idx) :
    (dot_S256x256_S256x1_S256x1_1_0_0_1_n_n.lhsIdx i q 0).val = (i 0).val := by
  unfold DotDims.lhsIdx
  rw [dif_neg (show ¬(0 : Fin S256x256.rank) ∈ dot_S256x256_S256x1_S256x1_1_0_0_1_n_n.lhsBatch by decide), dif_pos (show (0 : Fin S256x256.rank) ∈ dot_S256x256_S256x1_S256x1_1_0_0_1_n_n.lhsNonContracting by decide)]
  rfl
theorem lhs_head_1 (i : S256x1.Idx) (q : dot_S256x256_S256x1_S256x1_1_0_0_1_n_n.contr.Idx) :
    (dot_S256x256_S256x1_S256x1_1_0_0_1_n_n.lhsIdx i q 1).val = (q ⟨0, by decide⟩).val :=
  dot_S256x256_S256x1_S256x1_1_0_0_1_n_n.lhsIdx_val_of_single rfl i q
theorem rhs_head_0 (i : S256x1.Idx) (q : dot_S256x256_S256x1_S256x1_1_0_0_1_n_n.contr.Idx) :
    (dot_S256x256_S256x1_S256x1_1_0_0_1_n_n.rhsIdx i q 0).val = (q ⟨0, by decide⟩).val :=
  dot_S256x256_S256x1_S256x1_1_0_0_1_n_n.rhsIdx_val_of_single rfl i q
theorem rhs_head_1 (i : S256x1.Idx) (q : dot_S256x256_S256x1_S256x1_1_0_0_1_n_n.contr.Idx) :
    (dot_S256x256_S256x1_S256x1_1_0_0_1_n_n.rhsIdx i q 1).val = (i 1).val := by
  unfold DotDims.rhsIdx
  rw [dif_neg (show ¬(1 : Fin S256x1.rank) ∈ dot_S256x256_S256x1_S256x1_1_0_0_1_n_n.rhsBatch by decide), dif_pos (show (1 : Fin S256x1.rank) ∈ dot_S256x256_S256x1_S256x1_1_0_0_1_n_n.rhsNonContracting by decide)]
  rfl

/-- The head's product into zeros at (g, 0): the sum over the features k of the left operand at (g, k) times the right
    operand at (k, 0). -/
theorem head_matmul_apply (A : FVec Ideal S256x256 .f32) (B : FVec Ideal S256x1 .f32) (g : Fin 256) :
    FloatOps.matmul dot_S256x256_S256x1_S256x1_1_0_0_1_n_n none A B (constant (F := Ideal) S256x1 .f32 0x00000000#32) (ix2 g (0 : Fin 1))
      = ∑ k : Fin 256, A (ix2 g k) * B (ix2 k (0 : Fin 1)) := by
  rw [Ideal.matmul_constant_zero_apply, ← Equiv.sum_comp (contrEquiv1 dot_S256x256_S256x1_S256x1_1_0_0_1_n_n 256 rfl rfl).symm]
  refine Finset.sum_congr rfl fun k _ => ?_
  have hk := contrEquiv1_symm_val dot_S256x256_S256x1_S256x1_1_0_0_1_n_n 256 rfl rfl k
  have el : dot_S256x256_S256x1_S256x1_1_0_0_1_n_n.lhsIdx (ix2 g (0 : Fin 1)) ((contrEquiv1 dot_S256x256_S256x1_S256x1_1_0_0_1_n_n 256 rfl rfl).symm k) = ix2 g k := funext fun a => Fin.ext (by
    match a with
    | ⟨0, _⟩ => exact lhs_head_0 _ _
    | ⟨1, _⟩ => exact (lhs_head_1 _ _).trans hk)
  have er : dot_S256x256_S256x1_S256x1_1_0_0_1_n_n.rhsIdx (ix2 g (0 : Fin 1)) ((contrEquiv1 dot_S256x256_S256x1_S256x1_1_0_0_1_n_n 256 rfl rfl).symm k) = ix2 k (0 : Fin 1) := funext fun a => Fin.ext (by
    match a with
    | ⟨0, _⟩ => exact (rhs_head_0 _ _).trans hk
    | ⟨1, _⟩ => exact rhs_head_1 _ _)
  rw [el, er]

/-! ## The head's payload at an index -/

/-- What the last tile stores at (g, 0): the logistic function of the accumulator's row g, divided by the clamped
    count, contracted with the head's weights, plus the head's bias. -/
theorem head_apply (v37 : Vec Ideal S256x256 .f32) (v38 : Vec Ideal S256x1 .f32) (v44 : Vec Ideal S256x1 .f32)
    (v46 : Vec Ideal S1x1 .f32) (g : Fin 256) :
    k1_pay1 (F := Ideal) v37 v38 v44 v46 (ix2 g (0 : Fin 1))
      = Ideal.logistic ((∑ k : Fin 256, Ideal.div (v37 (ix2 g k)) (max (v38 (ix2 g (0 : Fin 1))) 1) * v44 (ix2 k (0 : Fin 1)))
          + v46 (ix2 (0 : Fin 1) (0 : Fin 1))) := by
  unfold k1_pay1
  show Ideal.logistic (_ + _) = _
  refine congrArg Ideal.logistic (congrArg₂ (· + ·) ?_ ?_)
  · refine (head_matmul_apply _ _ g).trans (Finset.sum_congr rfl fun k _ => ?_)
    refine congrArg (· * v44 (ix2 k (0 : Fin 1))) ?_
    show Ideal.div (v37 (ix2 g k)) (broadcastTo S256x256 (maximumf (shapeCast S256x1 v38 shapeCasts_S256x1_S256x1)
      (broadcast S256x1 (FloatOps.ofBits (F := Ideal) .f32 0x3F800000#32))) broadcasts_S256x1_S256x256 (ix2 g k)) = _
    rw [broadcastTo_a1_ab_apply]
    show Ideal.div _ (max (shapeCast S256x1 v38 shapeCasts_S256x1_S256x1 (ix2 g (0 : Fin 1))) (Ideal.ofBits .f32 0x3F800000#32)) = _
    rw [shapeCast_self, ofBits_one_f32]
  · rw [broadcastTo_1b_ab_apply, shapeCast_self]

end Cert.KernelIdeal.Val

end
-- ==== Proof.IPoolValue.lean ====
/-
  The pooling region and the closing reshape, read as a value.  The accumulator is reset at the first tile and gains,
  tile by tile, the product of the tile's one-hot graph-membership matrix (transposed) with the tile's rectified
  activations; a one-hot entry is 1 where the node's graph id names the column and 0 elsewhere, so after the last tile
  the accumulator's entry (g, j) is the sum of the activations of all 20000 nodes whose graph id names g.  The last
  tile divides by the clamped counts, applies the head and the logistic function.  So the program ends with the layer's
  output in main_v52.
-/
import proofs.«414209_j12506944766171_3_alg».proof.Proof.IMain
import proofs.«414209_j12506944766171_3_alg».proof.Proof.IHostA
import proofs.«414209_j12506944766171_3_alg».proof.Proof.IProjValue
import proofs.«414209_j12506944766171_3_alg».proof.Proof.IHostB
import proofs.«414209_j12506944766171_3_alg».proof.Proof.LibScatter
import proofs.«414209_j12506944766171_3_alg».proof.Proof.Spec
import proofs.«414209_j12506944766171_3_alg».proof.Proof.IPoolSum
import proofs.«414209_j12506944766171_3_alg».proof.Proof.IPoolHead
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

namespace Cert.KernelIdeal.Val

open Cert.KernelIdeal Cert.KernelIdeal.Gen Cert.KernelIdeal.Fr Cert.LibScatter
open Idealize.ShloMosaic Idealize.ShloMosaic.TcCoe Idealize.ShloMosaic.ValueIdx Idealize.SL.Sem

/-! ## The windows that hold a whole array at every tile -/

/-- The index maps of the counts', the head's weights', the head's bias's and the output's windows at each of the
    four tiles: every block coordinate is 0. -/
theorem idx1w : ∀ t : Fin cfg1.N,
    win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0 :=
  (by decide +kernel : ∀ t : Fin grid1.N, _)

section Whole

variable (V : (c : Dev nD) → (b : Ref sig .tc) → Buf (Elt Ideal) ((c : Thread nD τ).loc b)) (c : Dev nD)

/-- The counts', the weights' and the head bias's blocks and arrays, each at its literal type. -/
abbrev cblk (t : Fin cfg1.N) : S256x1.Idx → EReal := poolBlk (F := Ideal) V c 5 t
abbrev wblk (t : Fin cfg1.N) : S256x1.Idx → EReal := poolBlk (F := Ideal) V c 6 t
abbrev lblk (t : Fin cfg1.N) : S1x1.Idx → EReal := poolBlk (F := Ideal) V c 7 t
abbrev carr : S256x1.Idx → EReal := V c main_v49
abbrev warr : S256x1.Idx → EReal := V c main_arg5
abbrev larr : S1x1.Idx → EReal := V c main_v50

/-- The counts' block is the whole column. -/
theorem blk5_read (t : Fin cfg1.N) (g : Fin 256) : cblk V c t (ix2 g (0 : Fin 1)) = carr V c (ix2 g (0 : Fin 1)) := by
  show carr V c (((cfg1.win 5).blk t).view.emb (ix2 g (0 : Fin 1))) = _
  refine congrArg _ (funext fun a => Fin.ext ?_)
  obtain ⟨e0, e1, -⟩ := idx1w t
  match a with
  | ⟨0, _⟩ => show win1_5.index t (0 : Fin 2) * 256 + 1 * g.val = g.val; omega
  | ⟨1, _⟩ => show win1_5.index t (1 : Fin 2) * 1 + 1 * 0 = 0; omega

/-- The weights' block is the whole column. -/
theorem blk6_read (t : Fin cfg1.N) (k : Fin 256) : wblk V c t (ix2 k (0 : Fin 1)) = warr V c (ix2 k (0 : Fin 1)) := by
  show warr V c (((cfg1.win 6).blk t).view.emb (ix2 k (0 : Fin 1))) = _
  refine congrArg _ (funext fun a => Fin.ext ?_)
  obtain ⟨-, -, e0, e1, -⟩ := idx1w t
  match a with
  | ⟨0, _⟩ => show win1_6.index t (0 : Fin 2) * 256 + 1 * k.val = k.val; omega
  | ⟨1, _⟩ => show win1_6.index t (1 : Fin 2) * 1 + 1 * 0 = 0; omega

/-- The head bias's block is its one entry. -/
theorem blk7_read (t : Fin cfg1.N) : lblk V c t (ix2 (0 : Fin 1) (0 : Fin 1)) = larr V c (ix2 (0 : Fin 1) (0 : Fin 1)) := by
  show larr V c (((cfg1.win 7).blk t).view.emb (ix2 (0 : Fin 1) (0 : Fin 1))) = _
  refine congrArg _ (funext fun a => Fin.ext ?_)
  obtain ⟨-, -, -, -, e0, e1, -⟩ := idx1w t
  match a with
  | ⟨0, _⟩ => show win1_7.index t (0 : Fin 2) * 1 + 1 * 0 = 0; omega
  | ⟨1, _⟩ => show win1_7.index t (1 : Fin 2) * 1 + 1 * 0 = 0; omega

end Whole

variable (m : (ℓ : Loc nD τ sig) → Buf (Elt Ideal) ℓ) (c : Dev nD)

/-- The accumulator after the last tile is the pooled sum. -/
theorem acc_pooled (g j : Fin 256) :
    (poolAcc (F := Ideal) (E3 m) c 3 (by rw [show cfg1.N = 4 from N_1]; decide) : S256x256.Idx → EReal) (ix2 g j)
      = Cert.Gcn.pooled (ax m c) (asrc m c) (adst m c) (abatch m c) (aW m c) (ab m c) g j :=
  acc_last m c g j _

/-! ## What the last tile stores -/

/-- The column the last tile stores: the head applied to the accumulator after the last tile. -/
abbrev headCol : S256x1.Idx → EReal :=
  k1_pay1 (F := Ideal) (poolAcc (E3 m) c 3 (lt_N1 3)) (poolBlk (E3 m) c 5 t1_3) (poolBlk (E3 m) c 6 t1_3) (poolBlk (E3 m) c 7 t1_3)

/-- Its entry g is the layer's output for graph g. -/
theorem headCol_apply (g : Fin 256) :
    headCol m c (ix2 g (0 : Fin 1))
      = Cert.Gcn.out (ax m c) (asrc m c) (adst m c) (abatch m c) (aW m c) (ab m c) (alw m c) (alb m c) g := by
  refine (head_apply _ _ _ _ g).trans ?_
  unfold Cert.Gcn.out
  have hk : ∀ k : Fin 256,
      Ideal.div ((poolAcc (F := Ideal) (E3 m) c 3 (lt_N1 3) : S256x256.Idx → EReal) (ix2 g k))
          (max (cblk (E3 m) c t1_3 (ix2 g (0 : Fin 1))) 1) * wblk (E3 m) c t1_3 (ix2 k (0 : Fin 1))
        = Ideal.div (Cert.Gcn.pooled (ax m c) (asrc m c) (adst m c) (abatch m c) (aW m c) (ab m c) g k)
          (max (Cert.Gcn.count (abatch m c) g) 1) * alw m c k := fun k => by
    rw [blk5_read (E3 m) c t1_3 g, blk6_read (E3 m) c t1_3 k, acc_last m c g k (lt_N1 3),
      show carr (E3 m) c (ix2 g (0 : Fin 1)) = _ from W3_count m c g,
      show warr (E3 m) c (ix2 k (0 : Fin 1)) = _ from W3_lw m c k]
  have hb : lblk (E3 m) c t1_3 (ix2 (0 : Fin 1) (0 : Fin 1)) = alb m c := by
    rw [blk7_read (E3 m) c t1_3]
    exact W3_lb m c
  exact congrArg Ideal.logistic (congrArg₂ (· + ·) (Finset.sum_congr rfl fun k _ => hk k) hb)

/-! ## The result array -/

/-- An index of the result column is in the output window's block at tile t exactly when each coordinate is in the
    block's range on its axis. -/
theorem mem_blk8 (t : Fin cfg1.N) (i : S256x1.Idx) :
    i ∈ ((cfg1.win 8).blk t).view.set ↔ ∀ a : Fin 2, win1_8.index t a * S256x1.size a ≤ (i a).val
      ∧ (i a).val < win1_8.index t a * S256x1.size a + S256x1.size a := by
  show i ∈ ((View.whole main_v51).slice (win1_8.rect t)).set ↔ _
  rw [View.set_slice_whole, Rect.mem_set_unit]
  exact Iff.rfl

/-- Only the last tile writes the output back, and what it writes is the head's column: the output window's one block
    is the whole array. -/
theorem flushed8 (t : Fin cfg1.N) (hf : (cfg1.win 8).flush t = true) :
    (poolDat (E3 m) c).flushed 8 t = ((cfg1.win 8).blk t).view.read (Elt Ideal) (headCol m c) := by
  have h3 : t.val % 4 = 3 := (flush1_8 t).mp hf
  have ht : t = t1_3 := Fin.ext (by
    have hlt : t.val < 4 := lt_of_lt_of_eq t.isLt N_1
    show t.val = 3; omega)
  subst ht
  show (cfg1.win 8).cut (grid1.coords t1_3) ((poolDat (E3 m) c).after 8 t1_3) = _
  rw [poolAfter8_last]
  funext y
  show headCol m c ((cfg1.win 8).xinj (grid1.coords t1_3) y) = headCol m c (((cfg1.win 8).blk t1_3).view.emb y)
  refine congrArg _ (funext fun a => Fin.ext ?_)
  obtain ⟨-, -, -, -, -, -, e0, e1⟩ := idx1w t1_3
  match a with
  | ⟨0, _⟩ => show (y 0).val = win1_8.index t1_3 (0 : Fin 2) * 256 + 1 * (y 0).val; omega
  | ⟨1, _⟩ => show (y 1).val = win1_8.index t1_3 (1 : Fin 2) * 1 + 1 * (y 1).val; omega

/-- Every index of the result column is in the last tile's block. -/
theorem cover8 (i : S256x1.Idx) :
    ∃ t : Fin cfg1.N, (cfg1.win 8).flush t = true ∧ i ∈ ((cfg1.win 8).blk t).view.set := by
  refine ⟨t1_3, (flush1_8 t1_3).mpr rfl, ?_⟩
  rw [mem_blk8]
  obtain ⟨-, -, -, -, -, -, e0, e1⟩ := idx1w t1_3
  have h0 : (i 0).val < 256 := idx2_lt0 i
  have h1 : (i 1).val < 1 := idx2_lt1 i
  intro a
  match a with
  | ⟨0, _⟩ =>
    show win1_8.index t1_3 (0 : Fin 2) * 256 ≤ (i 0).val ∧ (i 0).val < win1_8.index t1_3 (0 : Fin 2) * 256 + 256
    omega
  | ⟨1, _⟩ =>
    show win1_8.index t1_3 (1 : Fin 2) * 1 ≤ (i 1).val ∧ (i 1).val < win1_8.index t1_3 (1 : Fin 2) * 1 + 1
    omega

/-- The region leaves the head's column in its output array. -/
theorem arr8 : (poolDat (E3 m) c).arrAt 8 cfg1.N = headCol m c :=
  (poolDat (E3 m) c).arrAt_eq_of_cover 8 (headCol m c) (fun t hf => flushed8 m c t hf) cover8

/-- So main_v51 holds it when the region is left. -/
theorem W4_v51 : (W4 (F := Ideal) m c main_v51 : S256x1.Idx → EReal) = headCol m c :=
  (W4_arr m c 8).trans (arr8 m c)

/-- The closing reshape reads the column as a vector: entry g of main_v52 is the column's entry (g, 0). -/
theorem W5_v52 (g : Fin 256) :
    (W5 (F := Ideal) m c main_v52 : S256.Idx → EReal) (ix1 g) = headCol m c (ix2 g (0 : Fin 1)) := by
  have e : (W5 (F := Ideal) m c main_v52 : S256.Idx → EReal)
      = shapeCast S256 (W4 (F := Ideal) m c main_v51 : S256x1.Idx → EReal) shapeCasts_S256x1_S256 := by
    show StableHlo.after hostOps2 (W4 m c) (Proc.devRef .tc main_v52) = _
    after_results
    rfl
  rw [e, W4_v51]
  refine shapeCast_apply _ _ (ix1 g) (ix2 g (0 : Fin 1)) ?_
  rw [Shape.rowMajor_val_two, Shape.rowMajor_val_one]
  show g.val * 1 + 0 = g.val
  omega

/-- THE KERNEL'S VALUE: the program ends with the layer's output in its result array. -/
theorem W5_result :
    (W5 (F := Ideal) m c main_v52 : S256.Idx → EReal)
      = Cert.Gcn.outArr (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) := by
  funext i
  obtain ⟨g, rfl⟩ : ∃ g : Fin 256, i = ix1 g := ⟨i 0, eq_ix1 i⟩
  rw [W5_v52, headCol_apply]
  rfl

end Cert.KernelIdeal.Val

end
-- ==== Proof.RefLoop.lean ====
/-
  The self-loop positions of the extended edge list, and the index word of a self-loop.

  The extended list has 340000 positions: position `e < 320000` is edge `e`, position `320000 + i` is node `i`'s
  self-loop.  A self-loop's source and destination are the 32-bit word of `i` itself.  Since `i < 20000`, that word read
  signed is `i`: it names node `i` and no other node, it is not negative, so wrapping leaves it, and clamping it into the
  table gives `i`.  A sum over the positions under a condition is therefore the sum over the edges under the condition
  plus the sum over the self-loops under it, and a sum over the self-loops whose word names `i` is the one term at `i`.
-/
import proofs.«414209_j12506944766171_3_alg».proof.Proof.Spec
import Idealize.ShloMosaic.Lib.Affine

noncomputable section

namespace Cert.RefSpec

open Idealize.ShloMosaic Cert.LibScatter

/-- The position of edge `e` in the extended list. -/
abbrev edgePos (e : Fin 320000) : Fin 340000 := ⟨e.val, by omega⟩

/-- The position of node `i`'s self-loop in the extended list. -/
abbrev loopPos (i : Fin 20000) : Fin 340000 := ⟨320000 + i.val, by omega⟩

/-- The index word of node `i`'s self-loop. -/
def loopWord (i : Fin 20000) : BitVec 32 := BitVec.ofNat 32 i.val

/-- Read signed, the self-loop's word is the node's number. -/
theorem loopWord_toInt (i : Fin 20000) : (loopWord i).toInt = (i.val : Int) := by
  have hi := i.isLt
  unfold loopWord
  rw [BitVec.toInt_eq_toNat_cond, BitVec.toNat_ofNat]
  have h : i.val % 2 ^ 32 = i.val := Nat.mod_eq_of_lt (by omega)
  rw [h, if_pos (by omega)]

/-- The self-loop of node `k` names node `i` exactly when `k` is `i`. -/
theorem loopWord_lands (k i : Fin 20000) : Lands (loopWord k) i ↔ k = i := by
  unfold Lands
  rw [loopWord_toInt]
  constructor
  · intro h; exact Fin.ext (Int.ofNat_inj.1 h)
  · intro h; rw [h]

/-- A self-loop's word is not negative: wrapping leaves it. -/
theorem wrap_loopWord (i : Fin 20000) : Gcn.wrap (loopWord i) = loopWord i := by
  unfold Gcn.wrap
  have h : ¬ IntOp.cmpi .slt (loopWord i) 0#32 = 1#1 := by
    rw [IntOp.cmpi_slt, loopWord_toInt]
    simp
  rw [ValueIdx.eq_zero_of_ne_one h, ValueIdx.select_zero]

/-- Clamped into the table, a self-loop's word reads node `i`'s row. -/
theorem at_loopWord (i : Fin 20000) : Gcn.«at» (loopWord i) = i := by
  unfold Gcn.«at»
  rw [wrap_loopWord]
  unfold row
  apply Fin.ext
  have hi := i.isLt
  simp only [loopWord_toInt, Int.toNat_natCast]
  omega

/-- A sum over the 340000 positions under a condition: the edges under it, then the self-loops under it. -/
theorem sum_positions {M : Type} [AddCommMonoid M] (p : Fin 340000 → Prop) [DecidablePred p] (f : Fin 340000 → M) :
    ∑ k ∈ Finset.univ.filter p, f k
      = (∑ e ∈ Finset.univ.filter (fun e : Fin 320000 => p (edgePos e)), f (edgePos e))
        + ∑ i ∈ Finset.univ.filter (fun i : Fin 20000 => p (loopPos i)), f (loopPos i) :=
  sum_filter_add (A := 320000) (B := 20000) p f

/-- Of the self-loops, only node `i`'s names node `i`. -/
theorem sum_loops {M : Type} [AddCommMonoid M] (i : Fin 20000) (f : Fin 20000 → M) :
    ∑ k ∈ Finset.univ.filter (fun k : Fin 20000 => Lands (loopWord k) i), f k = f i := by
  have h : Finset.univ.filter (fun k : Fin 20000 => Lands (loopWord k) i) = Finset.univ.filter (fun k : Fin 20000 => k = i) :=
    Finset.filter_congr fun k _ => loopWord_lands k i
  rw [h, sum_filter_eq_self]

end Cert.RefSpec

end
-- ==== Proof.RefEdges.lean ====
/-
  The reference's extended edge list, read at a position.

  The reference concatenates the 320000 sources, and the 320000 destinations, each with the list of the 20000 node
  numbers.  At an edge's position the extended list holds the edge's own word; at a self-loop's position it holds the
  node's word.  Every lookup index is first wrapped (a negative word has the extent added); every accumulation index is
  taken as it is.  This module reads those index columns: at position `p` each is the extended list's entry at `p`,
  wrapped or not.
-/
import proofs.«414209_j12506944766171_3_alg».proof.Defs
import proofs.«414209_j12506944766171_3_alg».proof.Proof.RefRead
import proofs.«414209_j12506944766171_3_alg».proof.Proof.RefLoop

noncomputable section

namespace Cert.RefSpec

open Idealize.ShloMosaic Cert.LibScatter

open Idealize.ShloMosaic.TcCoe Idealize.SL.Sem Cert.ReferenceIdeal Cert.ReferenceIdeal.Read Idealize.ShloMosaic.ValueIdx Idealize.ShloMosaic.StableHlo.Predicate

/-- The float word `0x3F800000` is one. -/
theorem ofBits_one_f32 : Ideal.ofBits .f32 0x3F800000#32 = 1 := by
  simp [Ideal.ofBits, Ideal.ieee, -EReal.coe_mul]; norm_num

section Edges
variable (x1 : (⟨S2x320000, .i32⟩ : BufTy).Contents (Elt Ideal))

/-! ## The extended source and destination lists -/

/-- The extended source list at an edge's position is the edge's source. -/
theorem srcs_edge (e : Fin 320000) : val_main_v3 (F := Ideal) x1 (ix1 (edgePos e)) = x1 (ix2 (0 : Fin 2) e) := by
  unfold val_main_v3
  refine (concatenate_pair_apply_left (t := S340000) (s₁ := S320000) (s₂ := S20000) (0 : Fin S340000.rank) _ _ _ (ix1 (edgePos e)) rfl (ix1 e)
    (fun b => match b with | ⟨0, _⟩ => rfl)).trans ?_
  rw [val_main_v2_apply, val_main_v1_apply]
  congr 1
  funext a
  apply Fin.ext
  match a with
  | ⟨0, _⟩ => rfl
  | ⟨1, _⟩ => exact Nat.mod_eq_of_lt e.isLt

/-- The extended source list at a self-loop's position is the node's own word. -/
theorem srcs_loop (i : Fin 20000) : val_main_v3 (F := Ideal) x1 (ix1 (loopPos i)) = loopWord i := by
  unfold val_main_v3
  refine (concatenate_pair_apply_right (t := S340000) (s₁ := S320000) (s₂ := S20000) (0 : Fin S340000.rank) _ _ _ (ix1 (loopPos i)) rfl rfl (ix1 i)
    (fun b hb => absurd (Subsingleton.elim _ _) hb) (Nat.add_comm _ _)).trans ?_
  rfl

/-- The extended destination list at an edge's position is the edge's destination. -/
theorem dsts_edge (e : Fin 320000) : val_main_v6 (F := Ideal) x1 (ix1 (edgePos e)) = x1 (ix2 (1 : Fin 2) e) := by
  unfold val_main_v6
  refine (concatenate_pair_apply_left (t := S340000) (s₁ := S320000) (s₂ := S20000) (0 : Fin S340000.rank) _ _ _ (ix1 (edgePos e)) rfl (ix1 e)
    (fun b => match b with | ⟨0, _⟩ => rfl)).trans ?_
  rw [val_main_v5_apply, val_main_v4_apply]
  congr 1
  funext a
  apply Fin.ext
  match a with
  | ⟨0, _⟩ => rfl
  | ⟨1, _⟩ => exact Nat.mod_eq_of_lt e.isLt

/-- The extended destination list at a self-loop's position is the node's own word. -/
theorem dsts_loop (i : Fin 20000) : val_main_v6 (F := Ideal) x1 (ix1 (loopPos i)) = loopWord i := by
  unfold val_main_v6
  refine (concatenate_pair_apply_right (t := S340000) (s₁ := S320000) (s₂ := S20000) (0 : Fin S340000.rank) _ _ _ (ix1 (loopPos i)) rfl rfl (ix1 i)
    (fun b hb => absurd (Subsingleton.elim _ _) hb) (Nat.add_comm _ _)).trans ?_
  rfl

/-! ## The destination column the two accumulations over the positions read -/

/-- The degree count's index column at position `p` is the extended destination list's entry. -/
theorem degCol (p : Fin 340000) : val_main_v9 (F := Ideal) x1 (ixP p) = val_main_v6 (F := Ideal) x1 (ix1 p) := by
  rw [val_main_v9_apply]
  exact congrArg _ (funext fun a => match a with | ⟨0, _⟩ => rfl)

/-- The aggregation's index column at position `p` is the extended destination list's entry. -/
theorem aggCol (p : Fin 340000) : val_main_v42 (F := Ideal) x1 (ixP p) = val_main_v6 (F := Ideal) x1 (ix1 p) := by
  rw [val_main_v42_apply]
  exact congrArg _ (funext fun a => match a with | ⟨0, _⟩ => rfl)

/-! ## The wrapped lookup columns, and the rows they read -/

/-- The first normalisation lookup's index column: the wrapped source. -/
theorem normSrcCol (p : Fin 340000) :
    val_main_v20 (F := Ideal) x1 (ixP p) = Gcn.wrap (val_main_v3 (F := Ideal) x1 (ix1 p)) := by
  rw [val_main_v20_apply]
  have e : idx_main_v20 (ixP p) = ix1 p := funext fun a => match a with | ⟨0, _⟩ => rfl
  rw [e, val_main_v19_apply, val_main_v16_apply, val_main_v18_apply, val_main_v15_apply, val_main_c_apply,
    val_main_v17_apply, val_main_c_3_apply]
  rfl

/-- The second normalisation lookup's index column: the wrapped destination. -/
theorem normDstCol (p : Fin 340000) :
    val_main_v27 (F := Ideal) x1 (ixP p) = Gcn.wrap (val_main_v6 (F := Ideal) x1 (ix1 p)) := by
  rw [val_main_v27_apply]
  have e : idx_main_v27 (ixP p) = ix1 p := funext fun a => match a with | ⟨0, _⟩ => rfl
  rw [e, val_main_v26_apply, val_main_v23_apply, val_main_v25_apply, val_main_v22_apply, val_main_c_4_apply,
    val_main_v24_apply, val_main_c_5_apply]
  rfl

/-- The feature lookup's index column: the wrapped source. -/
theorem featCol (p : Fin 340000) :
    val_main_v36 (F := Ideal) x1 (ixP p) = Gcn.wrap (val_main_v3 (F := Ideal) x1 (ix1 p)) := by
  rw [val_main_v36_apply]
  have e : idx_main_v36 (ixP p) = ix1 p := funext fun a => match a with | ⟨0, _⟩ => rfl
  rw [e, val_main_v35_apply, val_main_v32_apply, val_main_v34_apply, val_main_v31_apply, val_main_c_6_apply,
    val_main_v33_apply, val_main_c_7_apply]
  rfl

/-- The row a wrapped edge word reads. -/
theorem row_wrap (v : BitVec 32) : row 20000 (by decide) (Gcn.wrap v) = Gcn.«at» v := rfl

/-- The row a wrapped self-loop word reads is the node's own. -/
theorem row_wrap_loop (i : Fin 20000) : row 20000 (by decide) (Gcn.wrap (loopWord i)) = i := at_loopWord i

end Edges

end Cert.RefSpec

end
-- ==== Proof.RefDeg.lean ====
/-
  The degree and its inverse square root, as the reference computes them.

  The reference counts, over all 340000 positions of the extended list, those whose destination names node `i`.  The
  edges contribute the count of the edges whose destination names `i`; of the 20000 self-loops exactly one names `i`.
  So the count is the edges' count plus one: the degree.  It is a sum of ones plus one, hence positive, so the guard
  `deg > 0` of the reference's inverse square root holds and the guarded value is the inverse square root itself.
-/
import proofs.«414209_j12506944766171_3_alg».proof.Proof.RefEdges

noncomputable section

namespace Cert.RefSpec

open Idealize.ShloMosaic Cert.LibScatter

open Idealize.ShloMosaic.TcCoe Idealize.SL.Sem Cert.ReferenceIdeal Cert.ReferenceIdeal.Read Idealize.ShloMosaic.ValueIdx Idealize.ShloMosaic.StableHlo.Predicate

/-- A degree is positive: a count, which is not negative, plus one. -/
theorem deg_pos (dst : Fin 320000 → BitVec 32) (i : Fin 20000) : 0 < Gcn.deg dst i := by
  unfold Gcn.deg
  exact lt_of_lt_of_le zero_lt_one (le_add_of_nonneg_left (Finset.sum_nonneg fun _ _ => zero_le_one))

/-- The comparison "greater than" on the extended reals, as a bit. -/
theorem cmpf_ogt (x y : Ideal .f32) : FloatOps.cmpf (F := Ideal) .ogt x y = BitVec.ofBool (decide (y < x)) := rfl

/-- The bit of a true condition is one. -/
theorem ofBool_true_one : BitVec.ofBool true = 1#1 := rfl

section Deg
variable (x1 : (⟨S2x320000, .i32⟩ : BufTy).Contents (Elt Ideal))

/-- The reference's degree count over the 340000 positions: the edges whose destination names `i`, and the one
    self-loop that does. -/
theorem deg_stage (i : Fin 20000) :
    val_main_v10 (F := Ideal) x1 (ix1 i) = Gcn.deg (fun e => x1 (ix2 (1 : Fin 2) e)) i := by
  unfold val_main_v10
  rw [scatterAdd_vec_apply scatter_S20000_S340000x1_S340000_n_0_0_1 rfl rfl rfl rfl]
  have h8 : val_main_v8 (F := Ideal) (ix1 i) = 0 := by
    rw [val_main_v8_apply, val_main_cst_0_apply]; exact Ideal.ofBits_zero_f32
  have h7 : ∀ p : Fin 340000, val_main_v7 (F := Ideal) (ix1 p) = 1 := fun p => by
    rw [val_main_v7_apply, val_main_cst_apply]; exact ofBits_one_f32
  rw [h8, zero_add]
  simp only [h7, degCol]
  rw [sum_positions]
  simp only [dsts_edge, dsts_loop]
  rw [sum_loops i (fun _ => (1 : EReal))]
  rfl

/-- The guarded inverse square root takes its first branch: the degree is positive. -/
theorem dinv_stage (i : Fin 20000) :
    val_main_v14 (F := Ideal) x1 (ix1 i) = Gcn.dinv (fun e => x1 (ix2 (1 : Fin 2) e)) i := by
  unfold Gcn.dinv
  rw [val_main_v14_apply, val_main_v12_apply, val_main_v13_apply, val_main_v11_apply, val_main_cst_1_apply, deg_stage,
    cmpf_ogt, Ideal.ofBits_def, Ideal.ofBits_zero_f32, decide_eq_true (deg_pos _ i), ofBool_true_one, select_one,
    Ideal.hostUnary_rsqrt_def]

end Deg

end Cert.RefSpec

end
-- ==== Proof.RefAgg.lean ====
/-
  The reference's aggregation and activation are the layer's.

  Operation by operation: the projection is a sum of products; the three lookups read the row the position's wrapped
  word names; a position's message is its source's projected features times the product of the two normalisations.  At
  an edge's position that is the edge's message; at node `i`'s self-loop, whose word reads row `i`, it is
  `h i j · (dinv i · dinv i)`.  The aggregation sums the messages of the positions whose destination names `i`: the
  edges whose destination names `i`, and of the self-loops exactly node `i`'s.  Adding the bias and taking the maximum
  with zero gives the activation.
-/
import proofs.«414209_j12506944766171_3_alg».proof.Proof.RefDeg

noncomputable section

namespace Cert.RefSpec

open Idealize.ShloMosaic Cert.LibScatter

open Idealize.ShloMosaic.TcCoe Idealize.SL.Sem Cert.ReferenceIdeal Cert.ReferenceIdeal.Read Idealize.ShloMosaic.ValueIdx Idealize.ShloMosaic.StableHlo.Predicate

section Agg
variable (x0 : (⟨S20000x512, .f32⟩ : BufTy).Contents (Elt Ideal)) (x1 : (⟨S2x320000, .i32⟩ : BufTy).Contents (Elt Ideal))
  (x3 : (⟨S512x256, .f32⟩ : BufTy).Contents (Elt Ideal)) (x4 : (⟨S256, .f32⟩ : BufTy).Contents (Elt Ideal))

/-! ## The projected features -/

/-- The reference's projection is the layer's: row `i` of the features against column `j` of the weights. -/
theorem h_stage (i : Fin 20000) (j : Fin 256) :
    val_main_v30 (F := Ideal) x0 x3 (ix2 i j)
      = Gcn.h (fun i k => x0 (ix2 i k)) (fun k j => x3 (ix2 k j)) i j := by
  rw [val_main_v30_apply]
  unfold Gcn.h
  refine Finset.sum_congr rfl fun k _ => ?_
  have el : lidx_main_v30 (ix2 i j) k = ix2 i k := funext fun a => match a with | ⟨0, _⟩ => rfl | ⟨1, _⟩ => rfl
  have er : ridx_main_v30 (ix2 i j) k = ix2 k j := funext fun a => match a with | ⟨0, _⟩ => rfl | ⟨1, _⟩ => rfl
  rw [el, er]

/-! ## The three lookups at a position -/

/-- The normalisation of a position's source: the inverse square root table at the row its wrapped source reads. -/
theorem normSrc (p : Fin 340000) :
    val_main_v21 (F := Ideal) x1 (ix1 p)
      = val_main_v14 (F := Ideal) x1 (ix1 (row 20000 (by decide) (Gcn.wrap (val_main_v3 (F := Ideal) x1 (ix1 p))))) := by
  unfold val_main_v21
  rw [gather_vec_apply (by decide) gather_S20000_S340000x1_S340000_n_0_n_n_0_1_1 rfl rfl rfl rfl, normSrcCol]

/-- The normalisation of a position's destination: the table at the row its wrapped destination reads. -/
theorem normDst (p : Fin 340000) :
    val_main_v28 (F := Ideal) x1 (ix1 p)
      = val_main_v14 (F := Ideal) x1 (ix1 (row 20000 (by decide) (Gcn.wrap (val_main_v6 (F := Ideal) x1 (ix1 p))))) := by
  unfold val_main_v28
  rw [gather_vec_apply (by decide) gather_S20000_S340000x1_S340000_n_0_n_n_0_1_1 rfl rfl rfl rfl, normDstCol]

/-- The features of a position's source: the projected features at the row its wrapped source reads. -/
theorem featSrc (p : Fin 340000) (j : Fin 256) :
    val_main_v37 (F := Ideal) x0 x1 x3 (ix2 p j)
      = val_main_v30 (F := Ideal) x0 x3 (ix2 (row 20000 (by decide) (Gcn.wrap (val_main_v3 (F := Ideal) x1 (ix1 p)))) j) := by
  unfold val_main_v37
  rw [gather_rows_apply (by decide) gather_S20000x256_S340000x1_S340000x256_1_0_n_n_0_1_1256 rfl rfl rfl rfl rfl rfl rfl, featCol]

/-! ## The message of a position -/

/-- A position's message: its source's features, scaled by the product of the two normalisations. -/
theorem upd_stage (p : Fin 340000) (j : Fin 256) :
    val_main_v40 (F := Ideal) x0 x1 x3 (ix2 p j)
      = val_main_v37 (F := Ideal) x0 x1 x3 (ix2 p j)
          * (val_main_v21 (F := Ideal) x1 (ix1 p) * val_main_v28 (F := Ideal) x1 (ix1 p)) := by
  have e : idx_main_v38 (idx_main_v39 (ix2 p j)) = ix1 p := funext fun a => match a with | ⟨0, _⟩ => rfl
  rw [val_main_v40_apply, val_main_v39_apply, val_main_v38_apply, e, val_main_v29_apply]
  rfl

/-- At an edge's position the message is the edge's. -/
theorem upd_edge (e : Fin 320000) (j : Fin 256) :
    val_main_v40 (F := Ideal) x0 x1 x3 (ix2 (edgePos e) j)
      = Gcn.msg (fun i k => x0 (ix2 i k)) (fun e => x1 (ix2 (0 : Fin 2) e)) (fun e => x1 (ix2 (1 : Fin 2) e))
          (fun k j => x3 (ix2 k j)) e j := by
  rw [upd_stage, featSrc, normSrc, normDst, srcs_edge, dsts_edge, row_wrap, row_wrap, h_stage, dinv_stage, dinv_stage]
  rfl

/-- At a self-loop's position the message is the node's own features scaled by its normalisation twice. -/
theorem upd_loop (i : Fin 20000) (j : Fin 256) :
    val_main_v40 (F := Ideal) x0 x1 x3 (ix2 (loopPos i) j)
      = Gcn.h (fun i k => x0 (ix2 i k)) (fun k j => x3 (ix2 k j)) i j
          * (Gcn.dinv (fun e => x1 (ix2 (1 : Fin 2) e)) i * Gcn.dinv (fun e => x1 (ix2 (1 : Fin 2) e)) i) := by
  rw [upd_stage, featSrc, normSrc, normDst, srcs_loop, dsts_loop, row_wrap_loop, h_stage, dinv_stage]

/-! ## The aggregation and the activation -/

/-- The reference's aggregation over the 340000 positions: the messages of the edges whose destination names `i`,
    and the one self-loop's term. -/
theorem agg_stage (i : Fin 20000) (j : Fin 256) :
    val_main_v43 (F := Ideal) x0 x1 x3 (ix2 i j)
      = Gcn.agg (fun i k => x0 (ix2 i k)) (fun e => x1 (ix2 (0 : Fin 2) e)) (fun e => x1 (ix2 (1 : Fin 2) e))
          (fun k j => x3 (ix2 k j)) i j := by
  unfold val_main_v43
  rw [scatterAdd_rows_apply scatter_S20000x256_S340000x1_S340000x256_1_0_0_1 rfl rfl rfl rfl]
  have h41 : val_main_v41 (F := Ideal) (ix2 i j) = 0 := by
    rw [val_main_v41_apply, val_main_cst_8_apply]; exact Ideal.ofBits_zero_f32
  rw [h41, zero_add]
  simp only [aggCol]
  rw [sum_positions]
  simp only [dsts_edge, dsts_loop, upd_edge, upd_loop]
  rw [sum_loops i (fun k => Gcn.h (fun i k => x0 (ix2 i k)) (fun k j => x3 (ix2 k j)) k j
    * (Gcn.dinv (fun e => x1 (ix2 (1 : Fin 2) e)) k * Gcn.dinv (fun e => x1 (ix2 (1 : Fin 2) e)) k))]
  rfl

/-- The bias added and the rectifier applied. -/
theorem act_stage (i : Fin 20000) (j : Fin 256) :
    val_main_v47 (F := Ideal) x0 x1 x3 x4 (ix2 i j)
      = Gcn.act (fun i k => x0 (ix2 i k)) (fun e => x1 (ix2 (0 : Fin 2) e)) (fun e => x1 (ix2 (1 : Fin 2) e))
          (fun k j => x3 (ix2 k j)) (fun j => x4 (ix1 j)) i j := by
  have e : idx_main_v44 (idx_main_v45 (ix2 i j)) = ix1 j := funext fun a => match a with | ⟨0, _⟩ => rfl
  rw [val_main_v47_apply, val_main_v46_apply, val_main_v45_apply, val_main_v44_apply, e, val_main_call1_v0_apply,
    val_main_call1_cst_apply, agg_stage]
  unfold Gcn.act
  rw [Ideal.ofBits_def, Ideal.ofBits_zero_f32]
  rfl

end Agg

end Cert.RefSpec

end
-- ==== Proof.RefPool.lean ====
/-
  The reference's pooling and head are the layer's.

  The pooled sum of graph `g` adds the activations of the nodes whose graph id names `g`; the count adds a one for each
  such node.  The mean divides the pooled sum by the count taken at least one.  The head multiplies the means by its
  weights, sums over the 256 columns, adds its bias, and applies `1 / (1 + exp (-x))`, which is the logistic function as
  the extended reals define it.
-/
import proofs.«414209_j12506944766171_3_alg».proof.Proof.RefAgg

noncomputable section

namespace Cert.RefSpec

open Idealize.ShloMosaic Cert.LibScatter

open Idealize.ShloMosaic.TcCoe Idealize.SL.Sem Cert.ReferenceIdeal Cert.ReferenceIdeal.Read Idealize.ShloMosaic.ValueIdx Idealize.ShloMosaic.StableHlo.Predicate

section Pool
variable (x0 : (⟨S20000x512, .f32⟩ : BufTy).Contents (Elt Ideal)) (x1 : (⟨S2x320000, .i32⟩ : BufTy).Contents (Elt Ideal))
  (x2 : (⟨S20000, .i32⟩ : BufTy).Contents (Elt Ideal)) (x3 : (⟨S512x256, .f32⟩ : BufTy).Contents (Elt Ideal))
  (x4 : (⟨S256, .f32⟩ : BufTy).Contents (Elt Ideal)) (x5 : (⟨S256x1, .f32⟩ : BufTy).Contents (Elt Ideal))
  (x6 : (⟨S1, .f32⟩ : BufTy).Contents (Elt Ideal))

/-! ## Pooling by graph id -/

/-- The pooling's index column at node `i` is the node's graph id. -/
theorem poolCol (i : Fin 20000) : val_main_v49 (F := Ideal) x2 (ixP i) = x2 (ix1 i) := by
  rw [val_main_v49_apply]
  exact congrArg _ (funext fun a => match a with | ⟨0, _⟩ => rfl)

/-- The count's index column at node `i` is the node's graph id. -/
theorem countCol (i : Fin 20000) : val_main_v53 (F := Ideal) x2 (ixP i) = x2 (ix1 i) := by
  rw [val_main_v53_apply]
  exact congrArg _ (funext fun a => match a with | ⟨0, _⟩ => rfl)

/-- Graph `g`'s pooled sum: the activations of the nodes whose graph id names `g`. -/
theorem pooled_stage (g j : Fin 256) :
    val_main_v50 (F := Ideal) x0 x1 x2 x3 x4 (ix2 g j)
      = Gcn.pooled (fun i k => x0 (ix2 i k)) (fun e => x1 (ix2 (0 : Fin 2) e)) (fun e => x1 (ix2 (1 : Fin 2) e))
          (fun i => x2 (ix1 i)) (fun k j => x3 (ix2 k j)) (fun j => x4 (ix1 j)) g j := by
  unfold val_main_v50
  rw [scatterAdd_rows_apply scatter_S256x256_S20000x1_S20000x256_1_0_0_1 rfl rfl rfl rfl]
  have h48 : val_main_v48 (F := Ideal) (ix2 g j) = 0 := by
    rw [val_main_v48_apply, val_main_cst_9_apply]; exact Ideal.ofBits_zero_f32
  rw [h48, zero_add]
  simp only [poolCol, act_stage]
  rfl

/-- Graph `g`'s node count: one for each node whose graph id names `g`. -/
theorem count_stage (g : Fin 256) :
    val_main_v54 (F := Ideal) x2 (ix1 g) = Gcn.count (fun i => x2 (ix1 i)) g := by
  unfold val_main_v54
  rw [scatterAdd_vec_apply scatter_S256_S20000x1_S20000_n_0_0_1 rfl rfl rfl rfl]
  have h52 : val_main_v52 (F := Ideal) (ix1 g) = 0 := by
    rw [val_main_v52_apply, val_main_cst_11_apply]; exact Ideal.ofBits_zero_f32
  have h51 : ∀ i : Fin 20000, val_main_v51 (F := Ideal) (ix1 i) = 1 := fun i => by
    rw [val_main_v51_apply, val_main_cst_10_apply]; exact ofBits_one_f32
  rw [h52, zero_add]
  simp only [h51, countCol]
  rfl

/-- The mean: the pooled sum divided by the count, the count taken at least one. -/
theorem mean_stage (g j : Fin 256) :
    val_main_v59 (F := Ideal) x0 x1 x2 x3 x4 (ix2 g j)
      = Ideal.div (Gcn.pooled (fun i k => x0 (ix2 i k)) (fun e => x1 (ix2 (0 : Fin 2) e)) (fun e => x1 (ix2 (1 : Fin 2) e))
          (fun i => x2 (ix1 i)) (fun k j => x3 (ix2 k j)) (fun j => x4 (ix1 j)) g j)
          (max (Gcn.count (fun i => x2 (ix1 i)) g) 1) := by
  have e : idx_main_v57 (idx_main_v58 (ix2 g j)) = ix1 g := funext fun a => match a with | ⟨0, _⟩ => rfl
  rw [val_main_v59_apply, val_main_v58_apply, val_main_v57_apply, e, val_main_v56_apply, val_main_v55_apply,
    val_main_cst_12_apply, pooled_stage, count_stage, Ideal.hostDivf_def, Ideal.maximumf_def, Ideal.ofBits_def,
    ofBits_one_f32]

/-! ## The logistic head -/

/-- The head's argument: the means against the head's weights, plus its bias. -/
theorem head_stage (g : Fin 256) :
    val_main_v63 (F := Ideal) x0 x1 x2 x3 x4 x5 x6 (ix2 g (0 : Fin 1))
      = (∑ j : Fin 256,
          Ideal.div (Gcn.pooled (fun i k => x0 (ix2 i k)) (fun e => x1 (ix2 (0 : Fin 2) e)) (fun e => x1 (ix2 (1 : Fin 2) e))
            (fun i => x2 (ix1 i)) (fun k j => x3 (ix2 k j)) (fun j => x4 (ix1 j)) g j)
            (max (Gcn.count (fun i => x2 (ix1 i)) g) 1) * x5 (ix2 j (0 : Fin 1)))
        + x6 (ix1 (0 : Fin 1)) := by
  have el : ∀ k : Fin 256, lidx_main_v60 (ix2 g (0 : Fin 1)) k = ix2 g k :=
    fun k => funext fun a => match a with | ⟨0, _⟩ => rfl | ⟨1, _⟩ => rfl
  have er : ∀ k : Fin 256, ridx_main_v60 (ix2 g (0 : Fin 1)) k = ix2 k (0 : Fin 1) :=
    fun k => funext fun a => match a with | ⟨0, _⟩ => rfl | ⟨1, _⟩ => rfl
  have e6 : idx_main_v61 (idx_main_v62 (ix2 g (0 : Fin 1))) = ix1 (0 : Fin 1) :=
    funext fun a => match a with | ⟨0, _⟩ => rfl
  rw [val_main_v63_apply, val_main_v60_apply, val_main_v62_apply, val_main_v61_apply, e6, Ideal.addf_def]
  simp only [el, er, mean_stage]

/-- The reference's last stage at graph `g`: the logistic function, in its expansion `1 / (1 + exp (-x))`, of the head's
    argument. -/
theorem out_stage (g : Fin 256) :
    val_main_v70 (F := Ideal) x0 x1 x2 x3 x4 x5 x6 (ix1 g)
      = Gcn.out (fun i k => x0 (ix2 i k)) (fun e => x1 (ix2 (0 : Fin 2) e)) (fun e => x1 (ix2 (1 : Fin 2) e))
          (fun i => x2 (ix1 i)) (fun k j => x3 (ix2 k j)) (fun j => x4 (ix1 j)) (fun j => x5 (ix2 j (0 : Fin 1)))
          (x6 (ix1 (0 : Fin 1))) g := by
  have e : idx_main_v70 (ix1 g) = ix2 g (0 : Fin 1) :=
    funext fun a => Fin.ext (match a with | ⟨0, _⟩ => Nat.div_one _ | ⟨1, _⟩ => rfl)
  unfold Gcn.out Ideal.logistic
  rw [val_main_v70_apply, e, val_main_v69_apply, val_main_v68_apply, val_main_cst_14_apply, val_main_v67_apply,
    val_main_v66_apply, val_main_cst_13_apply, val_main_v65_apply, val_main_v64_apply, head_stage, Ideal.ofBits_def,
    ofBits_one_f32, Ideal.hostDivf_def, Ideal.addf_def, Ideal.hostUnary_exp_def, Ideal.hostNegf_def, Ideal.negf_def]

end Pool

end Cert.RefSpec

end
-- ==== Proof.RefIsSpec.lean ====
/-
  The reference computes the layer: its run's result, read back one operation at a time, is the graph-convolution
  layer's output (Spec.lean) as a function of the seven argument arrays.

  The reference appends one self-loop per node to the edge list (an iota concatenated after the sources and after the
  destinations) and runs the degree count, the normalisation lookups, the message lookup and the aggregation over all
  340000 positions.  Position `e < 320000` is edge `e`; position `320000 + i` is node `i`'s self-loop, whose source and
  destination are `i` itself, in range.  So a sum over the positions whose destination names node `i` is the sum over the
  edges whose destination names `i`, plus the one self-loop term; the degree is that count plus one, which is positive,
  so the guarded inverse square root always takes its first branch.
-/
import proofs.«414209_j12506944766171_3_alg».proof.Defs
import proofs.«414209_j12506944766171_3_alg».proof.Proof.RefRun
import proofs.«414209_j12506944766171_3_alg».proof.Proof.RefRead
import proofs.«414209_j12506944766171_3_alg».proof.Proof.LibScatter
import proofs.«414209_j12506944766171_3_alg».proof.Proof.Spec
import proofs.«414209_j12506944766171_3_alg».proof.Proof.RefPool

noncomputable section

namespace Cert.RefSpec

open Idealize.ShloMosaic Idealize.ShloMosaic.TcCoe Idealize.SL.Sem Cert.ReferenceIdeal Cert.LibScatter

/-- The reference's last stage is the layer's output, as a function of the seven argument arrays. -/
theorem stage_is_layer (x0 : (⟨S20000x512, .f32⟩ : BufTy).Contents (Elt Ideal)) (x1 : (⟨S2x320000, .i32⟩ : BufTy).Contents (Elt Ideal))
    (x2 : (⟨S20000, .i32⟩ : BufTy).Contents (Elt Ideal)) (x3 : (⟨S512x256, .f32⟩ : BufTy).Contents (Elt Ideal))
    (x4 : (⟨S256, .f32⟩ : BufTy).Contents (Elt Ideal)) (x5 : (⟨S256x1, .f32⟩ : BufTy).Contents (Elt Ideal))
    (x6 : (⟨S1, .f32⟩ : BufTy).Contents (Elt Ideal)) :
    Cert.ReferenceIdeal.Read.val_main_v70 (F := Ideal) x0 x1 x2 x3 x4 x5 x6 = Cert.Gcn.outArr x0 x1 x2 x3 x4 x5 x6 := by
  funext g
  obtain ⟨g, rfl⟩ : ∃ g' : Fin 256, g = ValueIdx.ix1 g' := ⟨g 0, ValueIdx.eq_ix1 g⟩
  exact out_stage x0 x1 x2 x3 x4 x5 x6 g

/-- The reference run's result is the layer's output of the launch memory's argument arrays. -/
theorem result_is_layer (m : (ℓ : Loc nD τ sig) → Buf (Elt Ideal) ℓ) (c : Dev nD) :
    Cert.ReferenceIdeal.Value.res_main_v70 (F := Ideal) m c
      = Cert.Gcn.outArr (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) :=
  (Cert.ReferenceIdeal.Read.val_main_v70_eq m c).trans (stage_is_layer _ _ _ _ _ _ _)

end Cert.RefSpec

end
-- ==== Proof.lean ====
/-
  A graph-convolution layer with symmetric normalisation, a rectifier, mean pooling by graph id and a logistic head:
  a Pallas program against its jnp reference, equal over the extended reals.

  Both programs compute, for each of 256 graphs g,
      logistic ( Σ_j (pooled g j / max (count g) 1) · lin_w j  +  lin_b ),
  where pooled g j sums, over the nodes whose graph id names g, max (agg i j + b j) 0, and agg i j sums over the edges
  whose destination names node i the source's projected features h = x · W scaled by both ends' deg^(-1/2), plus the
  node's own self-loop term h i j · deg i ^ (-1) (Spec.lean states this once, as a function of the seven inputs).

  The reference appends one self-loop per node to the edge list and runs everything over the 340000 positions; the
  kernel counts the self-loop in analytically (degree + 1, and the self term added inside its pooling region), computes
  h in one pipelined region, and pools in a second one that accumulates a one-hot product over four tiles of 5000
  nodes.  Over the extended reals a change of float format is the identity, a matrix product into a zero accumulator
  and a scatter-add are exact sums, and the two arrangements differ by commutativity and associativity of + and · and
  by 1 · x = x, 0 · x = 0 alone: no step needs the inputs to be finite.  An index word outside its table is treated
  alike on both sides (a lookup clamps, an accumulation drops), so the claim holds for every integer input.

  The three frames: each kernel program's run is a list of five segments (host operations, the projection's region,
  host operations, the pooling region, a closing reshape) launched by the library's theorem for such lists, written
  once for any float family (IProj, IPoolRuns, IPool, IMain) and laid out again for the word-level program
  (BProj … BMain); the reference's is its run with the result dropped.  Nothing was rewritten by the idealization, so
  the kernel's idealization is the program's own text.  The values: IHostA, IProjValue, IHostB, IPoolValue read the
  kernel's final result off that run; RefIsSpec reads the reference's.
-/
import proofs.«414209_j12506944766171_3_alg».proof.Defs
import proofs.«414209_j12506944766171_3_alg».proof.Proof.Gen.Kernel
import proofs.«414209_j12506944766171_3_alg».proof.Proof.Gen.KernelIdeal
import proofs.«414209_j12506944766171_3_alg».proof.Proof.Gen.ReferenceIdeal
import proofs.«414209_j12506944766171_3_alg».proof.Proof.Gen.Pre_finite_inputs
import proofs.«414209_j12506944766171_3_alg».proof.Proof.BMain
import proofs.«414209_j12506944766171_3_alg».proof.Proof.IMain
import proofs.«414209_j12506944766171_3_alg».proof.Proof.IPoolValue
import proofs.«414209_j12506944766171_3_alg».proof.Proof.RefIsSpec
import Idealize.ShloMosaic.Adequacy
import Idealize.ShloMosaic.Init

noncomputable section

namespace Cert.Proof

open Idealize.ShloMosaic Idealize.ShloMosaic.TcCoe Idealize.SL.Sem

/-- The word-level program runs to the end and leaves its arguments as launched. -/
theorem frame_kernel : Cert.frame_Kernel := fun m ρ _ => Cert.Kernel.Fr.frame m ρ

/-- So does the idealized program. -/
theorem frame_kernelIdeal : Cert.frame_KernelIdeal := fun m ρ _ => Cert.KernelIdeal.Fr.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments, both idealized programs end with the layer's output of those arguments. -/
theorem algebraic : Cert.algebraic_KernelIdeal_ReferenceIdeal := by
  intro m ρ m' ρ' _ hagree
  refine ⟨fun c => Cert.Gcn.outArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · refine (θ_run Cert.KernelIdeal.defs _ _).mono (fun _ h c => ?_) (Cert.KernelIdeal.Fr.runAll (F := Ideal) m ρ)
    exact ⟨(h c _ (Cert.KernelIdeal.Fr.mem_uc Cert.KernelIdeal.main_v52 (by decide))).trans (Cert.KernelIdeal.Val.W5_result m c),
      (h c _ (Cert.KernelIdeal.Fr.mem_uc Cert.KernelIdeal.main_arg0 (by decide))).trans (Cert.KernelIdeal.Fr.W5_main_arg0 m c),
      (h c _ (Cert.KernelIdeal.Fr.mem_uc Cert.KernelIdeal.main_arg1 (by decide))).trans (Cert.KernelIdeal.Fr.W5_main_arg1 m c),
      (h c _ (Cert.KernelIdeal.Fr.mem_uc Cert.KernelIdeal.main_arg2 (by decide))).trans (Cert.KernelIdeal.Fr.W5_main_arg2 m c),
      (h c _ (Cert.KernelIdeal.Fr.mem_uc Cert.KernelIdeal.main_arg3 (by decide))).trans (Cert.KernelIdeal.Fr.W5_main_arg3 m c),
      (h c _ (Cert.KernelIdeal.Fr.mem_uc Cert.KernelIdeal.main_arg4 (by decide))).trans (Cert.KernelIdeal.Fr.W5_main_arg4 m c),
      (h c _ (Cert.KernelIdeal.Fr.mem_uc Cert.KernelIdeal.main_arg5 (by decide))).trans (Cert.KernelIdeal.Fr.W5_main_arg5 m c),
      (h c _ (Cert.KernelIdeal.Fr.mem_uc Cert.KernelIdeal.main_arg6 (by decide))).trans (Cert.KernelIdeal.Fr.W5_main_arg6 m c)⟩
  · refine (θ_run Cert.ReferenceIdeal.defs _ _).mono (fun _ h c => ⟨(h c).1.trans ?_, (h c).2⟩)
      (Cert.ReferenceIdeal.Value.run (F := Ideal) m' ρ')
    rw [Cert.RefSpec.result_is_layer, (hagree c).1, (hagree c).2.1, (hagree c).2.2.1, (hagree c).2.2.2.1,
      (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
